-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x4096x64 : Shape := ⟨4, ![4, 12, 4096, 64]⟩
abbrev S_ : Shape := ⟨0, ![]⟩

class Facts : Prop where
  bcast_S_S4x12x4096x64 : S_.BroadcastsInDim S4x12x4096x64 (![] : Fin 0 → Fin S4x12x4096x64.rank)
  reducesTo_S4x12x4096x64_S_d0_1_2_3 : S4x12x4096x64.ReducesTo [0, 1, 2, 3] S_
  h_S_ : 0 < S_.numel

variable [Facts]

def fn {F : FTy → Type} [FloatOps F] (main_arg0 : FVec F S4x12x4096x64 .f32) (main_arg1 : FVec F S4x12x4096x64 .f32) (main_arg2 : FVec F S4x12x4096x64 .f32) : IVec S_ 1 :=
  let main_v0 : FVec F S4x12x4096x64 .f32 := Host.absf main_arg0
  let main_cst : FVec F S_ .f32 := constant S_ .f32 0x7F800000#32
  let main_v1 : FVec F S4x12x4096x64 .f32 := broadcastInDim S4x12x4096x64 ![] bcast_S_S4x12x4096x64 main_cst
  let main_v2 : IVec S4x12x4096x64 1 := cmpf .olt main_v0 main_v1
  let main_c : IVec S_ 1 := constantI S_ 1 1#1
  let main_v3 : IVec S_ 1 := (fun x v => Host.reduce IntOp.andi x v reducesTo_S4x12x4096x64_S_d0_1_2_3 h_S_) main_v2 main_c
  let main_v4 : FVec F S4x12x4096x64 .f32 := Host.absf main_arg1
  let main_cst_0 : FVec F S_ .f32 := constant S_ .f32 0x7F800000#32
  let main_v5 : FVec F S4x12x4096x64 .f32 := broadcastInDim S4x12x4096x64 ![] bcast_S_S4x12x4096x64 main_cst_0
  let main_v6 : IVec S4x12x4096x64 1 := cmpf .olt main_v4 main_v5
  let main_c_1 : IVec S_ 1 := constantI S_ 1 1#1
  let main_v7 : IVec S_ 1 := (fun x v => Host.reduce IntOp.andi x v reducesTo_S4x12x4096x64_S_d0_1_2_3 h_S_) main_v6 main_c_1
  let main_v8 : IVec S_ 1 := andi main_v3 main_v7
  let main_v9 : FVec F S4x12x4096x64 .f32 := Host.absf main_arg2
  let main_cst_2 : FVec F S_ .f32 := constant S_ .f32 0x7F800000#32
  let main_v10 : FVec F S4x12x4096x64 .f32 := broadcastInDim S4x12x4096x64 ![] bcast_S_S4x12x4096x64 main_cst_2
  let main_v11 : IVec S4x12x4096x64 1 := cmpf .olt main_v9 main_v10
  let main_c_3 : IVec S_ 1 := constantI S_ 1 1#1
  let main_v12 : IVec S_ 1 := (fun x v => Host.reduce IntOp.andi x v reducesTo_S4x12x4096x64_S_d0_1_2_3 h_S_) main_v11 main_c_3
  let main_v13 : IVec S_ 1 := andi main_v8 main_v12
  main_v13
-- ==== Kernel.lean ====
abbrev S4x12x4096x64 : Shape := ⟨4, ![4, 12, 4096, 64]⟩
abbrev S4x12x64x64x64 : Shape := ⟨5, ![4, 12, 64, 64, 64]⟩
abbrev S_ : Shape := ⟨0, ![]⟩
abbrev S4x12x64x64 : Shape := ⟨4, ![4, 12, 64, 64]⟩
abbrev S48x64x64 : Shape := ⟨3, ![48, 64, 64]⟩
abbrev S48x64 : Shape := ⟨2, ![48, 64]⟩
abbrev S48x64x1 : Shape := ⟨3, ![48, 64, 1]⟩
abbrev S64x64 : Shape := ⟨2, ![64, 64]⟩
abbrev S1x64x64 : Shape := ⟨3, ![1, 64, 64]⟩
abbrev S48 : Shape := ⟨1, ![48]⟩
abbrev S48x1 : Shape := ⟨2, ![48, 1]⟩
abbrev S1 : Shape := ⟨1, ![1]⟩
abbrev S1x1 : Shape := ⟨2, ![1, 1]⟩
abbrev S1x1x1 : Shape := ⟨3, ![1, 1, 1]⟩
abbrev S1x2x4096x64 : Shape := ⟨4, ![1, 2, 4096, 64]⟩
abbrev S1x2x64x64 : Shape := ⟨4, ![1, 2, 64, 64]⟩
abbrev S2x4096x64 : Shape := ⟨3, ![2, 4096, 64]⟩
abbrev S2x64x64 : Shape := ⟨3, ![2, 64, 64]⟩
abbrev S2x4096 : Shape := ⟨2, ![2, 4096]⟩
abbrev S2x4096x1 : Shape := ⟨3, ![2, 4096, 1]⟩
abbrev S2x64x4096 : Shape := ⟨3, ![2, 64, 4096]⟩
abbrev S2x64 : Shape := ⟨2, ![2, 64]⟩
abbrev S2x64x1 : Shape := ⟨3, ![2, 64, 1]⟩

abbrev nBuf : Space → Nat
  | .hbm => 20
  | .vmem => 17
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x64, .f32⟩
  | .hbm, ⟨2, _⟩ => ⟨S4x12x4096x64, .f32⟩
  | .hbm, ⟨3, _⟩ => ⟨S4x12x64x64x64, .f32⟩
  | .hbm, ⟨4, _⟩ => ⟨S_, .f32⟩
  | .hbm, ⟨5, _⟩ => ⟨S4x12x64x64, .f32⟩
  | .hbm, ⟨6, _⟩ => ⟨S_, .f32⟩
  | .hbm, ⟨7, _⟩ => ⟨S4x12x64x64, .f32⟩
  | .hbm, ⟨8, _⟩ => ⟨S4x12x64x64, .f32⟩
  | .hbm, ⟨9, _⟩ => ⟨S4x12x64x64x64, .f32⟩
  | .hbm, ⟨10, _⟩ => ⟨S_, .f32⟩
  | .hbm, ⟨11, _⟩ => ⟨S4x12x64x64, .f32⟩
  | .hbm, ⟨12, _⟩ => ⟨S_, .f32⟩
  | .hbm, ⟨13, _⟩ => ⟨S4x12x64x64, .f32⟩
  | .hbm, ⟨14, _⟩ => ⟨S4x12x64x64, .f32⟩
  | .hbm, ⟨15, _⟩ => ⟨S48x64x64, .f32⟩
  | .hbm, ⟨16, _⟩ => ⟨S48x64x64, .f32⟩
  | .hbm, ⟨17, _⟩ => ⟨S48x64x64, .f32⟩
  | .hbm, ⟨18, _⟩ => ⟨S4x12x64x64, .f32⟩
  | .hbm, ⟨19, _⟩ => ⟨S4x12x4096x64, .f32⟩
  | .local _ .vmem, ⟨0, _⟩ => ⟨S48x64x64, .f32⟩
  | .local _ .vmem, ⟨1, _⟩ => ⟨S48x64x64, .f32⟩
  | .local _ .vmem, ⟨2, _⟩ => ⟨S48x64x64, .f32⟩
  | .local _ .vmem, ⟨3, _⟩ => ⟨S1x2x4096x64, .f32⟩
  | .local _ .vmem, ⟨4, _⟩ => ⟨S1x2x4096x64, .f32⟩
  | .local _ .vmem, ⟨5, _⟩ => ⟨S1x2x4096x64, .f32⟩
  | .local _ .vmem, ⟨6, _⟩ => ⟨S1x2x4096x64, .f32⟩
  | .local _ .vmem, ⟨7, _⟩ => ⟨S1x2x4096x64, .f32⟩
  | .local _ .vmem, ⟨8, _⟩ => ⟨S1x2x4096x64, .f32⟩
  | .local _ .vmem, ⟨9, _⟩ => ⟨S1x2x64x64, .f32⟩
  | .local _ .vmem, ⟨10, _⟩ => ⟨S1x2x64x64, .f32⟩
  | .local _ .vmem, ⟨11, _⟩ => ⟨S1x2x64x64, .f32⟩
  | .local _ .vmem, ⟨12, _⟩ => ⟨S1x2x64x64, .f32⟩
  | .local _ .vmem, ⟨13, _⟩ => ⟨S1x2x64x64, .f32⟩
  | .local _ .vmem, ⟨14, _⟩ => ⟨S1x2x64x64, .f32⟩
  | .local _ .vmem, ⟨15, _⟩ => ⟨S1x2x4096x64, .f32⟩
  | .local _ .vmem, ⟨16, _⟩ => ⟨S1x2x4096x64, .f32⟩
  | _, _ => ⟨S4x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S48x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 6], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x2x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2x4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S4x12x4096x64_S4x12x64x64x64 : S4x12x4096x64.ShapeCasts S4x12x64x64x64
  reducesTo_S4x12x64x64x64_S4x12x64x64_d3 : S4x12x64x64x64.ReducesTo [3] S4x12x64x64
  h_S_ : 0 < S_.numel
  bcast_S_S4x12x64x64 : S_.BroadcastsInDim S4x12x64x64 (![] : Fin 0 → Fin S4x12x64x64.rank)
  shapeCasts_S4x12x64x64_S48x64x64 : S4x12x64x64.ShapeCasts S48x64x64
  inb_S48x64x64_S48x64x64_0_0_0 : ∀ a, (![0, 0, 0] : Fin 3 → Nat) a + S48x64x64.size a ≤ S48x64x64.size a
  h_S48x64x64 : 0 < S48x64x64.numel
  shapeCasts_S48x64x64_S48x64x64 : S48x64x64.ShapeCasts S48x64x64
  bitsLt_bf16_f32 : FTy.bits .bf16 < FTy.bits .f32
  reduces_S48x64x64_S48x64 : S48x64x64.Reduces [2] S48x64
  shapeCasts_S48x64_S48x64x1 : S48x64.ShapeCasts S48x64x1
  broadcasts_S48x64x1_S48x64x64 : S48x64x1.Broadcasts S48x64x64
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  shapeCasts_S1x64x64_S1x64x64 : S1x64x64.ShapeCasts S1x64x64
  broadcasts_S1x64x64_S48x64x64 : S1x64x64.Broadcasts S48x64x64
  reduces_S48x64x64_S48x64_2 : S48x64x64.Reduces [1] S48x64
  reduces_S48x64_S48 : S48x64.Reduces [1] S48
  shapeCasts_S48_S48x1 : S48.ShapeCasts S48x1
  reduces_S48x1_S1 : S48x1.Reduces [0] S1
  shapeCasts_S1_S1x1 : S1.ShapeCasts S1x1
  shapeCasts_S1x1_S1x1x1 : S1x1.ShapeCasts S1x1x1
  transposes_S48x64x64_p0_2_1_S48x64x64 : S48x64x64.Transposes [0, 2, 1] S48x64x64
  broadcasts_S1x1x1_S48x64x64 : S1x1x1.Broadcasts S48x64x64
  shapeCasts_S48x64x64_S4x12x64x64 : S48x64x64.ShapeCasts S4x12x64x64
  inb_S1x2x4096x64_S1x2x4096x64_0_0_0_0 : ∀ a, (![0, 0, 0, 0] : Fin 4 → Nat) a + S1x2x4096x64.size a ≤ S1x2x4096x64.size a
  h_S1x2x4096x64 : 0 < S1x2x4096x64.numel
  shapeCasts_S1x2x4096x64_S2x4096x64 : S1x2x4096x64.ShapeCasts S2x4096x64
  inb_S1x2x64x64_S1x2x64x64_0_0_0_0 : ∀ a, (![0, 0, 0, 0] : Fin 4 → Nat) a + S1x2x64x64.size a ≤ S1x2x64x64.size a
  h_S1x2x64x64 : 0 < S1x2x64x64.numel
  shapeCasts_S1x2x64x64_S2x64x64 : S1x2x64x64.ShapeCasts S2x64x64
  reduces_S2x4096x64_S2x4096 : S2x4096x64.Reduces [2] S2x4096
  shapeCasts_S2x4096_S2x4096x1 : S2x4096.ShapeCasts S2x4096x1
  broadcasts_S2x4096x1_S2x4096x64 : S2x4096x1.Broadcasts S2x4096x64
  reduces_S2x64x4096_S2x64 : S2x64x4096.Reduces [2] S2x64
  shapeCasts_S2x64_S2x64x1 : S2x64.ShapeCasts S2x64x1
  broadcasts_S2x64x1_S2x64x4096 : S2x64x1.Broadcasts S2x64x4096
  shapeCasts_S2x4096x64_S1x2x4096x64 : S2x4096x64.ShapeCasts S1x2x4096x64
  dot_S48x64x64_S48x64x64_S48x64x64_2_2_1_1_0_0_wf : DotDims.WF S48x64x64 S48x64x64 S48x64x64 [2] [2] [1] [1] [0] [0]
  dot_S48x64x64_S48x64x64_S48x64x64_2_1_1_2_0_0_wf : DotDims.WF S48x64x64 S48x64x64 S48x64x64 [2] [1] [1] [2] [0] [0]
  dot_S2x4096x64_S2x64x64_S2x4096x64_2_2_1_1_0_0_wf : DotDims.WF S2x4096x64 S2x64x64 S2x4096x64 [2] [2] [1] [1] [0] [0]
  dot_S2x64x64_S2x4096x64_S2x64x4096_2_2_1_1_0_0_wf : DotDims.WF S2x64x64 S2x4096x64 S2x64x4096 [2] [2] [1] [1] [0] [0]
  dot_S2x64x4096_S2x4096x64_S2x64x64_2_1_1_2_0_0_wf : DotDims.WF S2x64x4096 S2x4096x64 S2x64x64 [2] [1] [1] [2] [0] [0]
  dot_S2x64x64_S2x64x64_S2x64x64_2_1_1_2_0_0_wf : DotDims.WF S2x64x64 S2x64x64 S2x64x64 [2] [1] [1] [2] [0] [0]
  dot_S2x4096x64_S2x64x64_S2x4096x64_2_1_1_2_0_0_wf : DotDims.WF S2x4096x64 S2x64x64 S2x4096x64 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S48x64x64.size a ≤ S48x64x64.size a
  hwx0_0 : ∀ i : grid0.Coords, EltTy.bits .f32 = 32 ∨ (Rect.block (s := S48x64x64) S48x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x64x64.size a ≤ S48x64x64.size a
  hwx0_1 : ∀ i : grid0.Coords, EltTy.bits .f32 = 32 ∨ (Rect.block (s := S48x64x64) S48x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x64x64.size a ≤ S48x64x64.size a
  hwx0_2 : ∀ i : grid0.Coords, EltTy.bits .f32 = 32 ∨ (Rect.block (s := S48x64x64) S48x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x4096x64.size a ≤ S4x12x4096x64.size a
  hwx1_0 : ∀ i : grid1.Coords, EltTy.bits .f32 = 32 ∨ (Rect.block (s := S4x12x4096x64) S1x2x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x4096x64.size a ≤ S4x12x4096x64.size a
  hwx1_1 : ∀ i : grid1.Coords, EltTy.bits .f32 = 32 ∨ (Rect.block (s := S4x12x4096x64) S1x2x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x4096x64.size a ≤ S4x12x4096x64.size a
  hwx1_2 : ∀ i : grid1.Coords, EltTy.bits .f32 = 32 ∨ (Rect.block (s := S4x12x4096x64) S1x2x4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x64x64.size a ≤ S4x12x64x64.size a
  hwx1_3 : ∀ i : grid1.Coords, EltTy.bits .f32 = 32 ∨ (Rect.block (s := S4x12x64x64) S1x2x64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2x64x64.size a ≤ S4x12x64x64.size a
  hwx1_4 : ∀ i : grid1.Coords, EltTy.bits .f32 = 32 ∨ (Rect.block (s := S4x12x64x64) S1x2x64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x64x64.size a ≤ S4x12x64x64.size a
  hwx1_5 : ∀ i : grid1.Coords, EltTy.bits .f32 = 32 ∨ (Rect.block (s := S4x12x64x64) S1x2x64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x4096x64.size a ≤ S4x12x4096x64.size a
  hwx1_6 : ∀ i : grid1.Coords, EltTy.bits .f32 = 32 ∨ (Rect.block (s := S4x12x4096x64) S1x2x4096x64.size (cc1_transform_6 i) (hinb1_6 i)).WholeWords (EltTy.packing .f32)

variable [Facts₀]

def dot_S48x64x64_S48x64x64_S48x64x64_2_2_1_1_0_0 : DotDims S48x64x64 S48x64x64 S48x64x64 where
  lhsContracting := [2]
  rhsContracting := [2]
  lhsNonContracting := [1]
  rhsNonContracting := [1]
  lhsBatch := [0]
  rhsBatch := [0]
  wf := dot_S48x64x64_S48x64x64_S48x64x64_2_2_1_1_0_0_wf
def dot_S48x64x64_S48x64x64_S48x64x64_2_1_1_2_0_0 : DotDims S48x64x64 S48x64x64 S48x64x64 where
  lhsContracting := [2]
  rhsContracting := [1]
  lhsNonContracting := [1]
  rhsNonContracting := [2]
  lhsBatch := [0]
  rhsBatch := [0]
  wf := dot_S48x64x64_S48x64x64_S48x64x64_2_1_1_2_0_0_wf
def dot_S2x4096x64_S2x64x64_S2x4096x64_2_2_1_1_0_0 : DotDims S2x4096x64 S2x64x64 S2x4096x64 where
  lhsContracting := [2]
  rhsContracting := [2]
  lhsNonContracting := [1]
  rhsNonContracting := [1]
  lhsBatch := [0]
  rhsBatch := [0]
  wf := dot_S2x4096x64_S2x64x64_S2x4096x64_2_2_1_1_0_0_wf
def dot_S2x64x64_S2x4096x64_S2x64x4096_2_2_1_1_0_0 : DotDims S2x64x64 S2x4096x64 S2x64x4096 where
  lhsContracting := [2]
  rhsContracting := [2]
  lhsNonContracting := [1]
  rhsNonContracting := [1]
  lhsBatch := [0]
  rhsBatch := [0]
  wf := dot_S2x64x64_S2x4096x64_S2x64x4096_2_2_1_1_0_0_wf
def dot_S2x64x4096_S2x4096x64_S2x64x64_2_1_1_2_0_0 : DotDims S2x64x4096 S2x4096x64 S2x64x64 where
  lhsContracting := [2]
  rhsContracting := [1]
  lhsNonContracting := [1]
  rhsNonContracting := [2]
  lhsBatch := [0]
  rhsBatch := [0]
  wf := dot_S2x64x4096_S2x4096x64_S2x64x64_2_1_1_2_0_0_wf
def dot_S2x64x64_S2x64x64_S2x64x64_2_1_1_2_0_0 : DotDims S2x64x64 S2x64x64 S2x64x64 where
  lhsContracting := [2]
  rhsContracting := [1]
  lhsNonContracting := [1]
  rhsNonContracting := [2]
  lhsBatch := [0]
  rhsBatch := [0]
  wf := dot_S2x64x64_S2x64x64_S2x64x64_2_1_1_2_0_0_wf
def dot_S2x4096x64_S2x64x64_S2x4096x64_2_1_1_2_0_0 : DotDims S2x4096x64 S2x64x64 S2x4096x64 where
  lhsContracting := [2]
  rhsContracting := [1]
  lhsNonContracting := [1]
  rhsNonContracting := [2]
  lhsBatch := [0]
  rhsBatch := [0]
  wf := dot_S2x4096x64_S2x64x64_S2x4096x64_2_1_1_2_0_0_wf

abbrev win0_0 : Pipeline.Window sig grid0 :=
  Pipeline.Window.ofSpec (Memref.whole main_v8) S48x64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S48x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S48x64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x2x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x2x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x2x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x2x64x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x2x64x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x2x4096x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x12x4096x64 : Shape := ⟨4, ![4, 12, 4096, 64]⟩
abbrev S4x12x64x64x64 : Shape := ⟨5, ![4, 12, 64, 64, 64]⟩
abbrev S_ : Shape := ⟨0, ![]⟩
abbrev S4x12x64x64 : Shape := ⟨4, ![4, 12, 64, 64]⟩
abbrev S4x12x4096 : Shape := ⟨3, ![4, 12, 4096]⟩
abbrev S4x12x4096x1 : Shape := ⟨4, ![4, 12, 4096, 1]⟩
abbrev S4x12x64 : Shape := ⟨3, ![4, 12, 64]⟩
abbrev S4x12x64x1 : Shape := ⟨4, ![4, 12, 64, 1]⟩
abbrev S64x64 : Shape := ⟨2, ![64, 64]⟩
abbrev S1x1x64x64 : Shape := ⟨4, ![1, 1, 64, 64]⟩
abbrev S4x12x64x4096 : Shape := ⟨4, ![4, 12, 64, 4096]⟩

abbrev nBuf : Space → Nat
  | .hbm => 255
  | .vmem => 0
  | .smem => 0
  | _ => 0

abbrev hbmTy0_0 (i : Nat) : BufTy := match i % 128 with
  | 0 => ⟨S4x12x4096x64, .f32⟩
  | 1 => ⟨S4x12x4096x64, .f32⟩
  | 2 => ⟨S4x12x4096x64, .f32⟩
  | 3 => ⟨S4x12x64x64x64, .f32⟩
  | 4 => ⟨S_, .f32⟩
  | 5 => ⟨S4x12x64x64, .f32⟩
  | 6 => ⟨S_, .f32⟩
  | 7 => ⟨S4x12x64x64, .f32⟩
  | 8 => ⟨S4x12x64x64, .f32⟩
  | 9 => ⟨S4x12x64x64x64, .f32⟩
  | 10 => ⟨S_, .f32⟩
  | 11 => ⟨S4x12x64x64, .f32⟩
  | 12 => ⟨S_, .f32⟩
  | 13 => ⟨S4x12x64x64, .f32⟩
  | 14 => ⟨S4x12x64x64, .f32⟩
  | 15 => ⟨S4x12x4096x64, .f32⟩
  | 16 => ⟨S_, .f32⟩
  | 17 => ⟨S4x12x4096x64, .f32⟩
  | 18 => ⟨S4x12x4096x64, .f32⟩
  | 19 => ⟨S_, .f32⟩
  | 20 => ⟨S4x12x4096, .f32⟩
  | 21 => ⟨S_, .f32⟩
  | 22 => ⟨S4x12x4096, .f32⟩
  | 23 => ⟨S4x12x4096, .f32⟩
  | 24 => ⟨S4x12x4096x1, .f32⟩
  | 25 => ⟨S4x12x4096x64, .f32⟩
  | 26 => ⟨S4x12x4096x64, .f32⟩
  | 27 => ⟨S4x12x4096x64, .f32⟩
  | 28 => ⟨S_, .f32⟩
  | 29 => ⟨S4x12x4096, .f32⟩
  | 30 => ⟨S4x12x4096x1, .f32⟩
  | 31 => ⟨S4x12x4096x64, .f32⟩
  | 32 => ⟨S4x12x4096x64, .f32⟩
  | 33 => ⟨S4x12x64x64, .f32⟩
  | 34 => ⟨S_, .f32⟩
  | 35 => ⟨S4x12x64x64, .f32⟩
  | 36 => ⟨S4x12x64x64, .f32⟩
  | 37 => ⟨S_, .f32⟩
  | 38 => ⟨S4x12x64, .f32⟩
  | 39 => ⟨S_, .f32⟩
  | 40 => ⟨S4x12x64, .f32⟩
  | 41 => ⟨S4x12x64, .f32⟩
  | 42 => ⟨S4x12x64x1, .f32⟩
  | 43 => ⟨S4x12x64x64, .f32⟩
  | 44 => ⟨S4x12x64x64, .f32⟩
  | 45 => ⟨S4x12x64x64, .f32⟩
  | 46 => ⟨S_, .f32⟩
  | 47 => ⟨S4x12x64, .f32⟩
  | 48 => ⟨S4x12x64x1, .f32⟩
  | 49 => ⟨S4x12x64x64, .f32⟩
  | 50 => ⟨S4x12x64x64, .f32⟩
  | 51 => ⟨S64x64, .i32⟩
  | 52 => ⟨S64x64, .i32⟩
  | 53 => ⟨S_, .i32⟩
  | 54 => ⟨S64x64, .i32⟩
  | 55 => ⟨S64x64, .i32⟩
  | 56 => ⟨S64x64, .i1⟩
  | 57 => ⟨S64x64, .f32⟩
  | 58 => ⟨S4x12x64x64, .f32⟩
  | 59 => ⟨S_, .f32⟩
  | 60 => ⟨S4x12x64, .f32⟩
  | 61 => ⟨S_, .f32⟩
  | 62 => ⟨S_, .f32⟩
  | 63 => ⟨S4x12x64x64, .f32⟩
  | 64 => ⟨S_, .f32⟩
  | 65 => ⟨S4x12x64, .f32⟩
  | 66 => ⟨S_, .f32⟩
  | 67 => ⟨S_, .f32⟩
  | 68 => ⟨S_, .f32⟩
  | 69 => ⟨S4x12x64x64, .f32⟩
  | 70 => ⟨S4x12x64x64, .f32⟩
  | 71 => ⟨S4x12x64x64, .f32⟩
  | 72 => ⟨S_, .f32⟩
  | 73 => ⟨S64x64, .f32⟩
  | 74 => ⟨S64x64, .f32⟩
  | 75 => ⟨S4x12x64x64, .f32⟩
  | 76 => ⟨S1x1x64x64, .f32⟩
  | 77 => ⟨S4x12x64x64, .f32⟩
  | 78 => ⟨S4x12x64x64, .f32⟩
  | 79 => ⟨S_, .f32⟩
  | 80 => ⟨S64x64, .f32⟩
  | 81 => ⟨S64x64, .f32⟩
  | 82 => ⟨S4x12x64x64, .f32⟩
  | 83 => ⟨S4x12x64x64, .f32⟩
  | 84 => ⟨S1x1x64x64, .f32⟩
  | 85 => ⟨S4x12x64x64, .f32⟩
  | 86 => ⟨S4x12x64x64, .f32⟩
  | 87 => ⟨S_, .f32⟩
  | 88 => ⟨S64x64, .f32⟩
  | 89 => ⟨S64x64, .f32⟩
  | 90 => ⟨S4x12x64x64, .f32⟩
  | 91 => ⟨S4x12x64x64, .f32⟩
  | 92 => ⟨S1x1x64x64, .f32⟩
  | 93 => ⟨S4x12x64x64, .f32⟩
  | 94 => ⟨S4x12x64x64, .f32⟩
  | 95 => ⟨S4x12x64x64, .f32⟩
  | 96 => ⟨S_, .f32⟩
  | 97 => ⟨S4x12x64x64, .f32⟩
  | 98 => ⟨S4x12x64x64, .f32⟩
  | 99 => ⟨S_, .f32⟩
  | 100 => ⟨S64x64, .f32⟩
  | 101 => ⟨S64x64, .f32⟩
  | 102 => ⟨S4x12x64x64, .f32⟩
  | 103 => ⟨S1x1x64x64, .f32⟩
  | 104 => ⟨S4x12x64x64, .f32⟩
  | 105 => ⟨S4x12x64x64, .f32⟩
  | 106 => ⟨S_, .f32⟩
  | 107 => ⟨S64x64, .f32⟩
  | 108 => ⟨S64x64, .f32⟩
  | 109 => ⟨S4x12x64x64, .f32⟩
  | 110 => ⟨S4x12x64x64, .f32⟩
  | 111 => ⟨S1x1x64x64, .f32⟩
  | 112 => ⟨S4x12x64x64, .f32⟩
  | 113 => ⟨S4x12x64x64, .f32⟩
  | 114 => ⟨S_, .f32⟩
  | 115 => ⟨S64x64, .f32⟩
  | 116 => ⟨S64x64, .f32⟩
  | 117 => ⟨S4x12x64x64, .f32⟩
  | 118 => ⟨S4x12x64x64, .f32⟩
  | 119 => ⟨S1x1x64x64, .f32⟩
  | 120 => ⟨S4x12x64x64, .f32⟩
  | 121 => ⟨S4x12x64x64, .f32⟩
  | 122 => ⟨S4x12x64x64, .f32⟩
  | 123 => ⟨S_, .f32⟩
  | 124 => ⟨S4x12x64x64, .f32⟩
  | 125 => ⟨S4x12x64x64, .f32⟩
  | 126 => ⟨S_, .f32⟩
  | 127 => ⟨S64x64, .f32⟩
  | _ => ⟨S4x12x4096x64, .f32⟩

abbrev hbmTy0_1 (i : Nat) : BufTy := match i % 128 with
  | 0 => ⟨S64x64, .f32⟩
  | 1 => ⟨S4x12x64x64, .f32⟩
  | 2 => ⟨S1x1x64x64, .f32⟩
  | 3 => ⟨S4x12x64x64, .f32⟩
  | 4 => ⟨S4x12x64x64, .f32⟩
  | 5 => ⟨S_, .f32⟩
  | 6 => ⟨S64x64, .f32⟩
  | 7 => ⟨S64x64, .f32⟩
  | 8 => ⟨S4x12x64x64, .f32⟩
  | 9 => ⟨S4x12x64x64, .f32⟩
  | 10 => ⟨S1x1x64x64, .f32⟩
  | 11 => ⟨S4x12x64x64, .f32⟩
  | 12 => ⟨S4x12x64x64, .f32⟩
  | 13 => ⟨S_, .f32⟩
  | 14 => ⟨S64x64, .f32⟩
  | 15 => ⟨S64x64, .f32⟩
  | 16 => ⟨S4x12x64x64, .f32⟩
  | 17 => ⟨S4x12x64x64, .f32⟩
  | 18 => ⟨S1x1x64x64, .f32⟩
  | 19 => ⟨S4x12x64x64, .f32⟩
  | 20 => ⟨S4x12x64x64, .f32⟩
  | 21 => ⟨S4x12x64x64, .f32⟩
  | 22 => ⟨S_, .f32⟩
  | 23 => ⟨S4x12x64x64, .f32⟩
  | 24 => ⟨S4x12x64x64, .f32⟩
  | 25 => ⟨S_, .f32⟩
  | 26 => ⟨S64x64, .f32⟩
  | 27 => ⟨S64x64, .f32⟩
  | 28 => ⟨S4x12x64x64, .f32⟩
  | 29 => ⟨S1x1x64x64, .f32⟩
  | 30 => ⟨S4x12x64x64, .f32⟩
  | 31 => ⟨S4x12x64x64, .f32⟩
  | 32 => ⟨S_, .f32⟩
  | 33 => ⟨S64x64, .f32⟩
  | 34 => ⟨S64x64, .f32⟩
  | 35 => ⟨S4x12x64x64, .f32⟩
  | 36 => ⟨S4x12x64x64, .f32⟩
  | 37 => ⟨S1x1x64x64, .f32⟩
  | 38 => ⟨S4x12x64x64, .f32⟩
  | 39 => ⟨S4x12x64x64, .f32⟩
  | 40 => ⟨S_, .f32⟩
  | 41 => ⟨S64x64, .f32⟩
  | 42 => ⟨S64x64, .f32⟩
  | 43 => ⟨S4x12x64x64, .f32⟩
  | 44 => ⟨S4x12x64x64, .f32⟩
  | 45 => ⟨S1x1x64x64, .f32⟩
  | 46 => ⟨S4x12x64x64, .f32⟩
  | 47 => ⟨S4x12x64x64, .f32⟩
  | 48 => ⟨S4x12x64x64, .f32⟩
  | 49 => ⟨S_, .f32⟩
  | 50 => ⟨S4x12x64x64, .f32⟩
  | 51 => ⟨S4x12x64x64, .f32⟩
  | 52 => ⟨S_, .f32⟩
  | 53 => ⟨S64x64, .f32⟩
  | 54 => ⟨S64x64, .f32⟩
  | 55 => ⟨S4x12x64x64, .f32⟩
  | 56 => ⟨S1x1x64x64, .f32⟩
  | 57 => ⟨S4x12x64x64, .f32⟩
  | 58 => ⟨S4x12x64x64, .f32⟩
  | 59 => ⟨S_, .f32⟩
  | 60 => ⟨S64x64, .f32⟩
  | 61 => ⟨S64x64, .f32⟩
  | 62 => ⟨S4x12x64x64, .f32⟩
  | 63 => ⟨S4x12x64x64, .f32⟩
  | 64 => ⟨S1x1x64x64, .f32⟩
  | 65 => ⟨S4x12x64x64, .f32⟩
  | 66 => ⟨S4x12x64x64, .f32⟩
  | 67 => ⟨S_, .f32⟩
  | 68 => ⟨S64x64, .f32⟩
  | 69 => ⟨S64x64, .f32⟩
  | 70 => ⟨S4x12x64x64, .f32⟩
  | 71 => ⟨S4x12x64x64, .f32⟩
  | 72 => ⟨S1x1x64x64, .f32⟩
  | 73 => ⟨S4x12x64x64, .f32⟩
  | 74 => ⟨S4x12x64x64, .f32⟩
  | 75 => ⟨S4x12x64x64, .f32⟩
  | 76 => ⟨S_, .f32⟩
  | 77 => ⟨S4x12x64x64, .f32⟩
  | 78 => ⟨S4x12x64x64, .f32⟩
  | 79 => ⟨S_, .f32⟩
  | 80 => ⟨S64x64, .f32⟩
  | 81 => ⟨S64x64, .f32⟩
  | 82 => ⟨S4x12x64x64, .f32⟩
  | 83 => ⟨S1x1x64x64, .f32⟩
  | 84 => ⟨S4x12x64x64, .f32⟩
  | 85 => ⟨S4x12x64x64, .f32⟩
  | 86 => ⟨S_, .f32⟩
  | 87 => ⟨S64x64, .f32⟩
  | 88 => ⟨S64x64, .f32⟩
  | 89 => ⟨S4x12x64x64, .f32⟩
  | 90 => ⟨S4x12x64x64, .f32⟩
  | 91 => ⟨S1x1x64x64, .f32⟩
  | 92 => ⟨S4x12x64x64, .f32⟩
  | 93 => ⟨S4x12x64x64, .f32⟩
  | 94 => ⟨S_, .f32⟩
  | 95 => ⟨S64x64, .f32⟩
  | 96 => ⟨S64x64, .f32⟩
  | 97 => ⟨S4x12x64x64, .f32⟩
  | 98 => ⟨S4x12x64x64, .f32⟩
  | 99 => ⟨S1x1x64x64, .f32⟩
  | 100 => ⟨S4x12x64x64, .f32⟩
  | 101 => ⟨S4x12x64x64, .f32⟩
  | 102 => ⟨S4x12x64x64, .f32⟩
  | 103 => ⟨S_, .f32⟩
  | 104 => ⟨S4x12x64x64, .f32⟩
  | 105 => ⟨S4x12x64x64, .f32⟩
  | 106 => ⟨S4x12x64x4096, .f32⟩
  | 107 => ⟨S_, .f32⟩
  | 108 => ⟨S4x12x64x4096, .f32⟩
  | 109 => ⟨S4x12x64x4096, .f32⟩
  | 110 => ⟨S_, .f32⟩
  | 111 => ⟨S4x12x64, .f32⟩
  | 112 => ⟨S_, .f32⟩
  | 113 => ⟨S4x12x64, .f32⟩
  | 114 => ⟨S4x12x64, .f32⟩
  | 115 => ⟨S4x12x64x1, .f32⟩
  | 116 => ⟨S4x12x64x4096, .f32⟩
  | 117 => ⟨S4x12x64x4096, .f32⟩
  | 118 => ⟨S4x12x64x4096, .f32⟩
  | 119 => ⟨S_, .f32⟩
  | 120 => ⟨S4x12x64, .f32⟩
  | 121 => ⟨S4x12x64x1, .f32⟩
  | 122 => ⟨S4x12x64x4096, .f32⟩
  | 123 => ⟨S4x12x64x4096, .f32⟩
  | 124 => ⟨S4x12x64x64, .f32⟩
  | 125 => ⟨S4x12x64x64, .f32⟩
  | 126 => ⟨S4x12x4096x64, .f32⟩
  | _ => ⟨S4x12x4096x64, .f32⟩

abbrev hbmTy (i : Nat) : BufTy := match i / 128 with
  | 0 => hbmTy0_0 i
  | 1 => hbmTy0_1 i
  | _ => ⟨S4x12x4096x64, .f32⟩

abbrev bufTy : (tb : Table) → Fin (tcTables nBuf tb) → BufTy
  | .hbm, ⟨i, _⟩ => hbmTy i
  | _, _ => ⟨S4x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_cst_14 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_20 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_v97 : Ref sig .tc := ⟨.hbm, 125, rfl⟩
abbrev main_cst_23 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_24 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_25 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_26 : Ref sig .tc := ⟨.hbm, 150, rfl⟩
abbrev main_v119 : Ref sig .tc := ⟨.hbm, 151, rfl⟩
abbrev main_v120 : Ref sig .tc := ⟨.hbm, 152, rfl⟩
abbrev main_cst_27 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_28 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_29 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_30 : Ref sig .tc := ⟨.hbm, 177, rfl⟩
abbrev main_v142 : Ref sig .tc := ⟨.hbm, 178, rfl⟩
abbrev main_v143 : Ref sig .tc := ⟨.hbm, 179, rfl⟩
abbrev main_cst_31 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_32 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_33 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_34 : Ref sig .tc := ⟨.hbm, 204, rfl⟩
abbrev main_v165 : Ref sig .tc := ⟨.hbm, 205, rfl⟩
abbrev main_v166 : Ref sig .tc := ⟨.hbm, 206, rfl⟩
abbrev main_cst_35 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_cst_36 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_cst_37 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_cst_38 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_cst_39 : Ref sig .tc := ⟨.hbm, 235, rfl⟩
abbrev main_v191 : Ref sig .tc := ⟨.hbm, 236, rfl⟩
abbrev main_v192 : Ref sig .tc := ⟨.hbm, 237, rfl⟩
abbrev main_cst_40 : Ref sig .tc := ⟨.hbm, 238, rfl⟩
abbrev main_v193 : Ref sig .tc := ⟨.hbm, 239, rfl⟩
abbrev main_cst_41 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_cst_42 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩

abbrev nD : Nat := 1
abbrev τ : Topo := Topo.v7x

variable {F : FTy → Type} [FloatOps F]

class Facts₀ : Prop where
  shapeCasts_S4x12x4096x64_S4x12x64x64x64 : S4x12x4096x64.ShapeCasts S4x12x64x64x64
  reducesTo_S4x12x64x64x64_S4x12x64x64_d3 : S4x12x64x64x64.ReducesTo [3] S4x12x64x64
  h_S_ : 0 < S_.numel
  bcast_S_S4x12x64x64 : S_.BroadcastsInDim S4x12x64x64 (![] : Fin 0 → Fin S4x12x64x64.rank)
  bcast_S_S4x12x4096x64 : S_.BroadcastsInDim S4x12x4096x64 (![] : Fin 0 → Fin S4x12x4096x64.rank)
  reducesTo_S4x12x4096x64_S4x12x4096_d3 : S4x12x4096x64.ReducesTo [3] S4x12x4096
  bcast_S_S4x12x4096 : S_.BroadcastsInDim S4x12x4096 (![] : Fin 0 → Fin S4x12x4096.rank)
  bcast_S4x12x4096_S4x12x4096x1_0_1_2 : S4x12x4096.BroadcastsInDim S4x12x4096x1 (![0, 1, 2] : Fin 3 → Fin S4x12x4096x1.rank)
  bcast_S4x12x4096x1_S4x12x4096x64_0_1_2_3 : S4x12x4096x1.BroadcastsInDim S4x12x4096x64 (![0, 1, 2, 3] : Fin 4 → Fin S4x12x4096x64.rank)
  reducesTo_S4x12x64x64_S4x12x64_d3 : S4x12x64x64.ReducesTo [3] S4x12x64
  bcast_S_S4x12x64 : S_.BroadcastsInDim S4x12x64 (![] : Fin 0 → Fin S4x12x64.rank)
  bcast_S4x12x64_S4x12x64x1_0_1_2 : S4x12x64.BroadcastsInDim S4x12x64x1 (![0, 1, 2] : Fin 3 → Fin S4x12x64x1.rank)
  bcast_S4x12x64x1_S4x12x64x64_0_1_2_3 : S4x12x64x1.BroadcastsInDim S4x12x64x64 (![0, 1, 2, 3] : Fin 4 → Fin S4x12x64x64.rank)
  bcast_S_S64x64 : S_.BroadcastsInDim S64x64 (![] : Fin 0 → Fin S64x64.rank)
  reducesTo_S4x12x64x64_S4x12x64_d2 : S4x12x64x64.ReducesTo [2] S4x12x64
  reducesTo_S4x12x64_S_d0_1_2 : S4x12x64.ReducesTo [0, 1, 2] S_
  transposes_S4x12x64x64_S4x12x64x64_0_1_3_2 : S4x12x64x64.Transposes [0, 1, 3, 2] S4x12x64x64
  bcast_S64x64_S1x1x64x64_2_3 : S64x64.BroadcastsInDim S1x1x64x64 (![2, 3] : Fin 2 → Fin S1x1x64x64.rank)
  bcast_S1x1x64x64_S4x12x64x64_0_1_2_3 : S1x1x64x64.BroadcastsInDim S4x12x64x64 (![0, 1, 2, 3] : Fin 4 → Fin S4x12x64x64.rank)
  bcast_S_S4x12x64x4096 : S_.BroadcastsInDim S4x12x64x4096 (![] : Fin 0 → Fin S4x12x64x4096.rank)
  reducesTo_S4x12x64x4096_S4x12x64_d3 : S4x12x64x4096.ReducesTo [3] S4x12x64
  bcast_S4x12x64x1_S4x12x64x4096_0_1_2_3 : S4x12x64x1.BroadcastsInDim S4x12x64x4096 (![0, 1, 2, 3] : Fin 4 → Fin S4x12x64x4096.rank)
  dot_S4x12x4096x64_S4x12x64x64_S4x12x4096x64_3_3_2_2_01_01_wf : DotDims.WF S4x12x4096x64 S4x12x64x64 S4x12x4096x64 [3] [3] [2] [2] [0, 1] [0, 1]
  dot_S4x12x64x64_S4x12x64x64_S4x12x64x64_3_3_2_2_01_01_wf : DotDims.WF S4x12x64x64 S4x12x64x64 S4x12x64x64 [3] [3] [2] [2] [0, 1] [0, 1]
  dot_S4x12x64x64_S4x12x64x64_S4x12x64x64_3_2_2_3_01_01_wf : DotDims.WF S4x12x64x64 S4x12x64x64 S4x12x64x64 [3] [2] [2] [3] [0, 1] [0, 1]
  dot_S4x12x64x64_S4x12x4096x64_S4x12x64x4096_3_3_2_2_01_01_wf : DotDims.WF S4x12x64x64 S4x12x4096x64 S4x12x64x4096 [3] [3] [2] [2] [0, 1] [0, 1]
  dot_S4x12x64x4096_S4x12x4096x64_S4x12x64x64_3_2_2_3_01_01_wf : DotDims.WF S4x12x64x4096 S4x12x4096x64 S4x12x64x64 [3] [2] [2] [3] [0, 1] [0, 1]
  dot_S4x12x4096x64_S4x12x64x64_S4x12x4096x64_3_2_2_3_01_01_wf : DotDims.WF S4x12x4096x64 S4x12x64x64 S4x12x4096x64 [3] [2] [2] [3] [0, 1] [0, 1]

variable [Facts₀]

def dot_S4x12x4096x64_S4x12x64x64_S4x12x4096x64_3_3_2_2_01_01 : DotDims S4x12x4096x64 S4x12x64x64 S4x12x4096x64 where
  lhsContracting := [3]
  rhsContracting := [3]
  lhsNonContracting := [2]
  rhsNonContracting := [2]
  lhsBatch := [0, 1]
  rhsBatch := [0, 1]
  wf := dot_S4x12x4096x64_S4x12x64x64_S4x12x4096x64_3_3_2_2_01_01_wf
def dot_S4x12x64x64_S4x12x64x64_S4x12x64x64_3_3_2_2_01_01 : DotDims S4x12x64x64 S4x12x64x64 S4x12x64x64 where
  lhsContracting := [3]
  rhsContracting := [3]
  lhsNonContracting := [2]
  rhsNonContracting := [2]
  lhsBatch := [0, 1]
  rhsBatch := [0, 1]
  wf := dot_S4x12x64x64_S4x12x64x64_S4x12x64x64_3_3_2_2_01_01_wf
def dot_S4x12x64x64_S4x12x64x64_S4x12x64x64_3_2_2_3_01_01 : DotDims S4x12x64x64 S4x12x64x64 S4x12x64x64 where
  lhsContracting := [3]
  rhsContracting := [2]
  lhsNonContracting := [2]
  rhsNonContracting := [3]
  lhsBatch := [0, 1]
  rhsBatch := [0, 1]
  wf := dot_S4x12x64x64_S4x12x64x64_S4x12x64x64_3_2_2_3_01_01_wf
def dot_S4x12x64x64_S4x12x4096x64_S4x12x64x4096_3_3_2_2_01_01 : DotDims S4x12x64x64 S4x12x4096x64 S4x12x64x4096 where
  lhsContracting := [3]
  rhsContracting := [3]
  lhsNonContracting := [2]
  rhsNonContracting := [2]
  lhsBatch := [0, 1]
  rhsBatch := [0, 1]
  wf := dot_S4x12x64x64_S4x12x4096x64_S4x12x64x4096_3_3_2_2_01_01_wf
def dot_S4x12x64x4096_S4x12x4096x64_S4x12x64x64_3_2_2_3_01_01 : DotDims S4x12x64x4096 S4x12x4096x64 S4x12x64x64 where
  lhsContracting := [3]
  rhsContracting := [2]
  lhsNonContracting := [2]
  rhsNonContracting := [3]
  lhsBatch := [0, 1]
  rhsBatch := [0, 1]
  wf := dot_S4x12x64x4096_S4x12x4096x64_S4x12x64x64_3_2_2_3_01_01_wf
def dot_S4x12x4096x64_S4x12x64x64_S4x12x4096x64_3_2_2_3_01_01 : DotDims S4x12x4096x64 S4x12x64x64 S4x12x4096x64 where
  lhsContracting := [3]
  rhsContracting := [2]
  lhsNonContracting := [2]
  rhsNonContracting := [3]
  lhsBatch := [0, 1]
  rhsBatch := [0, 1]
  wf := dot_S4x12x4096x64_S4x12x64x64_S4x12x4096x64_3_2_2_3_01_01_wf

class Facts : Prop extends Facts₀ where

variable [Facts]
-- ==== Proof.Spec.lean ====
/-
  The mathematics both programs compute, free of any program: Nyström attention of one head, over the extended reals.

  A head's query, key and value are S × D matrices (S = 4096 positions, D = 64 features); its landmark queries and
  keys are m × D matrices (m = 64 landmarks).  With `σ` the row-wise softmax of the scaled product with a transposed
  right factor, the head's output is
      F · (Z · (B · v)),   F = σ(q · klᵀ / 8),   B = σ(ql · kᵀ / 8),   Z = six Newton–Schulz steps from M ᵀ / c,
  where M = σ(ql · klᵀ / 8) and the one scalar `c` is shared by ALL heads: the largest column sum of |M| over every
  head times the largest row sum of |M| over every head.  One Newton–Schulz step sends `Z` to
      ¼ · Z · (13 I − M · Z · (15 I − M · Z · (7 I − M · Z))).
  Every sum here is a sum over a finite index type in a commutative monoid, every maximum a fold of `max`, so neither
  the order of a contraction nor the way a maximum over several axes is nested is part of these definitions.
-/
import Idealize.ShloMosaic.PureOps.Ideal.Laws
import Idealize.ShloMosaic.Lib.ValueIdx

noncomputable section

namespace Nys

open Idealize.ShloMosaic Idealize.ShloMosaic.ValueIdx

/-- An m × n matrix of extended reals. -/
abbrev Mat (m n : Nat) := Fin m → Fin n → EReal

/-- Matrix `g` of a stack of `G` matrices held as a rank-3 array. -/
def hd3 {G m n : Nat} (x : (⟨3, ![G, m, n]⟩ : Shape).Idx → EReal) (g : Fin G) : Mat m n := fun i j => x (ix3 g i j)

/-- Matrix `(b, h)` of a `B × H` family of matrices held as a rank-4 array. -/
def hd4 {B H m n : Nat} (x : (⟨4, ![B, H, m, n]⟩ : Shape).Idx → EReal) (b : Fin B) (h : Fin H) : Mat m n :=
  fun i j => x (ix4 b h i j)

/-- The constants the two programs write, kept as the words they print (the same word on both sides is never opened):
    −∞, 1/8, 7, 15, 13, 1/4. -/
def ninf : EReal := Ideal.ofBits .f32 0xFF800000#32
def c8 : EReal := Ideal.ofBits .f32 0x3E000000#32
def c7 : EReal := Ideal.ofBits .f32 0x40E00000#32
def c15 : EReal := Ideal.ofBits .f32 0x41700000#32
def c13 : EReal := Ideal.ofBits .f32 0x41500000#32
def c4 : EReal := Ideal.ofBits .f32 0x3E800000#32

variable {m k n : Nat}

/-- A · B. -/
def mmul (A : Mat m k) (B : Mat k n) : Mat m n := fun i j => ∑ l : Fin k, A i l * B l j
/-- A · Bᵀ. -/
def mmulT (A : Mat m k) (B : Mat n k) : Mat m n := fun i j => ∑ l : Fin k, A i l * B j l
/-- Every entry times 1/8 (the attention scale for 64 features). -/
def scale8 (L : Mat m n) : Mat m n := fun i j => L i j * c8
/-- The largest entry of row `i`, from −∞. -/
def rowmax (L : Mat m n) (i : Fin m) : EReal := (Finset.univ : Finset (Fin n)).fold max ninf (L i)
/-- The shifted exponentials of a row. -/
def rowexp (L : Mat m n) : Mat m n := fun i j => Ideal.exp (L i j - rowmax L i)
/-- Row-wise softmax: the shifted exponentials over their row sum. -/
def smax (L : Mat m n) : Mat m n := fun i j => Ideal.div (rowexp L i j) (∑ j' : Fin n, rowexp L i j')
/-- σ(A · Bᵀ / 8). -/
def attnW (A : Mat m k) (B : Mat n k) : Mat m n := smax (scale8 (mmulT A B))

/-- The 64 × 64 identity as both programs make it: the word of the comparison "row = column" read as an unsigned integer. -/
def eye : Mat 64 64 := fun i j =>
  FloatOps.uitofp (F := Ideal) .f32 (IntOp.cmpi .eq (BitVec.ofNat 32 i.val) (BitVec.ofNat 32 j.val))

/-- One Newton–Schulz step for the pseudo-inverse of `M`, from the iterate `Z`. -/
def nsStep (M Z : Mat 64 64) : Mat 64 64 :=
  let t1 : Mat 64 64 := fun i j => c7 * eye i j - mmul M Z i j
  let t2 : Mat 64 64 := fun i j => c15 * eye i j - mmul M (mmul Z t1) i j
  let t3 : Mat 64 64 := fun i j => c13 * eye i j - mmul M (mmul Z t2) i j
  fun i j => c4 * mmul Z t3 i j

/-- The largest column sum of |M g| over every head `g` and column `j`, from −∞. -/
def colAbsMax {G : Nat} (M : Fin G → Mat 64 64) : EReal :=
  (Finset.univ : Finset (Fin G × Fin 64)).fold max ninf fun p => ∑ i : Fin 64, max (M p.1 i p.2) (-(M p.1 i p.2))
/-- The largest row sum of |M g| over every head `g` and row `i`, from −∞. -/
def rowAbsMax {G : Nat} (M : Fin G → Mat 64 64) : EReal :=
  (Finset.univ : Finset (Fin G × Fin 64)).fold max ninf fun p => ∑ j : Fin 64, max (M p.1 p.2 j) (-(M p.1 p.2 j))
/-- The scalar every head's first iterate is divided by. -/
def coef {G : Nat} (M : Fin G → Mat 64 64) : EReal := colAbsMax M * rowAbsMax M

/-- Six Newton–Schulz steps from Mᵀ / c. -/
def pinv (c : EReal) (M : Mat 64 64) : Mat 64 64 :=
  nsStep M (nsStep M (nsStep M (nsStep M (nsStep M (nsStep M (fun i j => Ideal.div (M j i) c))))))

/-- One head's output from its query, key, value, its landmark key and landmark query, and its Newton–Schulz matrix. -/
def headOut (q kk v : Mat 4096 64) (ql kl : Mat 64 64) (Z : Mat 64 64) : Mat 4096 64 :=
  mmul (attnW q kl) (mmul Z (mmul (attnW ql kk) v))

end Nys

end
-- ==== Proof.LibIdx.lean ====
/-
  The numbering of the 48 heads, free of any program: head (b, h) of a 4 × 12 family is matrix 12·b + h of the stack
  of 48, which is what a row-major reshape between [4, 12, 64, 64] and [48, 64, 64] does.
-/
import Idealize.ShloMosaic.Lib.ValueIdx
import Idealize.ShloMosaic.Lib.Pipeline.Value
import Idealize.ShloMosaic.Lib.ValueLayout
import proofs.«411123_j9947144258103_3_alg».proof.Proof.Spec

noncomputable section

namespace Nys

open Idealize.ShloMosaic Idealize.ShloMosaic.ValueIdx

/-- The batch of head `g`. -/
def gb (g : Fin 48) : Fin 4 := ⟨g.val / 12, by have := g.isLt; omega⟩
/-- The head-within-batch of head `g`. -/
def gh (g : Fin 48) : Fin 12 := ⟨g.val % 12, Nat.mod_lt _ (by decide)⟩
/-- Head (b, h) in the stack of 48. -/
def gflat (b : Fin 4) (h : Fin 12) : Fin 48 := ⟨12 * b.val + h.val, by have := b.isLt; have := h.isLt; omega⟩

theorem gb_gflat (b : Fin 4) (h : Fin 12) : gb (gflat b h) = b := by
  apply Fin.ext; show (12 * b.val + h.val) / 12 = b.val; have := h.isLt; omega
theorem gh_gflat (b : Fin 4) (h : Fin 12) : gh (gflat b h) = h := by
  apply Fin.ext; show (12 * b.val + h.val) % 12 = h.val; have := h.isLt; omega
theorem gflat_gb_gh (g : Fin 48) : gflat (gb g) (gh g) = g := by
  apply Fin.ext; show 12 * (g.val / 12) + g.val % 12 = g.val; omega

/-- A [4, 12, 64, 64] family reshaped to a stack of 48: matrix g is head (g / 12, g % 12). -/
theorem hd3_cast48 (X : (⟨4, ![4, 12, 64, 64]⟩ : Shape).Idx → EReal)
    (hsc : (⟨4, ![4, 12, 64, 64]⟩ : Shape).ShapeCasts ⟨3, ![48, 64, 64]⟩) (g : Fin 48) :
    hd3 (shapeCast ⟨3, ![48, 64, 64]⟩ X hsc) g = hd4 X (gb g) (gh g) := by
  funext i j
  refine shapeCast_apply X hsc (ix3 g i j) (ix4 (gb g) (gh g) i j) ?_
  rw [Shape.rowMajor_val_four, Shape.rowMajor_val_three]
  show (((g.val / 12) * 12 + g.val % 12) * 64 + i.val) * 64 + j.val = (g.val * 64 + i.val) * 64 + j.val
  have : (g.val / 12) * 12 + g.val % 12 = g.val := by omega
  rw [this]

/-- A stack of 48 reshaped to a [4, 12, 64, 64] family: head (b, h) is matrix 12·b + h. -/
theorem hd4_cast4x12 (Y : (⟨3, ![48, 64, 64]⟩ : Shape).Idx → EReal)
    (hsc : (⟨3, ![48, 64, 64]⟩ : Shape).ShapeCasts ⟨4, ![4, 12, 64, 64]⟩) (b : Fin 4) (h : Fin 12) :
    hd4 (shapeCast ⟨4, ![4, 12, 64, 64]⟩ Y hsc) b h = hd3 Y (gflat b h) := by
  funext i j
  refine shapeCast_apply Y hsc (ix4 b h i j) (ix3 (gflat b h) i j) ?_
  rw [Shape.rowMajor_val_four, Shape.rowMajor_val_three]
  show ((12 * b.val + h.val) * 64 + i.val) * 64 + j.val = ((b.val * 12 + h.val) * 64 + i.val) * 64 + j.val
  rw [Nat.mul_comm 12 b.val]

end Nys

end
-- ==== Proof.LibBmm.lean ====
/-
  Batched matrix products read one matrix at a time, at the ideal values, free of any program.
  A `tpu.matmul` of a stack of G matrices into the zero accumulator, and the host's `dot_general` over a B × H family
  of matrices, are, matrix by matrix, the plain product A · B (right factor contracted on its rows) or A · Bᵀ (right
  factor contracted on its columns): the sum over the one contracted coordinate, no accumulator, no chunk order.
-/
import Idealize.ShloMosaic.PureOps.Ideal.Laws
import Idealize.ShloMosaic.Lib.ValueIdx
import proofs.«411123_j9947144258103_3_alg».proof.Proof.Spec

noncomputable section

namespace Nys

open Idealize.ShloMosaic Idealize.ShloMosaic.ValueIdx

variable {G B H M K N : Nat} {φ₁ φ₂ : FTy}

/-! ### Where the two factors are read

  At the output position (g, i, j) and the contracted coordinate c the left factor is read at (g, i, c): the batch
  axis and the row come from the output index, the last axis from the contraction index.  The right factor is read at
  (g, c, j) when it is contracted on its rows and at (g, j, c) when it is contracted on its columns.  The same with two
  batch axes (b, h) in front.  Each is checked axis by axis: an axis listed as batch or non-contracting reads the
  output index at its place in the output's axis order, the contracted axis reads the contraction index. -/

/-- Left factor [G, M, K] contracted on axis 2, batch axis 0, whatever the right factor: read at (g, i, c). -/
private theorem lhsIdx3 {sr : Shape} (d : DotDims ⟨3, ![G, M, K]⟩ sr ⟨3, ![G, M, N]⟩)
    (h1 : d.lhsContracting = [2]) (h3 : d.lhsNonContracting = [1]) (h5 : d.lhsBatch = [0])
    (g : Fin G) (i : Fin M) (j : Fin N) (c : Fin K) (k : d.contr.Idx)
    (hk : (k ⟨0, by rw [d.rank_contr, h1]; exact Nat.one_pos⟩).val = c.val) :
    d.lhsIdx (ix3 g i j) k = ix3 g i c := by
  obtain ⟨lc, rc, ln, rn, lb, rb, wf⟩ := d
  simp only at h1 h3 h5
  subst h1 h3 h5
  funext ax; apply Fin.ext
  match ax with
  | ⟨0, _⟩ => simp [DotDims.lhsIdx]; rfl
  | ⟨1, _⟩ => simp [DotDims.lhsIdx]; rfl
  | ⟨2, _⟩ => exact (DotDims.lhsIdx_val_of_single _ rfl (ix3 g i j) k).trans hk

/-- Right factor [G, K, N] contracted on axis 1, batch axis 0: read at (g, c, j). -/
private theorem rhsIdx3_nn (d : DotDims ⟨3, ![G, M, K]⟩ ⟨3, ![G, K, N]⟩ ⟨3, ![G, M, N]⟩)
    (h1 : d.lhsContracting = [2]) (h2 : d.rhsContracting = [1]) (h3 : d.lhsNonContracting = [1])
    (h4 : d.rhsNonContracting = [2]) (h5 : d.lhsBatch = [0]) (h6 : d.rhsBatch = [0])
    (g : Fin G) (i : Fin M) (j : Fin N) (c : Fin K) (k : d.contr.Idx)
    (hk : (k ⟨0, by rw [d.rank_contr, h1]; exact Nat.one_pos⟩).val = c.val) :
    d.rhsIdx (ix3 g i j) k = ix3 g c j := by
  obtain ⟨lc, rc, ln, rn, lb, rb, wf⟩ := d
  simp only at h1 h2 h3 h4 h5 h6
  subst h1 h2 h3 h4 h5 h6
  funext ax; apply Fin.ext
  match ax with
  | ⟨0, _⟩ => simp [DotDims.rhsIdx]; rfl
  | ⟨1, _⟩ => exact (DotDims.rhsIdx_val_of_single _ rfl (ix3 g i j) k).trans hk
  | ⟨2, _⟩ => simp [DotDims.rhsIdx]; rfl

/-- Right factor [G, N, K] contracted on axis 2, batch axis 0: read at (g, j, c). -/
private theorem rhsIdx3_nt (d : DotDims ⟨3, ![G, M, K]⟩ ⟨3, ![G, N, K]⟩ ⟨3, ![G, M, N]⟩)
    (h1 : d.lhsContracting = [2]) (h2 : d.rhsContracting = [2]) (h3 : d.lhsNonContracting = [1])
    (h4 : d.rhsNonContracting = [1]) (h5 : d.lhsBatch = [0]) (h6 : d.rhsBatch = [0])
    (g : Fin G) (i : Fin M) (j : Fin N) (c : Fin K) (k : d.contr.Idx)
    (hk : (k ⟨0, by rw [d.rank_contr, h1]; exact Nat.one_pos⟩).val = c.val) :
    d.rhsIdx (ix3 g i j) k = ix3 g j c := by
  obtain ⟨lc, rc, ln, rn, lb, rb, wf⟩ := d
  simp only at h1 h2 h3 h4 h5 h6
  subst h1 h2 h3 h4 h5 h6
  funext ax; apply Fin.ext
  match ax with
  | ⟨0, _⟩ => simp [DotDims.rhsIdx]; rfl
  | ⟨1, _⟩ => simp [DotDims.rhsIdx]; rfl
  | ⟨2, _⟩ => exact (DotDims.rhsIdx_val_of_single _ rfl (ix3 g i j) k).trans hk

/-- Left factor [B, H, M, K] contracted on axis 3, batch axes 0 and 1, whatever the right factor: read at (b, h, i, c). -/
private theorem lhsIdx4 {sr : Shape} (d : DotDims ⟨4, ![B, H, M, K]⟩ sr ⟨4, ![B, H, M, N]⟩)
    (h1 : d.lhsContracting = [3]) (h3 : d.lhsNonContracting = [2]) (h5 : d.lhsBatch = [0, 1])
    (b : Fin B) (h : Fin H) (i : Fin M) (j : Fin N) (c : Fin K) (k : d.contr.Idx)
    (hk : (k ⟨0, by rw [d.rank_contr, h1]; exact Nat.one_pos⟩).val = c.val) :
    d.lhsIdx (ix4 b h i j) k = ix4 b h i c := by
  obtain ⟨lc, rc, ln, rn, lb, rb, wf⟩ := d
  simp only at h1 h3 h5
  subst h1 h3 h5
  funext ax; apply Fin.ext
  match ax with
  | ⟨0, _⟩ => simp [DotDims.lhsIdx]; rfl
  | ⟨1, _⟩ => simp [DotDims.lhsIdx]; rfl
  | ⟨2, _⟩ => simp [DotDims.lhsIdx]; rfl
  | ⟨3, _⟩ => exact (DotDims.lhsIdx_val_of_single _ rfl (ix4 b h i j) k).trans hk

/-- Right factor [B, H, K, N] contracted on axis 2, batch axes 0 and 1: read at (b, h, c, j). -/
private theorem rhsIdx4_nn (d : DotDims ⟨4, ![B, H, M, K]⟩ ⟨4, ![B, H, K, N]⟩ ⟨4, ![B, H, M, N]⟩)
    (h1 : d.lhsContracting = [3]) (h2 : d.rhsContracting = [2]) (h3 : d.lhsNonContracting = [2])
    (h4 : d.rhsNonContracting = [3]) (h5 : d.lhsBatch = [0, 1]) (h6 : d.rhsBatch = [0, 1])
    (b : Fin B) (h : Fin H) (i : Fin M) (j : Fin N) (c : Fin K) (k : d.contr.Idx)
    (hk : (k ⟨0, by rw [d.rank_contr, h1]; exact Nat.one_pos⟩).val = c.val) :
    d.rhsIdx (ix4 b h i j) k = ix4 b h c j := by
  obtain ⟨lc, rc, ln, rn, lb, rb, wf⟩ := d
  simp only at h1 h2 h3 h4 h5 h6
  subst h1 h2 h3 h4 h5 h6
  funext ax; apply Fin.ext
  match ax with
  | ⟨0, _⟩ => simp [DotDims.rhsIdx]; rfl
  | ⟨1, _⟩ => simp [DotDims.rhsIdx]; rfl
  | ⟨2, _⟩ => exact (DotDims.rhsIdx_val_of_single _ rfl (ix4 b h i j) k).trans hk
  | ⟨3, _⟩ => simp [DotDims.rhsIdx]; rfl

/-- Right factor [B, H, N, K] contracted on axis 3, batch axes 0 and 1: read at (b, h, j, c). -/
private theorem rhsIdx4_nt (d : DotDims ⟨4, ![B, H, M, K]⟩ ⟨4, ![B, H, N, K]⟩ ⟨4, ![B, H, M, N]⟩)
    (h1 : d.lhsContracting = [3]) (h2 : d.rhsContracting = [3]) (h3 : d.lhsNonContracting = [2])
    (h4 : d.rhsNonContracting = [2]) (h5 : d.lhsBatch = [0, 1]) (h6 : d.rhsBatch = [0, 1])
    (b : Fin B) (h : Fin H) (i : Fin M) (j : Fin N) (c : Fin K) (k : d.contr.Idx)
    (hk : (k ⟨0, by rw [d.rank_contr, h1]; exact Nat.one_pos⟩).val = c.val) :
    d.rhsIdx (ix4 b h i j) k = ix4 b h j c := by
  obtain ⟨lc, rc, ln, rn, lb, rb, wf⟩ := d
  simp only at h1 h2 h3 h4 h5 h6
  subst h1 h2 h3 h4 h5 h6
  funext ax; apply Fin.ext
  match ax with
  | ⟨0, _⟩ => simp [DotDims.rhsIdx]; rfl
  | ⟨1, _⟩ => simp [DotDims.rhsIdx]; rfl
  | ⟨2, _⟩ => simp [DotDims.rhsIdx]; rfl
  | ⟨3, _⟩ => exact (DotDims.rhsIdx_val_of_single _ rfl (ix4 b h i j) k).trans hk

/-! ### The four products -/

/-- Stack of G products A_g · B_g: left [G, M, K] contracted on axis 2, right [G, K, N] contracted on axis 1. -/
theorem matmul3_nn (d : DotDims ⟨3, ![G, M, K]⟩ ⟨3, ![G, K, N]⟩ ⟨3, ![G, M, N]⟩)
    (h1 : d.lhsContracting = [2]) (h2 : d.rhsContracting = [1]) (h3 : d.lhsNonContracting = [1])
    (h4 : d.rhsNonContracting = [2]) (h5 : d.lhsBatch = [0]) (h6 : d.rhsBatch = [0])
    (prec : Option ContractPrecision) (A : FVec Ideal ⟨3, ![G, M, K]⟩ φ₁) (Bv : FVec Ideal ⟨3, ![G, K, N]⟩ φ₂) (g : Fin G) :
    hd3 (matmul d prec A Bv (constant ⟨3, ![G, M, N]⟩ .f32 0x00000000#32)) g = mmul (hd3 A g) (hd3 Bv g) := by
  -- the contraction shape has one axis, of extent K
  have hr : d.contr.rank = 1 := by rw [d.rank_contr, h1]; rfl
  have hs : d.contr.size ⟨0, by omega⟩ = K := by
    obtain ⟨lc, rc, ln, rn, lb, rb, wf⟩ := d
    simp only at h1; subst h1; rfl
  funext i j
  show FloatOps.matmul d prec A Bv _ (ix3 g i j) = ∑ l : Fin K, A (ix3 g i l) * Bv (ix3 g l j)
  -- entry (g, i, j) is the sum over the contraction index; that index is its one coordinate c
  rw [Ideal.matmul_constant_zero_apply, ← Equiv.sum_comp (contrEquiv1 d K hr hs).symm]
  refine Finset.sum_congr rfl fun c _ => ?_
  have hc := contrEquiv1_symm_val d K hr hs c
  rw [lhsIdx3 d h1 h3 h5 g i j c _ hc, rhsIdx3_nn d h1 h2 h3 h4 h5 h6 g i j c _ hc]

/-- Stack of G products A_g · B_gᵀ: left [G, M, K] contracted on axis 2, right [G, N, K] contracted on axis 2. -/
theorem matmul3_nt (d : DotDims ⟨3, ![G, M, K]⟩ ⟨3, ![G, N, K]⟩ ⟨3, ![G, M, N]⟩)
    (h1 : d.lhsContracting = [2]) (h2 : d.rhsContracting = [2]) (h3 : d.lhsNonContracting = [1])
    (h4 : d.rhsNonContracting = [1]) (h5 : d.lhsBatch = [0]) (h6 : d.rhsBatch = [0])
    (prec : Option ContractPrecision) (A : FVec Ideal ⟨3, ![G, M, K]⟩ φ₁) (Bv : FVec Ideal ⟨3, ![G, N, K]⟩ φ₂) (g : Fin G) :
    hd3 (matmul d prec A Bv (constant ⟨3, ![G, M, N]⟩ .f32 0x00000000#32)) g = mmulT (hd3 A g) (hd3 Bv g) := by
  have hr : d.contr.rank = 1 := by rw [d.rank_contr, h1]; rfl
  have hs : d.contr.size ⟨0, by omega⟩ = K := by
    obtain ⟨lc, rc, ln, rn, lb, rb, wf⟩ := d
    simp only at h1; subst h1; rfl
  funext i j
  show FloatOps.matmul d prec A Bv _ (ix3 g i j) = ∑ l : Fin K, A (ix3 g i l) * Bv (ix3 g j l)
  rw [Ideal.matmul_constant_zero_apply, ← Equiv.sum_comp (contrEquiv1 d K hr hs).symm]
  refine Finset.sum_congr rfl fun c _ => ?_
  have hc := contrEquiv1_symm_val d K hr hs c
  rw [lhsIdx3 d h1 h3 h5 g i j c _ hc, rhsIdx3_nt d h1 h2 h3 h4 h5 h6 g i j c _ hc]

/-- B × H family of products A · B on the host: left [B, H, M, K] contracted on axis 3, right [B, H, K, N] on axis 2. -/
theorem dot4_nn (d : DotDims ⟨4, ![B, H, M, K]⟩ ⟨4, ![B, H, K, N]⟩ ⟨4, ![B, H, M, N]⟩)
    (h1 : d.lhsContracting = [3]) (h2 : d.rhsContracting = [2]) (h3 : d.lhsNonContracting = [2])
    (h4 : d.rhsNonContracting = [3]) (h5 : d.lhsBatch = [0, 1]) (h6 : d.rhsBatch = [0, 1])
    (prec : Option ContractPrecision) (A : FVec Ideal ⟨4, ![B, H, M, K]⟩ φ₁) (Bv : FVec Ideal ⟨4, ![B, H, K, N]⟩ φ₂)
    (b : Fin B) (h : Fin H) :
    hd4 (Host.dotGeneral d prec A Bv) b h = mmul (hd4 A b h) (hd4 Bv b h) := by
  have hr : d.contr.rank = 1 := by rw [d.rank_contr, h1]; rfl
  have hs : d.contr.size ⟨0, by omega⟩ = K := by
    obtain ⟨lc, rc, ln, rn, lb, rb, wf⟩ := d
    simp only at h1; subst h1; rfl
  funext i j
  show FloatOps.dotGeneral d prec .single A Bv (ix4 b h i j) = ∑ l : Fin K, A (ix4 b h i l) * Bv (ix4 b h l j)
  rw [Ideal.dotGeneral_apply, ← Equiv.sum_comp (contrEquiv1 d K hr hs).symm]
  refine Finset.sum_congr rfl fun c _ => ?_
  have hc := contrEquiv1_symm_val d K hr hs c
  rw [lhsIdx4 d h1 h3 h5 b h i j c _ hc, rhsIdx4_nn d h1 h2 h3 h4 h5 h6 b h i j c _ hc]

/-- B × H family of products A · Bᵀ on the host: left [B, H, M, K] contracted on axis 3, right [B, H, N, K] on axis 3. -/
theorem dot4_nt (d : DotDims ⟨4, ![B, H, M, K]⟩ ⟨4, ![B, H, N, K]⟩ ⟨4, ![B, H, M, N]⟩)
    (h1 : d.lhsContracting = [3]) (h2 : d.rhsContracting = [3]) (h3 : d.lhsNonContracting = [2])
    (h4 : d.rhsNonContracting = [2]) (h5 : d.lhsBatch = [0, 1]) (h6 : d.rhsBatch = [0, 1])
    (prec : Option ContractPrecision) (A : FVec Ideal ⟨4, ![B, H, M, K]⟩ φ₁) (Bv : FVec Ideal ⟨4, ![B, H, N, K]⟩ φ₂)
    (b : Fin B) (h : Fin H) :
    hd4 (Host.dotGeneral d prec A Bv) b h = mmulT (hd4 A b h) (hd4 Bv b h) := by
  have hr : d.contr.rank = 1 := by rw [d.rank_contr, h1]; rfl
  have hs : d.contr.size ⟨0, by omega⟩ = K := by
    obtain ⟨lc, rc, ln, rn, lb, rb, wf⟩ := d
    simp only at h1; subst h1; rfl
  funext i j
  show FloatOps.dotGeneral d prec .single A Bv (ix4 b h i j) = ∑ l : Fin K, A (ix4 b h i l) * Bv (ix4 b h j l)
  rw [Ideal.dotGeneral_apply, ← Equiv.sum_comp (contrEquiv1 d K hr hs).symm]
  refine Finset.sum_congr rfl fun c _ => ?_
  have hc := contrEquiv1_symm_val d K hr hs c
  rw [lhsIdx4 d h1 h3 h5 b h i j c _ hc, rhsIdx4_nt d h1 h2 h3 h4 h5 h6 b h i j c _ hc]

end Nys

end
-- ==== Proof.LibSoftK.lean ====
/-
  Row-wise softmax of a stack of G matrices as a kernel writes it, read one matrix at a time, at the ideal values,
  free of any program: the row maximum (a lane reduction from −∞, kept as a unit column and broadcast back over the
  row), the exponentials of the shifted entries, their row sum (a lane reduction from 0, kept and broadcast the same
  way), and the quotient.  Also the two reductions by themselves, and the column sum over the rows of each matrix.
-/
import Idealize.ShloMosaic.PureOps.Ideal.Laws
import Idealize.ShloMosaic.Lib.ValueIdx
import Idealize.ShloMosaic.Lib.Pipeline.Value
import Idealize.ShloMosaic.Lib.ValueLayout
import Mathlib.Data.Finset.Fold
import proofs.«411123_j9947144258103_3_alg».proof.Proof.Spec

noncomputable section

namespace Nys

open Idealize.ShloMosaic Idealize.ShloMosaic.ValueIdx

variable {G M N : Nat}

/-- A [G, M] array kept as a unit column [G, M, 1] and broadcast over the row reads, at (g, i, j), the array at (g, i). -/
private theorem keep_bcast_apply {α : Type} (v : (⟨2, ![G, M]⟩ : Shape).Idx → α)
    (hsc : (⟨2, ![G, M]⟩ : Shape).ShapeCasts ⟨3, ![G, M, 1]⟩)
    (hbc : (⟨3, ![G, M, 1]⟩ : Shape).Broadcasts ⟨3, ![G, M, N]⟩) (g : Fin G) (i : Fin M) (j : Fin N) :
    broadcastTo ⟨3, ![G, M, N]⟩ (shapeCast ⟨3, ![G, M, 1]⟩ v hsc) hbc (ix3 g i j) = v (ix2 g i) := by
  refine (broadcastTo_apply _ hbc (ix3 g i j) (ix3 g i (0 : Fin 1)) fun ax => ?_).trans ?_
  · match ax with
    | ⟨0, _⟩ =>
      show g.val = if G = 1 then 0 else g.val
      split
      · have := g.isLt; omega
      · rfl
    | ⟨1, _⟩ =>
      show i.val = if M = 1 then 0 else i.val
      split
      · have := i.isLt; omega
      · rfl
    | ⟨2, _⟩ => rfl
  · refine shapeCast_apply v hsc _ _ ?_
    rw [Shape.rowMajor_val_three, Shape.rowMajor_val_two]
    show g.val * M + i.val = (g.val * M + i.val) * 1 + 0
    omega

/-- Over the last axis of a [G, M, N] array, the index inserted above (g, i) at k is (g, i, k). -/
private theorem lift_last (hr : (⟨3, ![G, M, N]⟩ : Shape).Reduces [2] ⟨2, ![G, M]⟩) (g : Fin G) (i : Fin M) (k : Fin N) :
    hr.lift (ix2 g i) k = ix3 g i k := by
  funext c
  match c with
  | ⟨0, _⟩ => rfl
  | ⟨1, _⟩ => rfl
  | ⟨2, _⟩ => rfl

/-- Over the middle axis of a [G, M, N] array, the index inserted above (g, j) at k is (g, k, j). -/
private theorem lift_mid (hr : (⟨3, ![G, M, N]⟩ : Shape).Reduces [1] ⟨2, ![G, N]⟩) (g : Fin G) (j : Fin N) (k : Fin M) :
    hr.lift (ix2 g j) k = ix3 g k j := by
  funext c
  match c with
  | ⟨0, _⟩ => rfl
  | ⟨1, _⟩ => rfl
  | ⟨2, _⟩ => rfl

/-- Over the second axis of a [G, M] array, the index inserted above g at k is (g, k). -/
private theorem lift_axis1 (hr : (⟨2, ![G, M]⟩ : Shape).Reduces [1] ⟨1, ![G]⟩) (g : Fin G) (k : Fin M) :
    hr.lift (ix1 g) k = ix2 g k := by
  funext c
  match c with
  | ⟨0, _⟩ => rfl
  | ⟨1, _⟩ => rfl

/-- Over the first axis of a [G, 1] array, the index inserted above u at k is (k, u). -/
private theorem lift_axis0 (hr : (⟨2, ![G, 1]⟩ : Shape).Reduces [0] ⟨1, ![1]⟩) (u : Fin 1) (k : Fin G) :
    hr.lift (ix1 u) k = ix2 k u := by
  funext c
  match c with
  | ⟨0, _⟩ => rfl
  | ⟨1, _⟩ => rfl

/-- The row maximum from −∞, kept as a unit column and broadcast over the row: at (g, i, j) it is row i's maximum. -/
theorem rowmax_keep_bcast (L : FVec Ideal ⟨3, ![G, M, N]⟩ .f32)
    (hr : (⟨3, ![G, M, N]⟩ : Shape).Reduces [2] ⟨2, ![G, M]⟩) (hsc : (⟨2, ![G, M]⟩ : Shape).ShapeCasts ⟨3, ![G, M, 1]⟩)
    (hbc : (⟨3, ![G, M, 1]⟩ : Shape).Broadcasts ⟨3, ![G, M, N]⟩)
    (hφ : FKind.Formats .f32) (hacc : (0xFF800000#32 : BitVec 32) = FKind.maximumf.neutral .f32 hφ)
    (g : Fin G) (i : Fin M) (j : Fin N) :
    broadcastTo ⟨3, ![G, M, N]⟩ (shapeCast ⟨3, ![G, M, 1]⟩
        (multiReduction .maximumf [2] ⟨2, ![G, M]⟩ L 0xFF800000#32 hr hφ hacc) hsc) hbc (ix3 g i j)
      = rowmax (hd3 L g) i := by
  refine (keep_bcast_apply _ hsc hbc g i j).trans ?_
  refine (Ideal.multiReduction_maximumf_single L _ hr hφ hacc (ix2 g i)).trans ?_
  show (Finset.univ : Finset (Fin N)).fold max ninf (fun k => L (hr.lift (ix2 g i) k))
    = (Finset.univ : Finset (Fin N)).fold max ninf (fun k => L (ix3 g i k))
  exact congrArg (fun f => (Finset.univ : Finset (Fin N)).fold max ninf f) (funext fun k => congrArg L (lift_last hr g i k))

/-- The row sum from 0, kept as a unit column and broadcast over the row: at (g, i, j) it is row i's sum. -/
theorem rowsum_keep_bcast (E : FVec Ideal ⟨3, ![G, M, N]⟩ .f32)
    (hr : (⟨3, ![G, M, N]⟩ : Shape).Reduces [2] ⟨2, ![G, M]⟩) (hsc : (⟨2, ![G, M]⟩ : Shape).ShapeCasts ⟨3, ![G, M, 1]⟩)
    (hbc : (⟨3, ![G, M, 1]⟩ : Shape).Broadcasts ⟨3, ![G, M, N]⟩)
    (hφ : FKind.Formats .f32) (hacc : (0x00000000#32 : BitVec 32) = FKind.add.neutral .f32 hφ)
    (g : Fin G) (i : Fin M) (j : Fin N) :
    broadcastTo ⟨3, ![G, M, N]⟩ (shapeCast ⟨3, ![G, M, 1]⟩
        (multiReduction .add [2] ⟨2, ![G, M]⟩ E 0x00000000#32 hr hφ hacc) hsc) hbc (ix3 g i j)
      = ∑ j' : Fin N, hd3 E g i j' := by
  refine (keep_bcast_apply _ hsc hbc g i j).trans ?_
  refine (Ideal.multiReduction_add_single E _ hr hφ hacc (ix2 g i)).trans ?_
  show ∑ k : Fin N, E (hr.lift (ix2 g i) k) = ∑ k : Fin N, E (ix3 g i k)
  exact Finset.sum_congr rfl fun k _ => congrArg E (lift_last hr g i k)

/-- The whole row-wise softmax of a stack, as a kernel writes it, is the softmax of each matrix. -/
theorem ksoftmax_hd3 (L : FVec Ideal ⟨3, ![G, M, N]⟩ .f32)
    (hr : (⟨3, ![G, M, N]⟩ : Shape).Reduces [2] ⟨2, ![G, M]⟩) (hsc : (⟨2, ![G, M]⟩ : Shape).ShapeCasts ⟨3, ![G, M, 1]⟩)
    (hbc : (⟨3, ![G, M, 1]⟩ : Shape).Broadcasts ⟨3, ![G, M, N]⟩)
    (hφ : FKind.Formats .f32) (hacc : (0xFF800000#32 : BitVec 32) = FKind.maximumf.neutral .f32 hφ)
    (hφ' : FKind.Formats .f32) (hacc' : (0x00000000#32 : BitVec 32) = FKind.add.neutral .f32 hφ')
    (g : Fin G) :
    hd3 (divf
        (exp (subf L (broadcastTo ⟨3, ![G, M, N]⟩ (shapeCast ⟨3, ![G, M, 1]⟩
          (multiReduction .maximumf [2] ⟨2, ![G, M]⟩ L 0xFF800000#32 hr hφ hacc) hsc) hbc)))
        (broadcastTo ⟨3, ![G, M, N]⟩ (shapeCast ⟨3, ![G, M, 1]⟩
          (multiReduction .add [2] ⟨2, ![G, M]⟩
            (exp (subf L (broadcastTo ⟨3, ![G, M, N]⟩ (shapeCast ⟨3, ![G, M, 1]⟩
              (multiReduction .maximumf [2] ⟨2, ![G, M]⟩ L 0xFF800000#32 hr hφ hacc) hsc) hbc)))
            0x00000000#32 hr hφ' hacc') hsc) hbc)) g
      = smax (hd3 L g) := by
  funext i j
  -- the shifted exponentials of the stack, read one matrix at a time, are the matrix's own
  have hE : ∀ j' : Fin N,
      hd3 (exp (subf L (broadcastTo ⟨3, ![G, M, N]⟩ (shapeCast ⟨3, ![G, M, 1]⟩
          (multiReduction .maximumf [2] ⟨2, ![G, M]⟩ L 0xFF800000#32 hr hφ hacc) hsc) hbc))) g i j'
        = rowexp (hd3 L g) i j' := fun j' =>
    congrArg (fun m => Ideal.exp (L (ix3 g i j') - m)) (rowmax_keep_bcast L hr hsc hbc hφ hacc g i j')
  show Ideal.div
      (hd3 (exp (subf L (broadcastTo ⟨3, ![G, M, N]⟩ (shapeCast ⟨3, ![G, M, 1]⟩
          (multiReduction .maximumf [2] ⟨2, ![G, M]⟩ L 0xFF800000#32 hr hφ hacc) hsc) hbc))) g i j)
      (broadcastTo ⟨3, ![G, M, N]⟩ (shapeCast ⟨3, ![G, M, 1]⟩
          (multiReduction .add [2] ⟨2, ![G, M]⟩
            (exp (subf L (broadcastTo ⟨3, ![G, M, N]⟩ (shapeCast ⟨3, ![G, M, 1]⟩
              (multiReduction .maximumf [2] ⟨2, ![G, M]⟩ L 0xFF800000#32 hr hφ hacc) hsc) hbc)))
            0x00000000#32 hr hφ' hacc') hsc) hbc (ix3 g i j))
    = Ideal.div (rowexp (hd3 L g) i j) (∑ j' : Fin N, rowexp (hd3 L g) i j')
  rw [rowsum_keep_bcast _ hr hsc hbc hφ' hacc' g i j, hE j]
  exact congrArg _ (Finset.sum_congr rfl fun j' _ => hE j')

/-- The sum over the ROWS of each matrix (a reduction over axis 1 from 0): at (g, j) it is column j's sum. -/
theorem colsum_apply (E : FVec Ideal ⟨3, ![G, M, N]⟩ .f32)
    (hr : (⟨3, ![G, M, N]⟩ : Shape).Reduces [1] ⟨2, ![G, N]⟩)
    (hφ : FKind.Formats .f32) (hacc : (0x00000000#32 : BitVec 32) = FKind.add.neutral .f32 hφ)
    (g : Fin G) (j : Fin N) :
    multiReduction .add [1] ⟨2, ![G, N]⟩ E 0x00000000#32 hr hφ hacc (ix2 g j) = ∑ i : Fin M, hd3 E g i j := by
  refine (Ideal.multiReduction_add_single E _ hr hφ hacc (ix2 g j)).trans ?_
  show ∑ k : Fin M, E (hr.lift (ix2 g j) k) = ∑ k : Fin M, E (ix3 g k j)
  exact Finset.sum_congr rfl fun k _ => congrArg E (lift_mid hr g j k)

/-- The sum over the COLUMNS of each matrix (a reduction over axis 2 from 0): at (g, i) it is row i's sum. -/
theorem rowsum_apply (E : FVec Ideal ⟨3, ![G, M, N]⟩ .f32)
    (hr : (⟨3, ![G, M, N]⟩ : Shape).Reduces [2] ⟨2, ![G, M]⟩)
    (hφ : FKind.Formats .f32) (hacc : (0x00000000#32 : BitVec 32) = FKind.add.neutral .f32 hφ)
    (g : Fin G) (i : Fin M) :
    multiReduction .add [2] ⟨2, ![G, M]⟩ E 0x00000000#32 hr hφ hacc (ix2 g i) = ∑ j : Fin N, hd3 E g i j := by
  refine (Ideal.multiReduction_add_single E _ hr hφ hacc (ix2 g i)).trans ?_
  show ∑ k : Fin N, E (hr.lift (ix2 g i) k) = ∑ k : Fin N, E (ix3 g i k)
  exact Finset.sum_congr rfl fun k _ => congrArg E (lift_last hr g i k)

/-- The maximum over the second axis of a [G, M] array from −∞: at g it is the fold of max over the row. -/
theorem max_axis1_apply (X : FVec Ideal ⟨2, ![G, M]⟩ .f32)
    (hr : (⟨2, ![G, M]⟩ : Shape).Reduces [1] ⟨1, ![G]⟩)
    (hφ : FKind.Formats .f32) (hacc : (0xFF800000#32 : BitVec 32) = FKind.maximumf.neutral .f32 hφ) (g : Fin G) :
    multiReduction .maximumf [1] ⟨1, ![G]⟩ X 0xFF800000#32 hr hφ hacc (ix1 g)
      = (Finset.univ : Finset (Fin M)).fold max ninf fun i => X (ix2 g i) := by
  refine (Ideal.multiReduction_maximumf_single X _ hr hφ hacc (ix1 g)).trans ?_
  show (Finset.univ : Finset (Fin M)).fold max ninf (fun k => X (hr.lift (ix1 g) k))
    = (Finset.univ : Finset (Fin M)).fold max ninf (fun k => X (ix2 g k))
  exact congrArg (fun f => (Finset.univ : Finset (Fin M)).fold max ninf f) (funext fun k => congrArg X (lift_axis1 hr g k))

/-- The maximum over the first axis of a [G, 1] array from −∞: the fold of max over all G entries. -/
theorem max_axis0_apply (X : FVec Ideal ⟨2, ![G, 1]⟩ .f32)
    (hr : (⟨2, ![G, 1]⟩ : Shape).Reduces [0] ⟨1, ![1]⟩)
    (hφ : FKind.Formats .f32) (hacc : (0xFF800000#32 : BitVec 32) = FKind.maximumf.neutral .f32 hφ) (u : Fin 1) :
    multiReduction .maximumf [0] ⟨1, ![1]⟩ X 0xFF800000#32 hr hφ hacc (ix1 u)
      = (Finset.univ : Finset (Fin G)).fold max ninf fun g => X (ix2 g (0 : Fin 1)) := by
  refine (Ideal.multiReduction_maximumf_single X _ hr hφ hacc (ix1 u)).trans ?_
  show (Finset.univ : Finset (Fin G)).fold max ninf (fun k => X (hr.lift (ix1 u) k))
    = (Finset.univ : Finset (Fin G)).fold max ninf (fun k => X (ix2 k (0 : Fin 1)))
  have hu : u = (0 : Fin 1) := Subsingleton.elim _ _
  exact congrArg (fun f => (Finset.univ : Finset (Fin G)).fold max ninf f)
    (funext fun k => congrArg X ((lift_axis0 hr u k).trans (congrArg (ix2 k) hu)))

/-- A maximum nested over two axes is the maximum over the pairs. -/
theorem fold_max_nested {α β : Type} [Fintype α] [Fintype β] [DecidableEq α] [DecidableEq β] (f : α → β → EReal) (b : EReal) :
    (Finset.univ : Finset α).fold max b (fun x => (Finset.univ : Finset β).fold max b (f x))
      = (Finset.univ : Finset (α × β)).fold max b fun p => f p.1 p.2 := by
  apply le_antisymm
  · -- every entry of every inner maximum is one of the pairs
    rw [Finset.fold_max_le]
    refine ⟨(Finset.le_fold_max _).mpr (Or.inl le_rfl), fun x _ => ?_⟩
    rw [Finset.fold_max_le]
    refine ⟨(Finset.le_fold_max _).mpr (Or.inl le_rfl), fun y _ => ?_⟩
    exact (Finset.le_fold_max _).mpr (Or.inr ⟨(x, y), Finset.mem_univ _, le_rfl⟩)
  · -- every pair's entry is below its row's inner maximum, which is below the outer one
    rw [Finset.fold_max_le]
    refine ⟨(Finset.le_fold_max _).mpr (Or.inl le_rfl), fun p _ => ?_⟩
    refine (Finset.le_fold_max _).mpr (Or.inr ⟨p.1, Finset.mem_univ _, ?_⟩)
    exact (Finset.le_fold_max _).mpr (Or.inr ⟨p.2, Finset.mem_univ _, le_rfl⟩)

end Nys

end
-- ==== Proof.KernelPinv.lean ====
/-
  The first kernel of the program, on a stack of 48 landmark-query and landmark-key matrices held whole in its two
  input blocks: what it leaves in its output block, matrix by matrix.  Matrix g of the output is six Newton–Schulz
  steps for the softmax matrix M_g = σ(ql_g · kl_gᵀ / 8), started from M_gᵀ / c, where the scalar c — the largest
  column sum of |M| times the largest row sum of |M| — is taken over ALL 48 matrices (a lane maximum, then a
  maximum over the stack, for each of the two).
-/
import proofs.«411123_j9947144258103_3_alg».proof.Proof.Gen.KernelIdeal.Frame
import proofs.«411123_j9947144258103_3_alg».proof.Proof.Spec
import proofs.«411123_j9947144258103_3_alg».proof.Proof.LibBmm
import proofs.«411123_j9947144258103_3_alg».proof.Proof.LibSoftK
import Idealize.ShloMosaic.Lib.Pipeline.Value
import Idealize.ShloMosaic.Lib.ValueLayout

noncomputable section

namespace Nys

open Idealize.ShloMosaic Idealize.ShloMosaic.ValueIdx Cert.KernelIdeal Cert.KernelIdeal.Gen

/-- A one-bit word widened to 32 bits reads the same signed as unsigned. -/
private theorem bit_toInt_toNat : ∀ w : BitVec 1, (w.setWidth 32).toInt = (w.toNat : Int) := by decide

/-- The identity block the kernel builds from two lane counters is the identity of the specification, in every matrix of the stack. -/
theorem kernel_eye (g : Fin 48) : hd3 (k0_pay3 (F := Ideal)) g = eye := by
  funext i j
  show k0_pay3 (F := Ideal) (ix3 g i j) = eye i j
  unfold k0_pay3
  -- the broadcast over the stack reads the one [1, 64, 64] block at (0, i, j)
  refine (broadcastTo_apply _ _ (ix3 g i j) (ix3 (0 : Fin 1) i j) ?_).trans ?_
  · intro ax
    match ax with
    | ⟨0, _⟩ => rfl
    | ⟨1, _⟩ => rfl
    | ⟨2, _⟩ => rfl
  -- the cast to the same shape is the identity, the cast that adds the unit axis reads the 64 × 64 array at (i, j)
  rw [shapeCast_self]
  refine (shapeCast_ab_1ab_apply _ _ 0 i j).trans ?_
  -- there: the comparison of the row counter with the column counter, widened, read as a signed integer
  show (((((IntOp.cmpi .eq (iota .tc S64x64 32 [0] iota_S64x64_d0_w32 (ix2 i j))
      (iota .tc S64x64 32 [1] iota_S64x64_d1_w32 (ix2 i j))).setWidth 32).toInt : ℝ) : EReal)) = _
  rw [iota_single_apply, iota_single_apply, bit_toInt_toNat]
  rfl

/-- The softmax matrix M of the stack, matrix by matrix: σ(ql · klᵀ / 8). -/
private theorem pay2_hd3 (x0 x1 : Vec Ideal S48x64x64 .f32) (g : Fin 48) :
    hd3 (k0_pay2 (F := Ideal) x0 x1) g = attnW (hd3 x0 g) (hd3 x1 g) := by
  unfold k0_pay2
  rw [shapeCast_self, shapeCast_self]
  refine (ksoftmax_hd3 _ reduces_S48x64x64_S48x64 shapeCasts_S48x64_S48x64x1 broadcasts_S48x64x1_S48x64x64
    (.inl rfl) rfl (.inl rfl) rfl g).trans ?_
  refine congrArg smax ?_
  funext i j
  -- the scaled product: entry (i, j) of ql_g · kl_gᵀ, times 1/8 (the narrowing of the factors is the identity here)
  exact congrArg (· * c8) (congrFun (congrFun
    (matmul3_nt dot_S48x64x64_S48x64x64_S48x64x64_2_2_1_1_0_0 rfl rfl rfl rfl rfl rfl none
      (truncf .bf16 x0 bitsLt_bf16_f32) (truncf .bf16 x1 bitsLt_bf16_f32) g) i) j)

/-- The largest entry of a [48, 64] array from −∞, taken as the kernel does: a maximum along each row, the 48 row
    maxima kept as a column, a maximum down that column, the one value kept as a [1, 1] array. -/
private theorem gmax_apply (X : FVec Ideal S48x64 .f32) (u v : Fin 1) :
    shapeCast S1x1 (multiReduction .maximumf [0] S1
        (shapeCast S48x1 (multiReduction .maximumf [1] S48 X 0xFF800000#32 reduces_S48x64_S48 (.inl rfl) rfl)
          shapeCasts_S48_S48x1) 0xFF800000#32 reduces_S48x1_S1 (.inl rfl) rfl) shapeCasts_S1_S1x1 (ix2 u v)
      = (Finset.univ : Finset (Fin 48 × Fin 64)).fold max ninf fun p => X (ix2 p.1 p.2) := by
  refine (shapeCast_apply _ shapeCasts_S1_S1x1 (ix2 u v) (ix1 (0 : Fin 1)) ?_).trans ?_
  · rw [Shape.rowMajor_val_one, Shape.rowMajor_val_two]
    show (0 : Nat) = u.val * 1 + v.val
    omega
  refine (max_axis0_apply _ reduces_S48x1_S1 (.inl rfl) rfl (0 : Fin 1)).trans ?_
  -- a maximum over the stack of the maxima over each row is the maximum over the pairs
  refine Eq.trans ?_ (fold_max_nested (fun (g : Fin 48) (j : Fin 64) => X (ix2 g j)) ninf)
  refine congrArg (fun f => (Finset.univ : Finset (Fin 48)).fold max ninf f) (funext fun g => ?_)
  refine (shapeCast_apply _ shapeCasts_S48_S48x1 (ix2 g (0 : Fin 1)) (ix1 g) ?_).trans ?_
  · rw [Shape.rowMajor_val_one, Shape.rowMajor_val_two]
    show g.val = g.val * 1 + 0
    omega
  exact max_axis1_apply X reduces_S48x64_S48 (.inl rfl) rfl g

/-- The first iterate of the stack, matrix by matrix: M_gᵀ over the one scalar c of the whole stack. -/
private theorem pay4_hd3 (x0 x1 : Vec Ideal S48x64x64 .f32) (g : Fin 48) :
    hd3 (k0_pay4 (F := Ideal) x0 x1) g
      = fun i j => Ideal.div (attnW (hd3 x0 g) (hd3 x1 g) j i)
          (coef fun g' : Fin 48 => attnW (hd3 x0 g') (hd3 x1 g')) := by
  have hM : ∀ g', hd3 (k0_pay2 (F := Ideal) x0 x1) g' = attnW (hd3 x0 g') (hd3 x1 g') := pay2_hd3 x0 x1
  unfold k0_pay4
  generalize k0_pay2 (F := Ideal) x0 x1 = M at hM
  funext i j
  refine congrArg₂ Ideal.div ?_ ?_
  · -- the transposed stack at (g, i, j) is the stack at (g, j, i)
    exact (transpose_ix3_021_apply M transposes_S48x64x64_p0_2_1_S48x64x64 g i j).trans
      (congrFun (congrFun (hM g) j) i)
  · -- the divisor is one [1, 1, 1] value broadcast over the whole stack
    refine (broadcastTo_apply _ broadcasts_S1x1x1_S48x64x64 (ix3 g i j) (ix3 (0 : Fin 1) (0 : Fin 1) (0 : Fin 1)) ?_).trans ?_
    · intro ax
      match ax with
      | ⟨0, _⟩ => rfl
      | ⟨1, _⟩ => rfl
      | ⟨2, _⟩ => rfl
    refine (shapeCast_apply _ shapeCasts_S1x1_S1x1x1 _ (ix2 (0 : Fin 1) (0 : Fin 1)) ?_).trans ?_
    · rw [Shape.rowMajor_val_two, Shape.rowMajor_val_three]
      rfl
    -- the product of the two global maxima
    refine congrArg₂ (· * ·) ((gmax_apply _ 0 0).trans ?_) ((gmax_apply _ 0 0).trans ?_)
    · -- the column sums of |M|
      refine congrArg (fun f => (Finset.univ : Finset (Fin 48 × Fin 64)).fold max ninf f) (funext fun p => ?_)
      refine (colsum_apply (absf M) reduces_S48x64x64_S48x64_2 (.inl rfl) rfl p.1 p.2).trans ?_
      refine Finset.sum_congr rfl fun i' _ => ?_
      show max (hd3 M p.1 i' p.2) (-(hd3 M p.1 i' p.2)) = _
      rw [hM p.1]
    · -- the row sums of |M|
      refine congrArg (fun f => (Finset.univ : Finset (Fin 48 × Fin 64)).fold max ninf f) (funext fun p => ?_)
      refine (rowsum_apply (absf M) reduces_S48x64x64_S48x64 (.inl rfl) rfl p.1 p.2).trans ?_
      refine Finset.sum_congr rfl fun j' _ => ?_
      show max (hd3 M p.1 p.2 j') (-(hd3 M p.1 p.2 j')) = _
      rw [hM p.1]

/-- The first difference of a Newton–Schulz step on the stack: 7 I − M · Z. -/
private def kt1 (M I Z : FVec Ideal S48x64x64 .f32) : FVec Ideal S48x64x64 .f32 :=
  subf (mulf (broadcast S48x64x64 (Scalar.ofBits .f32 0x40E00000#32)) I)
    (matmul dot_S48x64x64_S48x64x64_S48x64x64_2_1_1_2_0_0 (some .fp32) M Z (constant S48x64x64 .f32 0x00000000#32))

/-- The rest of the step from that first difference t₁: ¼ · Z · (13 I − M · Z · (15 I − M · Z · t₁)). -/
private def krest (M I Z t1 : FVec Ideal S48x64x64 .f32) : FVec Ideal S48x64x64 .f32 :=
  mulf (broadcast S48x64x64 (Scalar.ofBits .f32 0x3E800000#32))
    (matmul dot_S48x64x64_S48x64x64_S48x64x64_2_1_1_2_0_0 (some .fp32) Z
      (subf (mulf (broadcast S48x64x64 (Scalar.ofBits .f32 0x41500000#32)) I)
        (matmul dot_S48x64x64_S48x64x64_S48x64x64_2_1_1_2_0_0 (some .fp32) M
          (matmul dot_S48x64x64_S48x64x64_S48x64x64_2_1_1_2_0_0 (some .fp32) Z
            (subf (mulf (broadcast S48x64x64 (Scalar.ofBits .f32 0x41700000#32)) I)
              (matmul dot_S48x64x64_S48x64x64_S48x64x64_2_1_1_2_0_0 (some .fp32) M
                (matmul dot_S48x64x64_S48x64x64_S48x64x64_2_1_1_2_0_0 (some .fp32) Z t1
                  (constant S48x64x64 .f32 0x00000000#32))
                (constant S48x64x64 .f32 0x00000000#32)))
            (constant S48x64x64 .f32 0x00000000#32))
          (constant S48x64x64 .f32 0x00000000#32)))
      (constant S48x64x64 .f32 0x00000000#32))

/-- One Newton–Schulz step on the whole stack, as the kernel writes it. -/
private def kstep (M I Z : FVec Ideal S48x64x64 .f32) : FVec Ideal S48x64x64 .f32 := krest M I Z (kt1 M I Z)

/-! The kernel's six steps follow one another in several named values: each of those is, by unfolding alone, two
    whole steps, or a named part of one step. -/

private theorem pay5_eq (M I Z : FVec Ideal S48x64x64 .f32) : k0_pay5 M I Z = kstep M I (kstep M I Z) := rfl

private theorem pay6_eq (M I Z : FVec Ideal S48x64x64 .f32) : k0_pay6 M I Z = kt1 M I (k0_pay5 M I Z) := rfl

private theorem pay7_eq (M I Z : FVec Ideal S48x64x64 .f32) : k0_pay7 M I Z (kt1 M I Z) = kstep M I (kstep M I Z) := rfl

private theorem pay9_eq (M I Z T : FVec Ideal S48x64x64 .f32) :
    k0_pay9 M I Z T = matmul dot_S48x64x64_S48x64x64_S48x64x64_2_1_1_2_0_0 (some .fp32) (k0_pay7 M I Z T)
      (kt1 M I (k0_pay7 M I Z T)) (constant S48x64x64 .f32 0x00000000#32) := rfl

private theorem pay1_eq (M I Z : FVec Ideal S48x64x64 .f32) :
    k0_pay1 M I Z (k0_pay8 I) (matmul dot_S48x64x64_S48x64x64_S48x64x64_2_1_1_2_0_0 (some .fp32) Z (kt1 M I Z)
      (constant S48x64x64 .f32 0x00000000#32)) (constant S48x64x64 .f32 0x00000000#32) = kstep M I (kstep M I Z) := rfl

/-- A product of two stacks into the zero accumulator, matrix by matrix. -/
private theorem mm_hd3 (A B : FVec Ideal S48x64x64 .f32) (g : Fin 48) :
    hd3 (matmul dot_S48x64x64_S48x64x64_S48x64x64_2_1_1_2_0_0 (some .fp32) A B (constant S48x64x64 .f32 0x00000000#32)) g
      = mmul (hd3 A g) (hd3 B g) :=
  matmul3_nn dot_S48x64x64_S48x64x64_S48x64x64_2_1_1_2_0_0 rfl rfl rfl rfl rfl rfl (some .fp32) A B g

/-- One step on the stack is, matrix by matrix, the Newton–Schulz step of the specification. -/
private theorem kstep_hd3 (M I Z : FVec Ideal S48x64x64 .f32) (g : Fin 48) (hI : hd3 I g = eye) :
    hd3 (kstep M I Z) g = nsStep (hd3 M g) (hd3 Z g) := by
  -- a scalar times the identity block, minus a stack, matrix by matrix
  have hdiff : ∀ (b : BitVec 32) (W : FVec Ideal S48x64x64 .f32) (W' : Mat 64 64), hd3 W g = W' →
      hd3 (subf (mulf (broadcast S48x64x64 (Scalar.ofBits .f32 b)) I) W) g
        = fun i j => Ideal.ofBits .f32 b * eye i j - W' i j := by
    intro b W W' hW
    funext i j
    show Ideal.ofBits .f32 b * hd3 I g i j - hd3 W g i j = _
    rw [hI, hW]
  have h1 : hd3 (kt1 M I Z) g = fun i j => c7 * eye i j - mmul (hd3 M g) (hd3 Z g) i j :=
    hdiff _ _ _ (mm_hd3 M Z g)
  unfold kstep krest
  generalize kt1 M I Z = T1 at h1
  -- 15 I − M · Z · t₁, then 13 I − M · Z · (that)
  have h2 := hdiff 0x41700000#32 _ _ ((mm_hd3 M _ g).trans (congrArg (mmul (hd3 M g)) ((mm_hd3 Z T1 g).trans
    (congrArg (mmul (hd3 Z g)) h1))))
  generalize subf (mulf (broadcast S48x64x64 (Scalar.ofBits .f32 0x41700000#32)) I) _ = T2 at h2
  have h3 := hdiff 0x41500000#32 _ _ ((mm_hd3 M _ g).trans (congrArg (mmul (hd3 M g)) ((mm_hd3 Z T2 g).trans
    (congrArg (mmul (hd3 Z g)) h2))))
  generalize subf (mulf (broadcast S48x64x64 (Scalar.ofBits .f32 0x41500000#32)) I) _ = T3 at h3
  funext i j
  show Ideal.ofBits .f32 0x3E800000#32 * hd3 (matmul _ _ Z T3 _) g i j = _
  rw [mm_hd3, h3]
  rfl

/-- The whole-block rectangle's offsets are zero. -/
private theorem hz3 : (![0, 0, 0] : Fin 3 → Nat) = fun _ => 0 :=
  funext fun a => match a with | ⟨0, _⟩ => rfl | ⟨1, _⟩ => rfl | ⟨2, _⟩ => rfl

/-- The first kernel's output block, matrix by matrix. -/
theorem out0_2_hd3 (x0 x1 : Vec Ideal S48x64x64 .f32) (g : Fin 48) :
    hd3 (out0_2 (F := Ideal) x0 x1) g
      = pinv (coef fun g' : Fin 48 => attnW (hd3 x0 g') (hd3 x1 g')) (attnW (hd3 x0 g) (hd3 x1 g)) := by
  unfold out0_2
  -- the one store covers the block, and each load reads a whole input block
  rw [View.canon_unit_zero hz3]
  simp only [View.ld_unit_zero (S := S48x64x64) hz3]
  -- what is stored is six steps on the stack from the first iterate
  rw [pay9_eq, pay6_eq, pay7_eq, pay1_eq, pay5_eq]
  have hI := kernel_eye g
  rw [kstep_hd3 _ _ _ g hI, kstep_hd3 _ _ _ g hI, kstep_hd3 _ _ _ g hI, kstep_hd3 _ _ _ g hI,
    kstep_hd3 _ _ _ g hI, kstep_hd3 _ _ _ g hI, pay2_hd3, pay4_hd3]
  rfl

end Nys

end
-- ==== Proof.KernelR0.lean ====
/-
  The first pipeline of the program, a grid of one point whose three blocks are its whole arrays, as a function of what
  its two input arrays hold when it is entered: its output array ends holding what the kernel body leaves in its output
  block from the two input arrays themselves.
-/
import proofs.«411123_j9947144258103_3_alg».proof.Proof.Gen.KernelIdeal.Frame
import Idealize.ShloMosaic.PureOps.Ideal
import Idealize.ShloMosaic.Lib.Pipeline.Value
import Idealize.ShloMosaic.Lib.Tactic

noncomputable section

namespace Nys

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Each window's block sits at zero offsets in its array: the grid has one point and every index map is constantly zero. -/
private theorem off0_0 (t : Fin cfg0.N) : (fun a => win0_0.index t a * main_v8.ty.shape.size a) = fun _ => 0 := by
  obtain rfl := fin_N0 t
  exact funext fun a => by fin_cases a <;> decide
private theorem off0_1 (t : Fin cfg0.N) : (fun a => win0_1.index t a * main_v9.ty.shape.size a) = fun _ => 0 := by
  obtain rfl := fin_N0 t
  exact funext fun a => by fin_cases a <;> decide
private theorem off0_2 (t : Fin cfg0.N) : (fun a => win0_2.index t a * main_v10.ty.shape.size a) = fun _ => 0 := by
  obtain rfl := fin_N0 t
  exact funext fun a => by fin_cases a <;> decide

/-- The first input window's block, named at its literal type. -/
private abbrev ablk (c : Dev nD) (t : Fin cfg0.N) : Vec Ideal S48x64x64 .f32 := iblk0 V c 0 t
/-- The second input window's block, named at its literal type. -/
private abbrev bblk (c : Dev nD) (t : Fin cfg0.N) : Vec Ideal S48x64x64 .f32 := iblk0 V c 1 t

/-- The first input's block is its whole array. -/
private theorem ablk_eq (c : Dev nD) (t : Fin cfg0.N) : ablk V c t = V c main_v8 :=
  Memref.read_access_unit_zero (Elt Ideal) main_v8 (off0_0 t) (fun a => by rw [congrFun (off0_0 t) a]; simp) (V c main_v8)

/-- The second input's block is its whole array. -/
private theorem bblk_eq (c : Dev nD) (t : Fin cfg0.N) : bblk V c t = V c main_v9 :=
  Memref.read_access_unit_zero (Elt Ideal) main_v9 (off0_1 t) (fun a => by rw [congrFun (off0_1 t) a]; simp) (V c main_v9)

/-- The first pipeline's output array after its one write-back. -/
theorem arr0_eq (c : Dev nD) : (dat0 V c).arrAt 2 cfg0.N = out0_2 (F := Ideal) (V c main_v8) (V c main_v9) := by
  refine (dat0 V c).arrAt_eq_of_cover 2 (out0_2 (F := Ideal) (V c main_v8) (V c main_v9)) (fun t _ => ?_)
    (fun i => ⟨t0_0, flush0_2 t0_0, ?_⟩)
  · -- what the one write-back writes: the body's output from the two whole input arrays, and the output window's
    -- block, read at zero offsets through a rectangle of the array's own sizes, is the array itself
    show (cfg0.win 2).cut (grid0.coords t) ((dat0 V c).after 2 t) = _
    rw [after0_2]
    show out0_2 (F := Ideal) (ablk V c t) (bblk V c t) = _
    rw [ablk_eq, bblk_eq]
    exact (Memref.read_access_unit_zero (Elt Ideal) main_v10 (off0_2 t)
      (fun a => by rw [congrFun (off0_2 t) a]; simp) (out0_2 (F := Ideal) (V c main_v8) (V c main_v9))).symm
  · -- the one block covers the array: it is the rectangle of the array's own sizes at zero offsets, which holds every index
    show i ∈ ((View.whole main_v10).slice (win0_2.rect t0_0)).set
    rw [View.set_slice_whole]
    exact View.mem_set_unit_zero (off0_2 t0_0) (fun a => by rw [congrFun (off0_2 t0_0) a]; simp) i

end Nys

end
-- ==== Proof.KernelAttn.lean ====
/-
  The second kernel of the program at one grid point: its blocks hold two heads.  For each of the two, what it
  leaves in the output block is F · (Z · (B · v)) with F = σ(q · klᵀ / 8) and B = σ(ql · kᵀ / 8) computed in the
  kernel from the head's query, key, landmark-query and landmark-key blocks, and Z the head's block of the matrix the
  first kernel left.
-/
import proofs.«411123_j9947144258103_3_alg».proof.Proof.Gen.KernelIdeal.Frame
import proofs.«411123_j9947144258103_3_alg».proof.Proof.Spec
import proofs.«411123_j9947144258103_3_alg».proof.Proof.LibBmm
import proofs.«411123_j9947144258103_3_alg».proof.Proof.LibSoftK

noncomputable section

namespace Nys

open Idealize.ShloMosaic Idealize.ShloMosaic.ValueIdx Cert.KernelIdeal Cert.KernelIdeal.Gen

/-- The all-zero offsets of a whole-block rectangle of rank 4. -/
private theorem hz4 : (![0, 0, 0, 0] : Fin 4 → Nat) = fun _ => 0 := funext fun a => by fin_cases a <;> rfl

/-- The one store covers the whole output block and every load reads a whole block, so the output block is the store's
    payload over the payloads of the first part, each read at the blocks themselves. -/
private theorem out1_6_pay (x0 x1 x2 : Vec Ideal S1x2x4096x64 .f32) (x3 x4 x5 : Vec Ideal S1x2x64x64 .f32) :
    out1_6 (F := Ideal) x0 x1 x2 x3 x4 x5 = k1_pay1 (k1_pay2 x0 x4) (k1_pay3 x3 x1) (k1_pay4 x3 x1) x2 x5 := by
  unfold out1_6
  rw [View.canon_unit_zero hz4]
  simp only [View.ld_unit_zero (S := S1x2x4096x64) hz4, View.ld_unit_zero (S := S1x2x64x64) hz4]

section Stack

variable {G M N : Nat}

/-- Narrowing the format changes no ideal value. -/
private theorem hd3_truncf {φ ψ : FTy} (X : FVec Ideal ⟨3, ![G, M, N]⟩ φ) (h : ψ.bits < φ.bits) (g : Fin G) :
    hd3 (truncf ψ X h) g = hd3 X g := rfl

/-- Multiplying a stack entry by entry by the splat of 1/8 scales each matrix by 1/8. -/
private theorem hd3_scale (X : FVec Ideal ⟨3, ![G, M, N]⟩ .f32) (g : Fin G) :
    hd3 (mulf X (broadcast ⟨3, ![G, M, N]⟩ (Scalar.ofBits .f32 0x3E000000#32))) g = scale8 (hd3 X g) := rfl

/-- The first half of a softmax written over a stack: the exponentials of the entries shifted by their row maximum. -/
private theorem kexp_hd3 (L : FVec Ideal ⟨3, ![G, M, N]⟩ .f32)
    (hr : (⟨3, ![G, M, N]⟩ : Shape).Reduces [2] ⟨2, ![G, M]⟩) (hsc : (⟨2, ![G, M]⟩ : Shape).ShapeCasts ⟨3, ![G, M, 1]⟩)
    (hbc : (⟨3, ![G, M, 1]⟩ : Shape).Broadcasts ⟨3, ![G, M, N]⟩)
    (hφ : FKind.Formats .f32) (hacc : (0xFF800000#32 : BitVec 32) = FKind.maximumf.neutral .f32 hφ) (g : Fin G) :
    hd3 (exp (subf L (broadcastTo ⟨3, ![G, M, N]⟩ (shapeCast ⟨3, ![G, M, 1]⟩
          (multiReduction .maximumf [2] ⟨2, ![G, M]⟩ L 0xFF800000#32 hr hφ hacc) hsc) hbc))) g
      = rowexp (hd3 L g) := by
  funext i j
  exact congrArg (fun t => Ideal.exp (L (ix3 g i j) - t)) (rowmax_keep_bcast L hr hsc hbc hφ hacc g i j)

/-- The second half: each entry of a stack over the sum of its row. -/
private theorem kdiv_hd3 (E : FVec Ideal ⟨3, ![G, M, N]⟩ .f32)
    (hr : (⟨3, ![G, M, N]⟩ : Shape).Reduces [2] ⟨2, ![G, M]⟩) (hsc : (⟨2, ![G, M]⟩ : Shape).ShapeCasts ⟨3, ![G, M, 1]⟩)
    (hbc : (⟨3, ![G, M, 1]⟩ : Shape).Broadcasts ⟨3, ![G, M, N]⟩)
    (hφ : FKind.Formats .f32) (hacc : (0x00000000#32 : BitVec 32) = FKind.add.neutral .f32 hφ) (g : Fin G) :
    hd3 (divf E (broadcastTo ⟨3, ![G, M, N]⟩ (shapeCast ⟨3, ![G, M, 1]⟩
          (multiReduction .add [2] ⟨2, ![G, M]⟩ E 0x00000000#32 hr hφ hacc) hsc) hbc)) g
      = fun i j => Ideal.div (hd3 E g i j) (∑ j' : Fin N, hd3 E g i j') := by
  funext i j
  exact congrArg (fun t => Ideal.div (E (ix3 g i j)) t) (rowsum_keep_bcast E hr hsc hbc hφ hacc g i j)

end Stack

/-- Dropping the leading unit axis of a block of two S × D matrices keeps each matrix. -/
private theorem hd3_cast_big (x : Vec Ideal S1x2x4096x64 .f32) (g : Fin 2) :
    hd3 (shapeCast S2x4096x64 x shapeCasts_S1x2x4096x64_S2x4096x64) g = hd4 x (0 : Fin 1) g := by
  funext i j
  exact shapeCast_1abc_abc_apply x _ g i j

/-- Dropping the leading unit axis of a block of two m × D matrices keeps each matrix. -/
private theorem hd3_cast_small (x : Vec Ideal S1x2x64x64 .f32) (g : Fin 2) :
    hd3 (shapeCast S2x64x64 x shapeCasts_S1x2x64x64_S2x64x64) g = hd4 x (0 : Fin 1) g := by
  funext i j
  exact shapeCast_1abc_abc_apply x _ g i j

/-- Putting the leading unit axis back keeps each matrix. -/
private theorem hd4_cast_out (x : FVec Ideal S2x4096x64 .f32) (e : Fin 2) :
    hd4 (shapeCast S1x2x4096x64 x shapeCasts_S2x4096x64_S1x2x4096x64) (0 : Fin 1) e = hd3 x e := by
  funext i j
  exact shapeCast_abc_1abc_apply x _ (0 : Fin 1) e i j

/-- The first part's first value: F = σ(q · klᵀ / 8), head by head. -/
private theorem k1_pay2_hd3 (v0 : Vec Ideal S1x2x4096x64 .f32) (v3 : Vec Ideal S1x2x64x64 .f32) (g : Fin 2) :
    hd3 (k1_pay2 v0 v3) g = attnW (hd4 v0 (0 : Fin 1) g) (hd4 v3 (0 : Fin 1) g) := by
  unfold k1_pay2
  -- the whole softmax of the scaled product, then the product itself, then its two factors
  refine (ksoftmax_hd3 _ reduces_S2x4096x64_S2x4096 shapeCasts_S2x4096_S2x4096x1 broadcasts_S2x4096x1_S2x4096x64
    (.inl rfl) rfl (.inl rfl) rfl g).trans ?_
  refine congrArg smax ?_
  refine (hd3_scale _ g).trans ?_
  refine congrArg scale8 ?_
  refine (matmul3_nt dot_S2x4096x64_S2x64x64_S2x4096x64_2_2_1_1_0_0 rfl rfl rfl rfl rfl rfl none _ _ g).trans ?_
  exact congrArg₂ mmulT (hd3_cast_big v0 g) (hd3_cast_small v3 g)

/-- The first part's second value: the shifted exponentials of ql · kᵀ / 8, head by head (their row sums are its
    third value, and the quotient is taken in the second part). -/
private theorem k1_pay3_hd3 (v19 : Vec Ideal S1x2x64x64 .f32) (v22 : Vec Ideal S1x2x4096x64 .f32) (g : Fin 2) :
    hd3 (k1_pay3 v19 v22) g = rowexp (scale8 (mmulT (hd4 v19 (0 : Fin 1) g) (hd4 v22 (0 : Fin 1) g))) := by
  unfold k1_pay3
  refine (kexp_hd3 _ reduces_S2x64x4096_S2x64 shapeCasts_S2x64_S2x64x1 broadcasts_S2x64x1_S2x64x4096 (.inl rfl) rfl g).trans ?_
  refine congrArg rowexp ?_
  refine (hd3_scale _ g).trans ?_
  refine congrArg scale8 ?_
  refine (matmul3_nt dot_S2x64x64_S2x4096x64_S2x64x4096_2_2_1_1_0_0 rfl rfl rfl rfl rfl rfl none _ _ g).trans ?_
  exact congrArg₂ mmulT (hd3_cast_small v19 g) (hd3_cast_big v22 g)

/-- The store's value, head by head, over any stack F and any stack E of exponentials with its row sums, the value
    block and the block Z of the first kernel's matrix: F · (Z · ((E over its row sums) · v)).  Three products, read
    outermost first, each a plain matrix product of the head's two factors. -/
private theorem k1_pay1_hd4 (v18 : FVec Ideal S2x4096x64 .bf16) (v32 : FVec Ideal S2x64x4096 .f32)
    (v38 : Vec Ideal S1x2x4096x64 .f32) (v42 : Vec Ideal S1x2x64x64 .f32) (e : Fin 2) :
    hd4 (k1_pay1 v18 v32 (multiReduction .add [2] S2x64 v32 0x00000000#32 reduces_S2x64x4096_S2x64 (.inl rfl) rfl) v38 v42)
        (0 : Fin 1) e
      = mmul (hd3 v18 e) (mmul (hd4 v42 (0 : Fin 1) e)
          (mmul (fun i j => Ideal.div (hd3 v32 e i j) (∑ j' : Fin 4096, hd3 v32 e i j')) (hd4 v38 (0 : Fin 1) e))) := by
  unfold k1_pay1
  refine (hd4_cast_out _ e).trans ?_
  refine (matmul3_nn dot_S2x4096x64_S2x64x64_S2x4096x64_2_1_1_2_0_0 rfl rfl rfl rfl rfl rfl none _ _ e).trans ?_
  refine congrArg (mmul (hd3 v18 e)) ?_
  refine (hd3_truncf _ _ e).trans ?_
  refine (matmul3_nn dot_S2x64x64_S2x64x64_S2x64x64_2_1_1_2_0_0 rfl rfl rfl rfl rfl rfl none _ _ e).trans ?_
  refine congrArg₂ mmul (hd3_cast_small v42 e) ?_
  refine (matmul3_nn dot_S2x64x4096_S2x4096x64_S2x64x64_2_1_1_2_0_0 rfl rfl rfl rfl rfl rfl none _ _ e).trans ?_
  refine congrArg₂ mmul ?_ (hd3_cast_big v38 e)
  exact kdiv_hd3 v32 reduces_S2x64x4096_S2x64 shapeCasts_S2x64_S2x64x1 broadcasts_S2x64x1_S2x64x4096 (.inl rfl) rfl e

/-- The second kernel's output block, head by head. -/
theorem out1_6_hd4 (x0 x1 x2 : Vec Ideal S1x2x4096x64 .f32) (x3 x4 x5 : Vec Ideal S1x2x64x64 .f32) (e : Fin 2) :
    hd4 (out1_6 (F := Ideal) x0 x1 x2 x3 x4 x5) (0 : Fin 1) e
      = headOut (hd4 x0 (0 : Fin 1) e) (hd4 x1 (0 : Fin 1) e) (hd4 x2 (0 : Fin 1) e)
          (hd4 x3 (0 : Fin 1) e) (hd4 x4 (0 : Fin 1) e) (hd4 x5 (0 : Fin 1) e) := by
  rw [out1_6_pay]
  -- the third value of the first part is the row sums of its second, so the store's value is the general form above;
  -- with F and the exponentials read head by head, the quotient by the row sums is the softmax B
  refine (k1_pay1_hd4 (k1_pay2 x0 x4) (k1_pay3 x3 x1) x2 x5 e).trans ?_
  rw [k1_pay2_hd3, k1_pay3_hd3]
  rfl

end Nys

end
-- ==== Proof.KernelR1.lean ====
/-
  The second pipeline of the program, over its grid of 4 × 6 points, as a function of what its arrays hold when it is
  entered: grid point (b, p) reads heads 2p and 2p + 1 of batch b of each of its six input arrays and writes the same
  two heads of the result array, so the 24 blocks written back tile the result array and it ends holding, head by
  head, the attention output of that head's query, key, value, landmark query, landmark key and Newton–Schulz matrix.
-/
import proofs.«411123_j9947144258103_3_alg».proof.Proof.Gen.KernelIdeal.Frame
import proofs.«411123_j9947144258103_3_alg».proof.Proof.Spec
import proofs.«411123_j9947144258103_3_alg».proof.Proof.KernelAttn
import Idealize.ShloMosaic.Lib.Pipeline.Value
import Idealize.ShloMosaic.Lib.Tactic

noncomputable section

namespace Nys

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What the second pipeline leaves in the result array, from the contents of its six input arrays at its entry. -/
def G1 (c : Dev nD) : Buf (Elt Ideal) ((c : Thread nD τ).loc main_v12) := fun idx =>
  headOut (hd4 (V c main_arg0) (idx 0) (idx 1)) (hd4 (V c main_arg1) (idx 0) (idx 1)) (hd4 (V c main_arg2) (idx 0) (idx 1))
    (hd4 (V c main_v3) (idx 0) (idx 1)) (hd4 (V c main_v7) (idx 0) (idx 1)) (hd4 (V c main_v11) (idx 0) (idx 1)) (idx 2) (idx 3)

/-! ### The index maps, decided over the 24 grid points

  At every point each input window's block index agrees with the output window's on the batch and head-pair axes and
  is 0 on the two inner axes; the output's block index (b, p, 0, 0) has b < 4 and p < 6; and every such (b, p) is the
  block index of some point. -/

private theorem idx_facts1 : ∀ t : Fin cfg1.N,
    (win1_0.index t (0 : Fin 4) = win1_6.index t (0 : Fin 4) ∧ win1_0.index t (1 : Fin 4) = win1_6.index t (1 : Fin 4)
      ∧ win1_0.index t (2 : Fin 4) = 0 ∧ win1_0.index t (3 : Fin 4) = 0)
    ∧ (win1_1.index t (0 : Fin 4) = win1_6.index t (0 : Fin 4) ∧ win1_1.index t (1 : Fin 4) = win1_6.index t (1 : Fin 4)
      ∧ win1_1.index t (2 : Fin 4) = 0 ∧ win1_1.index t (3 : Fin 4) = 0)
    ∧ (win1_2.index t (0 : Fin 4) = win1_6.index t (0 : Fin 4) ∧ win1_2.index t (1 : Fin 4) = win1_6.index t (1 : Fin 4)
      ∧ win1_2.index t (2 : Fin 4) = 0 ∧ win1_2.index t (3 : Fin 4) = 0)
    ∧ (win1_3.index t (0 : Fin 4) = win1_6.index t (0 : Fin 4) ∧ win1_3.index t (1 : Fin 4) = win1_6.index t (1 : Fin 4)
      ∧ win1_3.index t (2 : Fin 4) = 0 ∧ win1_3.index t (3 : Fin 4) = 0)
    ∧ (win1_4.index t (0 : Fin 4) = win1_6.index t (0 : Fin 4) ∧ win1_4.index t (1 : Fin 4) = win1_6.index t (1 : Fin 4)
      ∧ win1_4.index t (2 : Fin 4) = 0 ∧ win1_4.index t (3 : Fin 4) = 0)
    ∧ (win1_5.index t (0 : Fin 4) = win1_6.index t (0 : Fin 4) ∧ win1_5.index t (1 : Fin 4) = win1_6.index t (1 : Fin 4)
      ∧ win1_5.index t (2 : Fin 4) = 0 ∧ win1_5.index t (3 : Fin 4) = 0)
    ∧ win1_6.index t (0 : Fin 4) < 4 ∧ win1_6.index t (1 : Fin 4) < 6
      ∧ win1_6.index t (2 : Fin 4) = 0 ∧ win1_6.index t (3 : Fin 4) = 0 :=
  (by decide +kernel : ∀ t : Fin grid1.N, _)

private theorem idx_onto1 : ∀ (q0 : Fin 4) (q1 : Fin 6), ∃ t : Fin cfg1.N, win1_6.index t = ![q0.val, q1.val, 0, 0] :=
  (by decide +kernel : ∀ (q0 : Fin 4) (q1 : Fin 6), ∃ t : Fin grid1.N, win1_6.index t = ![q0.val, q1.val, 0, 0])

/-! ### The input blocks, read head by head

  The block of input window W at a point whose output block index is (b, p, 0, 0) is the two heads 2p and 2p + 1 of
  batch b of its array: entry (0, e, i, j) of the block is entry (b, 2p + e, i, j) of the array, the embedded index being,
  axis by axis, block index × block size + coordinate. -/

/-- Window 0's block at a point, at its literal type. -/
private abbrev blk0 (c : Dev nD) (t : Fin cfg1.N) : Vec Ideal S1x2x4096x64 .f32 := iblk1 V c 0 t

/-- Head e of window 0's block is head 2p + e of batch b of its array. -/
private theorem blk0_hd4 (c : Dev nD) (t : Fin cfg1.N) (e : Fin 2) (b : Fin 4) (h : Fin 12)
    (hb : b.val = win1_6.index t (0 : Fin 4)) (hh : h.val = 2 * win1_6.index t (1 : Fin 4) + e.val) :
    hd4 (blk0 V c t) (0 : Fin 1) e = hd4 (V c main_arg0) b h := by
  obtain ⟨⟨e0, e1, e2, e3⟩, -⟩ := idx_facts1 t
  funext i j
  show iblk1 V c 0 t (ix4 (0 : Fin 1) e i j) = V c main_arg0 (ix4 b h i j)
  unfold iblk1
  rw [View.read_apply]
  show V c main_arg0 _ = V c main_arg0 _
  congr 1
  funext a
  apply Fin.ext
  match a with
  | ⟨0, _⟩ => show win1_0.index t (0 : Fin 4) * 1 + 1 * (0 : Fin 1).val = b.val; rw [e0, hb]; simp
  | ⟨1, _⟩ => show win1_0.index t (1 : Fin 4) * 2 + 1 * e.val = h.val; rw [e1, hh]; omega
  | ⟨2, _⟩ => show win1_0.index t (2 : Fin 4) * 4096 + 1 * i.val = i.val; rw [e2]; omega
  | ⟨3, _⟩ => show win1_0.index t (3 : Fin 4) * 64 + 1 * j.val = j.val; rw [e3]; omega

/-- Window 1's block at a point, at its literal type. -/
private abbrev blk1 (c : Dev nD) (t : Fin cfg1.N) : Vec Ideal S1x2x4096x64 .f32 := iblk1 V c 1 t

/-- Head e of window 1's block is head 2p + e of batch b of its array. -/
private theorem blk1_hd4 (c : Dev nD) (t : Fin cfg1.N) (e : Fin 2) (b : Fin 4) (h : Fin 12)
    (hb : b.val = win1_6.index t (0 : Fin 4)) (hh : h.val = 2 * win1_6.index t (1 : Fin 4) + e.val) :
    hd4 (blk1 V c t) (0 : Fin 1) e = hd4 (V c main_arg1) b h := by
  obtain ⟨-, ⟨e0, e1, e2, e3⟩, -⟩ := idx_facts1 t
  funext i j
  show iblk1 V c 1 t (ix4 (0 : Fin 1) e i j) = V c main_arg1 (ix4 b h i j)
  unfold iblk1
  rw [View.read_apply]
  show V c main_arg1 _ = V c main_arg1 _
  congr 1
  funext a
  apply Fin.ext
  match a with
  | ⟨0, _⟩ => show win1_1.index t (0 : Fin 4) * 1 + 1 * (0 : Fin 1).val = b.val; rw [e0, hb]; simp
  | ⟨1, _⟩ => show win1_1.index t (1 : Fin 4) * 2 + 1 * e.val = h.val; rw [e1, hh]; omega
  | ⟨2, _⟩ => show win1_1.index t (2 : Fin 4) * 4096 + 1 * i.val = i.val; rw [e2]; omega
  | ⟨3, _⟩ => show win1_1.index t (3 : Fin 4) * 64 + 1 * j.val = j.val; rw [e3]; omega

/-- Window 2's block at a point, at its literal type. -/
private abbrev blk2 (c : Dev nD) (t : Fin cfg1.N) : Vec Ideal S1x2x4096x64 .f32 := iblk1 V c 2 t

/-- Head e of window 2's block is head 2p + e of batch b of its array. -/
private theorem blk2_hd4 (c : Dev nD) (t : Fin cfg1.N) (e : Fin 2) (b : Fin 4) (h : Fin 12)
    (hb : b.val = win1_6.index t (0 : Fin 4)) (hh : h.val = 2 * win1_6.index t (1 : Fin 4) + e.val) :
    hd4 (blk2 V c t) (0 : Fin 1) e = hd4 (V c main_arg2) b h := by
  obtain ⟨-, -, ⟨e0, e1, e2, e3⟩, -⟩ := idx_facts1 t
  funext i j
  show iblk1 V c 2 t (ix4 (0 : Fin 1) e i j) = V c main_arg2 (ix4 b h i j)
  unfold iblk1
  rw [View.read_apply]
  show V c main_arg2 _ = V c main_arg2 _
  congr 1
  funext a
  apply Fin.ext
  match a with
  | ⟨0, _⟩ => show win1_2.index t (0 : Fin 4) * 1 + 1 * (0 : Fin 1).val = b.val; rw [e0, hb]; simp
  | ⟨1, _⟩ => show win1_2.index t (1 : Fin 4) * 2 + 1 * e.val = h.val; rw [e1, hh]; omega
  | ⟨2, _⟩ => show win1_2.index t (2 : Fin 4) * 4096 + 1 * i.val = i.val; rw [e2]; omega
  | ⟨3, _⟩ => show win1_2.index t (3 : Fin 4) * 64 + 1 * j.val = j.val; rw [e3]; omega

/-- Window 3's block at a point, at its literal type. -/
private abbrev blk3 (c : Dev nD) (t : Fin cfg1.N) : Vec Ideal S1x2x64x64 .f32 := iblk1 V c 3 t

/-- Head e of window 3's block is head 2p + e of batch b of its array. -/
private theorem blk3_hd4 (c : Dev nD) (t : Fin cfg1.N) (e : Fin 2) (b : Fin 4) (h : Fin 12)
    (hb : b.val = win1_6.index t (0 : Fin 4)) (hh : h.val = 2 * win1_6.index t (1 : Fin 4) + e.val) :
    hd4 (blk3 V c t) (0 : Fin 1) e = hd4 (V c main_v3) b h := by
  obtain ⟨-, -, -, ⟨e0, e1, e2, e3⟩, -⟩ := idx_facts1 t
  funext i j
  show iblk1 V c 3 t (ix4 (0 : Fin 1) e i j) = V c main_v3 (ix4 b h i j)
  unfold iblk1
  rw [View.read_apply]
  show V c main_v3 _ = V c main_v3 _
  congr 1
  funext a
  apply Fin.ext
  match a with
  | ⟨0, _⟩ => show win1_3.index t (0 : Fin 4) * 1 + 1 * (0 : Fin 1).val = b.val; rw [e0, hb]; simp
  | ⟨1, _⟩ => show win1_3.index t (1 : Fin 4) * 2 + 1 * e.val = h.val; rw [e1, hh]; omega
  | ⟨2, _⟩ => show win1_3.index t (2 : Fin 4) * 64 + 1 * i.val = i.val; rw [e2]; omega
  | ⟨3, _⟩ => show win1_3.index t (3 : Fin 4) * 64 + 1 * j.val = j.val; rw [e3]; omega

/-- Window 4's block at a point, at its literal type. -/
private abbrev blk4 (c : Dev nD) (t : Fin cfg1.N) : Vec Ideal S1x2x64x64 .f32 := iblk1 V c 4 t

/-- Head e of window 4's block is head 2p + e of batch b of its array. -/
private theorem blk4_hd4 (c : Dev nD) (t : Fin cfg1.N) (e : Fin 2) (b : Fin 4) (h : Fin 12)
    (hb : b.val = win1_6.index t (0 : Fin 4)) (hh : h.val = 2 * win1_6.index t (1 : Fin 4) + e.val) :
    hd4 (blk4 V c t) (0 : Fin 1) e = hd4 (V c main_v7) b h := by
  obtain ⟨-, -, -, -, ⟨e0, e1, e2, e3⟩, -⟩ := idx_facts1 t
  funext i j
  show iblk1 V c 4 t (ix4 (0 : Fin 1) e i j) = V c main_v7 (ix4 b h i j)
  unfold iblk1
  rw [View.read_apply]
  show V c main_v7 _ = V c main_v7 _
  congr 1
  funext a
  apply Fin.ext
  match a with
  | ⟨0, _⟩ => show win1_4.index t (0 : Fin 4) * 1 + 1 * (0 : Fin 1).val = b.val; rw [e0, hb]; simp
  | ⟨1, _⟩ => show win1_4.index t (1 : Fin 4) * 2 + 1 * e.val = h.val; rw [e1, hh]; omega
  | ⟨2, _⟩ => show win1_4.index t (2 : Fin 4) * 64 + 1 * i.val = i.val; rw [e2]; omega
  | ⟨3, _⟩ => show win1_4.index t (3 : Fin 4) * 64 + 1 * j.val = j.val; rw [e3]; omega

/-- Window 5's block at a point, at its literal type. -/
private abbrev blk5 (c : Dev nD) (t : Fin cfg1.N) : Vec Ideal S1x2x64x64 .f32 := iblk1 V c 5 t

/-- Head e of window 5's block is head 2p + e of batch b of its array. -/
private theorem blk5_hd4 (c : Dev nD) (t : Fin cfg1.N) (e : Fin 2) (b : Fin 4) (h : Fin 12)
    (hb : b.val = win1_6.index t (0 : Fin 4)) (hh : h.val = 2 * win1_6.index t (1 : Fin 4) + e.val) :
    hd4 (blk5 V c t) (0 : Fin 1) e = hd4 (V c main_v11) b h := by
  obtain ⟨-, -, -, -, -, ⟨e0, e1, e2, e3⟩, -⟩ := idx_facts1 t
  funext i j
  show iblk1 V c 5 t (ix4 (0 : Fin 1) e i j) = V c main_v11 (ix4 b h i j)
  unfold iblk1
  rw [View.read_apply]
  show V c main_v11 _ = V c main_v11 _
  congr 1
  funext a
  apply Fin.ext
  match a with
  | ⟨0, _⟩ => show win1_5.index t (0 : Fin 4) * 1 + 1 * (0 : Fin 1).val = b.val; rw [e0, hb]; simp
  | ⟨1, _⟩ => show win1_5.index t (1 : Fin 4) * 2 + 1 * e.val = h.val; rw [e1, hh]; omega
  | ⟨2, _⟩ => show win1_5.index t (2 : Fin 4) * 64 + 1 * i.val = i.val; rw [e2]; omega
  | ⟨3, _⟩ => show win1_5.index t (3 : Fin 4) * 64 + 1 * j.val = j.val; rw [e3]; omega

/-! ### What a point writes back, and the cover -/

/-- The target function at an index whose coordinates are named (b, h, s, d). -/
private theorem G1_apply (c : Dev nD) (k : S4x12x4096x64.Idx) (b : Fin 4) (h : Fin 12) (s : Fin 4096) (d : Fin 64)
    (h0 : (k 0).val = b.val) (h1 : (k 1).val = h.val) (h2 : (k 2).val = s.val) (h3 : (k 3).val = d.val) :
    G1 V c k = headOut (hd4 (V c main_arg0) b h) (hd4 (V c main_arg1) b h) (hd4 (V c main_arg2) b h)
      (hd4 (V c main_v3) b h) (hd4 (V c main_v7) b h) (hd4 (V c main_v11) b h) s d := by
  have hk : k = ix4 b h s d := by
    funext a
    apply Fin.ext
    match a with
    | ⟨0, _⟩ => exact h0
    | ⟨1, _⟩ => exact h1
    | ⟨2, _⟩ => exact h2
    | ⟨3, _⟩ => exact h3
  subst hk
  rfl

/-- The output window's blocks lie inside the array, so a write-back moves the whole staging buffer: read at (0, e, s, d),
    what is written back is the buffer's head e at (s, d). -/
private theorem cut1_6_apply (t : Fin cfg1.N) (X : Vec Ideal S1x2x4096x64 .f32) (e : Fin 2) (s : Fin 4096) (d : Fin 64) :
    (cfg1.win 6).cut (grid1.coords t) X (ix4 (0 : Fin 1) e s d) = hd4 X (0 : Fin 1) e s d := rfl

/-- The point with output block index (b, p, 0, 0) writes back block (b, p) of the target function. -/
private theorem flushed1_6 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  obtain ⟨-, -, -, -, -, -, l0, l1, z2, z3⟩ := idx_facts1 t
  funext y
  obtain ⟨u, e, s, d, rfl⟩ : ∃ (u : Fin 1) (e : Fin 2) (s : Fin 4096) (d : Fin 64), y = ix4 u e s d :=
    ⟨_, _, _, _, eq_ix4 y⟩
  obtain rfl : u = 0 := Subsingleton.elim _ _
  refine (cut1_6_apply t _ e s d).trans ?_
  show _ = G1 V c (((cfg1.win 6).blk t).view.emb (ix4 (0 : Fin 1) e s d))
  rw [out1_6_hd4]
  have hb : (⟨win1_6.index t (0 : Fin 4), l0⟩ : Fin 4).val = win1_6.index t (0 : Fin 4) := rfl
  have hh : (⟨2 * win1_6.index t (1 : Fin 4) + e.val, by have := e.isLt; omega⟩ : Fin 12).val
      = 2 * win1_6.index t (1 : Fin 4) + e.val := rfl
  rw [blk0_hd4 V c t e _ _ hb hh, blk1_hd4 V c t e _ _ hb hh, blk2_hd4 V c t e _ _ hb hh,
    blk3_hd4 V c t e _ _ hb hh, blk4_hd4 V c t e _ _ hb hh, blk5_hd4 V c t e _ _ hb hh]
  refine (G1_apply V c _ _ _ s d ?_ ?_ ?_ ?_).symm
  · show win1_6.index t (0 : Fin 4) * 1 + 1 * (0 : Fin 1).val = win1_6.index t (0 : Fin 4); simp
  · show win1_6.index t (1 : Fin 4) * 2 + 1 * e.val = 2 * win1_6.index t (1 : Fin 4) + e.val; omega
  · show win1_6.index t (2 : Fin 4) * 4096 + 1 * s.val = s.val; rw [z2]; omega
  · show win1_6.index t (3 : Fin 4) * 64 + 1 * d.val = d.val; rw [z3]; omega

/-- An index of the result array is in a point's block iff each coordinate is in the block's range on its axis. -/
private theorem mem_blk1_6 (t : Fin cfg1.N) (i : S4x12x4096x64.Idx) :
    i ∈ ((cfg1.win 6).blk t).view.set ↔
      ∀ a : Fin 4, win1_6.index t a * S1x2x4096x64.size a ≤ (i a).val ∧ (i a).val < win1_6.index t a * S1x2x4096x64.size a + S1x2x4096x64.size a := by
  show i ∈ ((View.whole main_v12).slice (win1_6.rect t)).set ↔ _
  rw [View.set_slice_whole, Rect.mem_set_unit]
  exact Iff.rfl

/-- Every index (b, h, s, d) of the result array lies in the block of the point with block index (b, h / 2, 0, 0). -/
private theorem cover1 (i : S4x12x4096x64.Idx) : ∃ t : Fin cfg1.N, (cfg1.win 6).flush t = true ∧ i ∈ ((cfg1.win 6).blk t).view.set := by
  have hi0 : (i 0).val < 4 := (i 0).isLt
  have hi1 : (i 1).val < 12 := (i 1).isLt
  have hi2 : (i 2).val < 4096 := (i 2).isLt
  have hi3 : (i 3).val < 64 := (i 3).isLt
  obtain ⟨t, ht⟩ := idx_onto1 ⟨(i 0).val, hi0⟩ ⟨(i 1).val / 2, by omega⟩
  have q0 : win1_6.index t (0 : Fin 4) = (i 0).val := congrFun ht 0
  have q1 : win1_6.index t (1 : Fin 4) = (i 1).val / 2 := congrFun ht 1
  have q2 : win1_6.index t (2 : Fin 4) = 0 := congrFun ht 2
  have q3 : win1_6.index t (3 : Fin 4) = 0 := congrFun ht 3
  refine ⟨t, flush1_6 t, ?_⟩
  rw [mem_blk1_6]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 2 ≤ (i 1).val ∧ (i 1).val < win1_6.index t (1 : Fin 4) * 2 + 2; omega
  | ⟨2, _⟩ => show win1_6.index t (2 : Fin 4) * 4096 ≤ (i 2).val ∧ (i 2).val < win1_6.index t (2 : Fin 4) * 4096 + 4096; omega
  | ⟨3, _⟩ => show win1_6.index t (3 : Fin 4) * 64 ≤ (i 3).val ∧ (i 3).val < win1_6.index t (3 : Fin 4) * 64 + 64; omega

/-- The result array after the second pipeline's 24 write-backs. -/
theorem arr1_eq (c : Dev nD) : (dat1 V c).arrAt 6 cfg1.N = G1 V c := by
  exact (dat1 V c).arrAt_eq_of_cover 6 (G1 V c) (fun t _ => flushed1_6 V c t) cover1

end Nys

end
-- ==== Proof.KernelHost.lean ====
/-
  The host operations of the kernel's program around its two pipelines, read back: what the arrays the pipelines take
  hold when each pipeline is entered.  Before the first pipeline the program forms the landmark means of the query and
  of the key (a reshape of the 4096 positions into 64 segments of 64, the sum over a segment, the quotient by 64) and
  reshapes both from [4, 12, 64, 64] to a stack of 48; between the pipelines it reshapes the first pipeline's output
  back to [4, 12, 64, 64].  No host operation and neither pipeline writes an argument array or a landmark array.
-/
import proofs.«411123_j9947144258103_3_alg».proof.Proof.Gen.KernelIdeal.Frame
import Idealize.ShloMosaic.PureOps.Ideal
import Idealize.ShloMosaic.Lib.StableHlo.Run
import Idealize.ShloMosaic.Lib.Pipeline.Value
import Idealize.ShloMosaic.Lib.Tactic

noncomputable section

namespace Nys

open Idealize.ShloMosaic Idealize.ShloMosaic.TcCoe Idealize.SL.Sem
open Idealize.ShloMosaic.Pipeline (Dat)
open Cert.KernelIdeal Cert.KernelIdeal.Gen

/-- The landmark means of a [4, 12, 4096, 64] array as the kernel's program computes them on the host: segment sums
    from 0 over 64 consecutive positions, divided by 64. -/
def lmK (x : FVec Ideal S4x12x4096x64 .f32) : FVec Ideal S4x12x64x64 .f32 :=
  Host.divf
    (Host.reduceAdd (shapeCast S4x12x64x64x64 x shapeCasts_S4x12x4096x64_S4x12x64x64x64)
      (constant (F := Ideal) S_ .f32 0x00000000#32) reducesTo_S4x12x64x64x64_S4x12x64x64_d3 h_S_)
    (broadcastInDim S4x12x64x64 ![] bcast_S_S4x12x64x64 (constant (F := Ideal) S_ .f32 0x42800000#32))

variable (m : (ℓ : Loc nD τ sig) → Buf (Elt Ideal) ℓ) (ρ : Dev nD → PrngReg)

/-- The reshape between the pipelines writes only its result: every other buffer is as the first pipeline left it. -/
private theorem after1_of_ne (c : Dev nD) (b : Ref sig .tc) (hb : b ≠ main_v11) :
    V3 m ρ c b = W2 m ρ c (Proc.devRef .tc b) := by
  refine StableHlo.after_of_forall_not_mem (b := Proc.devRef .tc b) _ _ fun op hop => ?_
  rw [List.mem_singleton.mp hop, StableHlo.reshape_writes, Finset.mem_singleton]
  exact StableHlo.devRef_ne_of_ne hb

/-- No host operation before the first pipeline writes an argument: at its entry each argument is as launched. -/
private theorem after0_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
private theorem after0_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
private theorem after0_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- At the first pipeline's entry its two input arrays are the stacks of 48 landmark matrices. -/
theorem V1_v8 (c : Dev nD) :
    V1 m ρ c main_v8 = shapeCast S48x64x64 (lmK (m ((c : Thread nD τ).loc main_arg0))) shapeCasts_S4x12x64x64_S48x64x64 := by
  show StableHlo.after hostOps0 (W0 m ρ c) (Proc.devRef .tc main_v8) = _
  simp only [hostOps0]
  after_results
  rfl
theorem V1_v9 (c : Dev nD) :
    V1 m ρ c main_v9 = shapeCast S48x64x64 (lmK (m ((c : Thread nD τ).loc main_arg1))) shapeCasts_S4x12x64x64_S48x64x64 := by
  show StableHlo.after hostOps0 (W0 m ρ c) (Proc.devRef .tc main_v9) = _
  simp only [hostOps0]
  after_results
  rfl

/-- At the second pipeline's entry the three arguments are as launched, -/
theorem V3_arg0 (c : Dev nD) : V3 m ρ c main_arg0 = m ((c : Thread nD τ).loc main_arg0) := by
  exact (after1_of_ne m ρ c main_arg0 (by decide)).trans ((W2_of_ne m ρ c main_arg0 (by decide)).trans (after0_arg0 m ρ c))
theorem V3_arg1 (c : Dev nD) : V3 m ρ c main_arg1 = m ((c : Thread nD τ).loc main_arg1) := by
  exact (after1_of_ne m ρ c main_arg1 (by decide)).trans ((W2_of_ne m ρ c main_arg1 (by decide)).trans (after0_arg1 m ρ c))
theorem V3_arg2 (c : Dev nD) : V3 m ρ c main_arg2 = m ((c : Thread nD τ).loc main_arg2) := by
  exact (after1_of_ne m ρ c main_arg2 (by decide)).trans ((W2_of_ne m ρ c main_arg2 (by decide)).trans (after0_arg2 m ρ c))
/-- the two landmark arrays are the landmark means of the query and of the key, -/
theorem V3_v3 (c : Dev nD) : V3 m ρ c main_v3 = lmK (m ((c : Thread nD τ).loc main_arg0)) := by
  refine (after1_of_ne m ρ c main_v3 (by decide)).trans ((W2_of_ne m ρ c main_v3 (by decide)).trans ?_)
  show StableHlo.after hostOps0 (W0 m ρ c) (Proc.devRef .tc main_v3) = _
  simp only [hostOps0]
  after_results
  rfl
theorem V3_v7 (c : Dev nD) : V3 m ρ c main_v7 = lmK (m ((c : Thread nD τ).loc main_arg1)) := by
  refine (after1_of_ne m ρ c main_v7 (by decide)).trans ((W2_of_ne m ρ c main_v7 (by decide)).trans ?_)
  show StableHlo.after hostOps0 (W0 m ρ c) (Proc.devRef .tc main_v7) = _
  simp only [hostOps0]
  after_results
  rfl
/-- and the sixth input array is the first pipeline's output array reshaped to [4, 12, 64, 64]. -/
theorem V3_v11 (c : Dev nD) :
    V3 m ρ c main_v11 = shapeCast S4x12x64x64 ((dat0 (V1 m ρ) c).arrAt 2 cfg0.N) shapeCasts_S48x64x64_S4x12x64x64 := by
  have e : W2 m ρ c (Proc.devRef .tc main_v10) = (dat0 (V1 m ρ) c).arrAt 2 cfg0.N := W2_arr m ρ c 2
  show StableHlo.after hostOps1 (W2 m ρ c) (Proc.devRef .tc main_v11) = _
  simp only [hostOps1]
  after_results
  rw [e]
  rfl

end Nys

end
-- ==== Proof.KernelValue.lean ====
/-
  The kernel's program, end to end, head by head: the result array after the run holds, for head (b, h), the attention
  output F · (Z · (B · v)) of that head's query, key and value as launched, of the landmark means of the query and of the
  key, and of the Newton–Schulz matrix Z the first pipeline computed for head 12·b + h of its stack of 48 — six steps
  from M ᵀ / c for that head's M = σ(ql · klᵀ / 8), the scalar c taken over all 48 heads.
-/
import proofs.«411123_j9947144258103_3_alg».proof.Proof.Gen.KernelIdeal.Frame
import proofs.«411123_j9947144258103_3_alg».proof.Proof.Spec
import proofs.«411123_j9947144258103_3_alg».proof.Proof.LibIdx
import proofs.«411123_j9947144258103_3_alg».proof.Proof.KernelPinv
import proofs.«411123_j9947144258103_3_alg».proof.Proof.KernelR0
import proofs.«411123_j9947144258103_3_alg».proof.Proof.KernelR1
import proofs.«411123_j9947144258103_3_alg».proof.Proof.KernelHost

noncomputable section

namespace Nys

open Idealize.ShloMosaic Idealize.ShloMosaic.TcCoe Idealize.ShloMosaic.ValueIdx Idealize.SL.Sem
open Cert.KernelIdeal Cert.KernelIdeal.Gen

/-- The Newton–Schulz matrix of head (b, h) from the two landmark arrays: the scalar is over all 48 heads. -/
def zmat (QL KL : (⟨4, ![4, 12, 64, 64]⟩ : Shape).Idx → EReal) (b : Fin 4) (h : Fin 12) : Mat 64 64 :=
  pinv (coef fun g : Fin 48 => attnW (hd4 QL (gb g) (gh g)) (hd4 KL (gb g) (gh g))) (attnW (hd4 QL b h) (hd4 KL b h))

variable (m : (ℓ : Loc nD τ sig) → Buf (Elt Ideal) ℓ) (ρ : Dev nD → PrngReg)

/-- Head (b, h) of the sixth input array of the second pipeline is the Newton–Schulz matrix of that head. -/
theorem v11_hd4 (c : Dev nD) (b : Fin 4) (h : Fin 12) :
    hd4 (V3 m ρ c main_v11) b h
      = zmat (lmK (m ((c : Thread nD τ).loc main_arg0))) (lmK (m ((c : Thread nD τ).loc main_arg1))) b h := by
  rw [V3_v11]
  refine (hd4_cast4x12 _ _ b h).trans ?_
  rw [arr0_eq, out0_2_hd3, V1_v8, V1_v9]
  unfold zmat
  have hq : ∀ g, hd3 (shapeCast S48x64x64 (lmK (m ((c : Thread nD τ).loc main_arg0))) shapeCasts_S4x12x64x64_S48x64x64) g
      = hd4 (lmK (m ((c : Thread nD τ).loc main_arg0))) (gb g) (gh g) := fun g => hd3_cast48 _ _ g
  have hk : ∀ g, hd3 (shapeCast S48x64x64 (lmK (m ((c : Thread nD τ).loc main_arg1))) shapeCasts_S4x12x64x64_S48x64x64) g
      = hd4 (lmK (m ((c : Thread nD τ).loc main_arg1))) (gb g) (gh g) := fun g => hd3_cast48 _ _ g
  simp only [hq, hk, gb_gflat, gh_gflat]

/-- The result array after the run, head by head. -/
theorem kernel_hd4 (c : Dev nD) (b : Fin 4) (h : Fin 12) :
    hd4 (W4 m ρ c (Proc.devRef .tc main_v12)) b h
      = headOut (hd4 (m ((c : Thread nD τ).loc main_arg0)) b h) (hd4 (m ((c : Thread nD τ).loc main_arg1)) b h)
          (hd4 (m ((c : Thread nD τ).loc main_arg2)) b h)
          (hd4 (lmK (m ((c : Thread nD τ).loc main_arg0))) b h) (hd4 (lmK (m ((c : Thread nD τ).loc main_arg1))) b h)
          (zmat (lmK (m ((c : Thread nD τ).loc main_arg0))) (lmK (m ((c : Thread nD τ).loc main_arg1))) b h) := by
  have hW : W4 m ρ c (Proc.devRef .tc main_v12) = G1 (V3 m ρ) c := (W4_arr m ρ c 6).trans (arr1_eq (V3 m ρ) c)
  rw [hW]
  funext s d
  show headOut (hd4 (V3 m ρ c main_arg0) b h) (hd4 (V3 m ρ c main_arg1) b h) (hd4 (V3 m ρ c main_arg2) b h)
      (hd4 (V3 m ρ c main_v3) b h) (hd4 (V3 m ρ c main_v7) b h) (hd4 (V3 m ρ c main_v11) b h) s d = _
  rw [v11_hd4, V3_arg0, V3_arg1, V3_arg2, V3_v3, V3_v7]

end Nys

end
-- ==== Proof.LibSoftR.lean ====
/-
  Row-wise softmax of a B × H family of matrices as the host program writes it (jax.nn.softmax), read one matrix at a
  time, at the ideal values, free of any program: the row maximum (a reduce from −∞, once more maximised against −∞),
  broadcast back in two steps through a kept unit axis, the exponentials of the shifted entries, their row sum from 0
  broadcast the same way, and the quotient.  Also the sums of a family over its rows and over its columns, and the
  maximum over all three axes of a [B, H, n] array as the maximum over every head and entry.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«411123_j9947144258103_3_alg».proof.Proof.Spec

noncomputable section

namespace Nys

open Idealize.ShloMosaic Idealize.ShloMosaic.ValueIdx

variable {B H M N : Nat}

/-- A reduction into a shape of positive rank is also a reduction in the stricter sense that asks for a positive rank. -/
private theorem reduces_of_reducesTo {s t : Shape} {axes : List (Fin s.rank)} (h : s.ReducesTo axes t) (hp : 0 < t.rank) :
    s.Reduces axes t := ⟨h.1, hp, h.2⟩

/-- Over the last axis, the index of the family above (b, h, i) with coordinate k inserted is (b, h, i, k). -/
private theorem lift3 (hr : (⟨4, ![B, H, M, N]⟩ : Shape).Reduces [3] ⟨3, ![B, H, M]⟩)
    (b : Fin B) (h : Fin H) (i : Fin M) (k : Fin N) : hr.lift (ix3 b h i) k = ix4 b h i k := by
  funext c
  match c with
  | ⟨0, _⟩ => rfl
  | ⟨1, _⟩ => rfl
  | ⟨2, _⟩ => rfl
  | ⟨3, _⟩ => rfl

/-- Over the row axis, the index of the family above (b, h, j) with coordinate k inserted is (b, h, k, j). -/
private theorem lift2 (hr : (⟨4, ![B, H, M, N]⟩ : Shape).Reduces [2] ⟨3, ![B, H, N]⟩)
    (b : Fin B) (h : Fin H) (j : Fin N) (k : Fin M) : hr.lift (ix3 b h j) k = ix4 b h k j := by
  funext c
  match c with
  | ⟨0, _⟩ => rfl
  | ⟨1, _⟩ => rfl
  | ⟨2, _⟩ => rfl
  | ⟨3, _⟩ => rfl

/-- A [B, H, M] array broadcast to [B, H, M, 1] and then over the unit axis to [B, H, M, N] reads, at (b, h, i, j), the
    array at (b, h, i): on each kept axis the coordinate is carried over (it is 0 anyway where that axis has size one). -/
private theorem bcast2_apply {α : Type} (x : (⟨3, ![B, H, M]⟩ : Shape).Idx → α)
    (hb1 : (⟨3, ![B, H, M]⟩ : Shape).BroadcastsInDim ⟨4, ![B, H, M, 1]⟩ ![0, 1, 2])
    (hb2 : (⟨4, ![B, H, M, 1]⟩ : Shape).BroadcastsInDim ⟨4, ![B, H, M, N]⟩ ![0, 1, 2, 3])
    (b : Fin B) (h : Fin H) (i : Fin M) (j : Fin N) :
    broadcastInDim ⟨4, ![B, H, M, N]⟩ ![0, 1, 2, 3] hb2 (broadcastInDim ⟨4, ![B, H, M, 1]⟩ ![0, 1, 2] hb1 x) (ix4 b h i j)
      = x (ix3 b h i) := by
  refine (broadcastInDim_apply _ hb2 _ (ix4 b h i j) (ix4 b h i (0 : Fin 1)) fun ax => ?_).trans ?_
  · match ax with
    | ⟨0, _⟩ =>
      show b.val = if B = 1 then 0 else b.val
      split
      · have := b.isLt; omega
      · rfl
    | ⟨1, _⟩ =>
      show h.val = if H = 1 then 0 else h.val
      split
      · have := h.isLt; omega
      · rfl
    | ⟨2, _⟩ =>
      show i.val = if M = 1 then 0 else i.val
      split
      · have := i.isLt; omega
      · rfl
    | ⟨3, _⟩ => rfl
  · refine broadcastInDim_apply _ hb1 _ (ix4 b h i (0 : Fin 1)) (ix3 b h i) fun ax => ?_
    match ax with
    | ⟨0, _⟩ =>
      show b.val = if B = 1 then 0 else b.val
      split
      · have := b.isLt; omega
      · rfl
    | ⟨1, _⟩ =>
      show h.val = if H = 1 then 0 else h.val
      split
      · have := h.isLt; omega
      · rfl
    | ⟨2, _⟩ =>
      show i.val = if M = 1 then 0 else i.val
      split
      · have := i.isLt; omega
      · rfl

/-- The host's row sum from 0 at (b, h, i): the sum of the row's entries. -/
private theorem rowsum_at (E : FVec Ideal ⟨4, ![B, H, M, N]⟩ .f32)
    (hrt : (⟨4, ![B, H, M, N]⟩ : Shape).ReducesTo [3] ⟨3, ![B, H, M]⟩) (hu : 0 < (⟨0, ![]⟩ : Shape).numel)
    (b : Fin B) (h : Fin H) (i : Fin M) :
    Host.reduceAdd E (constant (F := Ideal) ⟨0, ![]⟩ .f32 0x00000000#32) hrt hu (ix3 b h i) = ∑ j : Fin N, hd4 E b h i j := by
  have hr : (⟨4, ![B, H, M, N]⟩ : Shape).Reduces [3] ⟨3, ![B, H, M]⟩ := reduces_of_reducesTo hrt (Nat.succ_pos 2)
  refine (hostReduceAdd_apply E _ hrt hu (ix3 b h i)).trans ?_
  refine (Ideal.hostReduceAdd_single hrt hr E _ (ix3 b h i)).trans ?_
  have h0 : constant (F := Ideal) ⟨0, ![]⟩ .f32 0x00000000#32 (Shape.Idx.first hu) = (0 : EReal) := Ideal.ofBits_zero_f32
  rw [h0, zero_add]
  exact Finset.sum_congr rfl fun k _ => congrArg E (lift3 hr b h i k)

/-- The host's row maximum from −∞ at (b, h, i): the fold of max over the row's entries. -/
private theorem rowmax_at (L : FVec Ideal ⟨4, ![B, H, M, N]⟩ .f32)
    (hrt : (⟨4, ![B, H, M, N]⟩ : Shape).ReducesTo [3] ⟨3, ![B, H, M]⟩) (hu : 0 < (⟨0, ![]⟩ : Shape).numel)
    (b : Fin B) (h : Fin H) (i : Fin M) :
    Host.reduce FloatOps.maximumf L (constant (F := Ideal) ⟨0, ![]⟩ .f32 0xFF800000#32) hrt hu (ix3 b h i)
      = rowmax (hd4 L b h) i := by
  have hr : (⟨4, ![B, H, M, N]⟩ : Shape).Reduces [3] ⟨3, ![B, H, M]⟩ := reduces_of_reducesTo hrt (Nat.succ_pos 2)
  refine (Host.reduce_eq_fold_single FloatOps.maximumf L _ hrt hr hu (ix3 b h i)).trans ?_
  have hf : (L ∘ hr.lift (ix3 b h i)) = hd4 L b h i := funext fun k => congrArg L (lift3 hr b h i k)
  rw [hf]
  rfl

/-- The host's maximum over all three axes of a [B, H, n] array from −∞ is the fold of max over every index. -/
private theorem rmax_all_eq {n : Nat} (X : FVec Ideal ⟨3, ![B, H, n]⟩ .f32)
    (hrt : (⟨3, ![B, H, n]⟩ : Shape).ReducesTo [0, 1, 2] ⟨0, ![]⟩) (hu : 0 < (⟨0, ![]⟩ : Shape).numel) :
    Host.reduce FloatOps.maximumf X (constant (F := Ideal) ⟨0, ![]⟩ .f32 0xFF800000#32) hrt hu ix0
      = (Finset.univ : Finset (⟨3, ![B, H, n]⟩ : Shape).Idx).fold max ninf X := by
  refine (Host.reduce_eq_fold FloatOps.maximumf X _ hrt hu ix0).trans ?_
  rw [Finset.filter_true_of_mem fun i _ => eq_ix0 _]
  rfl

/-- The host's row maximum, maximised once more against −∞ and broadcast back over the row through a kept unit axis. -/
theorem rrowmax_bcast (L : FVec Ideal ⟨4, ![B, H, M, N]⟩ .f32)
    (hrt : (⟨4, ![B, H, M, N]⟩ : Shape).ReducesTo [3] ⟨3, ![B, H, M]⟩) (hu : 0 < (⟨0, ![]⟩ : Shape).numel)
    (hb0 : (⟨0, ![]⟩ : Shape).BroadcastsInDim ⟨3, ![B, H, M]⟩ ![])
    (hb1 : (⟨3, ![B, H, M]⟩ : Shape).BroadcastsInDim ⟨4, ![B, H, M, 1]⟩ ![0, 1, 2])
    (hb2 : (⟨4, ![B, H, M, 1]⟩ : Shape).BroadcastsInDim ⟨4, ![B, H, M, N]⟩ ![0, 1, 2, 3])
    (b : Fin B) (h : Fin H) (i : Fin M) (j : Fin N) :
    broadcastInDim ⟨4, ![B, H, M, N]⟩ ![0, 1, 2, 3] hb2 (broadcastInDim ⟨4, ![B, H, M, 1]⟩ ![0, 1, 2] hb1
        (maximumf (broadcastInDim ⟨3, ![B, H, M]⟩ ![] hb0 (constant (F := Ideal) ⟨0, ![]⟩ .f32 0xFF800000#32))
          (Host.reduce FloatOps.maximumf L (constant (F := Ideal) ⟨0, ![]⟩ .f32 0xFF800000#32) hrt hu))) (ix4 b h i j)
      = rowmax (hd4 L b h) i := by
  refine (bcast2_apply _ hb1 hb2 b h i j).trans ?_
  show max (broadcastInDim ⟨3, ![B, H, M]⟩ ![] hb0 (constant (F := Ideal) ⟨0, ![]⟩ .f32 0xFF800000#32) (ix3 b h i))
      (Host.reduce FloatOps.maximumf L (constant (F := Ideal) ⟨0, ![]⟩ .f32 0xFF800000#32) hrt hu (ix3 b h i)) = _
  rw [broadcastInDim_scalar_apply, rowmax_at]
  refine max_eq_right ?_
  show ninf ≤ Finset.fold max ninf (hd4 L b h i) Finset.univ
  exact (Finset.le_fold_max _).2 (Or.inl le_rfl)

/-- The host's row sum from 0, broadcast back over the row through a kept unit axis. -/
theorem rrowsum_bcast (E : FVec Ideal ⟨4, ![B, H, M, N]⟩ .f32)
    (hrt : (⟨4, ![B, H, M, N]⟩ : Shape).ReducesTo [3] ⟨3, ![B, H, M]⟩) (hu : 0 < (⟨0, ![]⟩ : Shape).numel)
    (hb1 : (⟨3, ![B, H, M]⟩ : Shape).BroadcastsInDim ⟨4, ![B, H, M, 1]⟩ ![0, 1, 2])
    (hb2 : (⟨4, ![B, H, M, 1]⟩ : Shape).BroadcastsInDim ⟨4, ![B, H, M, N]⟩ ![0, 1, 2, 3])
    (b : Fin B) (h : Fin H) (i : Fin M) (j : Fin N) :
    broadcastInDim ⟨4, ![B, H, M, N]⟩ ![0, 1, 2, 3] hb2 (broadcastInDim ⟨4, ![B, H, M, 1]⟩ ![0, 1, 2] hb1
        (Host.reduceAdd E (constant (F := Ideal) ⟨0, ![]⟩ .f32 0x00000000#32) hrt hu)) (ix4 b h i j)
      = ∑ j' : Fin N, hd4 E b h i j' := by
  exact (bcast2_apply _ hb1 hb2 b h i j).trans (rowsum_at E hrt hu b h i)

/-- The whole row-wise softmax of a family, as the host program writes it, is the softmax of each matrix. -/
theorem rsoftmax_hd4 (L : FVec Ideal ⟨4, ![B, H, M, N]⟩ .f32)
    (hrt : (⟨4, ![B, H, M, N]⟩ : Shape).ReducesTo [3] ⟨3, ![B, H, M]⟩) (hu : 0 < (⟨0, ![]⟩ : Shape).numel)
    (hb0 : (⟨0, ![]⟩ : Shape).BroadcastsInDim ⟨3, ![B, H, M]⟩ ![])
    (hb1 : (⟨3, ![B, H, M]⟩ : Shape).BroadcastsInDim ⟨4, ![B, H, M, 1]⟩ ![0, 1, 2])
    (hb2 : (⟨4, ![B, H, M, 1]⟩ : Shape).BroadcastsInDim ⟨4, ![B, H, M, N]⟩ ![0, 1, 2, 3])
    (b : Fin B) (h : Fin H) :
    hd4 (Host.divf
        (Host.exp (subf L (broadcastInDim ⟨4, ![B, H, M, N]⟩ ![0, 1, 2, 3] hb2 (broadcastInDim ⟨4, ![B, H, M, 1]⟩ ![0, 1, 2] hb1
          (maximumf (broadcastInDim ⟨3, ![B, H, M]⟩ ![] hb0 (constant (F := Ideal) ⟨0, ![]⟩ .f32 0xFF800000#32))
            (Host.reduce FloatOps.maximumf L (constant (F := Ideal) ⟨0, ![]⟩ .f32 0xFF800000#32) hrt hu))))))
        (broadcastInDim ⟨4, ![B, H, M, N]⟩ ![0, 1, 2, 3] hb2 (broadcastInDim ⟨4, ![B, H, M, 1]⟩ ![0, 1, 2] hb1
          (Host.reduceAdd
            (Host.exp (subf L (broadcastInDim ⟨4, ![B, H, M, N]⟩ ![0, 1, 2, 3] hb2 (broadcastInDim ⟨4, ![B, H, M, 1]⟩ ![0, 1, 2] hb1
              (maximumf (broadcastInDim ⟨3, ![B, H, M]⟩ ![] hb0 (constant (F := Ideal) ⟨0, ![]⟩ .f32 0xFF800000#32))
                (Host.reduce FloatOps.maximumf L (constant (F := Ideal) ⟨0, ![]⟩ .f32 0xFF800000#32) hrt hu))))))
            (constant (F := Ideal) ⟨0, ![]⟩ .f32 0x00000000#32) hrt hu)))) b h
      = smax (hd4 L b h) := by
  funext i j
  have hm : ∀ j' : Fin N, broadcastInDim ⟨4, ![B, H, M, N]⟩ ![0, 1, 2, 3] hb2 (broadcastInDim ⟨4, ![B, H, M, 1]⟩ ![0, 1, 2] hb1
        (maximumf (broadcastInDim ⟨3, ![B, H, M]⟩ ![] hb0 (constant (F := Ideal) ⟨0, ![]⟩ .f32 0xFF800000#32))
          (Host.reduce FloatOps.maximumf L (constant (F := Ideal) ⟨0, ![]⟩ .f32 0xFF800000#32) hrt hu))) (ix4 b h i j')
      = rowmax (hd4 L b h) i := fun j' => rrowmax_bcast L hrt hu hb0 hb1 hb2 b h i j'
  generalize broadcastInDim ⟨4, ![B, H, M, N]⟩ ![0, 1, 2, 3] hb2 (broadcastInDim ⟨4, ![B, H, M, 1]⟩ ![0, 1, 2] hb1
        (maximumf (broadcastInDim ⟨3, ![B, H, M]⟩ ![] hb0 (constant (F := Ideal) ⟨0, ![]⟩ .f32 0xFF800000#32))
          (Host.reduce FloatOps.maximumf L (constant (F := Ideal) ⟨0, ![]⟩ .f32 0xFF800000#32) hrt hu))) = BM at hm ⊢
  have hs := rrowsum_bcast (Host.exp (subf L BM)) hrt hu hb1 hb2 b h i j
  exact congrArg₂ Ideal.div (congrArg (fun z => Ideal.exp (L (ix4 b h i j) - z)) (hm j))
    (hs.trans (Finset.sum_congr rfl fun j' _ => congrArg (fun z => Ideal.exp (L (ix4 b h i j') - z)) (hm j')))

/-- The host's sum over the ROWS of each matrix (axis 2) from 0: at (b, h, j) it is column j's sum. -/
theorem rcolsum_apply (E : FVec Ideal ⟨4, ![B, H, M, N]⟩ .f32)
    (hrt : (⟨4, ![B, H, M, N]⟩ : Shape).ReducesTo [2] ⟨3, ![B, H, N]⟩) (hu : 0 < (⟨0, ![]⟩ : Shape).numel)
    (b : Fin B) (h : Fin H) (j : Fin N) :
    Host.reduceAdd E (constant (F := Ideal) ⟨0, ![]⟩ .f32 0x00000000#32) hrt hu (ix3 b h j) = ∑ i : Fin M, hd4 E b h i j := by
  have hr : (⟨4, ![B, H, M, N]⟩ : Shape).Reduces [2] ⟨3, ![B, H, N]⟩ := reduces_of_reducesTo hrt (Nat.succ_pos 2)
  refine (hostReduceAdd_apply E _ hrt hu (ix3 b h j)).trans ?_
  refine (Ideal.hostReduceAdd_single hrt hr E _ (ix3 b h j)).trans ?_
  have h0 : constant (F := Ideal) ⟨0, ![]⟩ .f32 0x00000000#32 (Shape.Idx.first hu) = (0 : EReal) := Ideal.ofBits_zero_f32
  rw [h0, zero_add]
  exact Finset.sum_congr rfl fun k _ => congrArg E (lift2 hr b h j k)

/-- The host's sum over the COLUMNS of each matrix (axis 3) from 0: at (b, h, i) it is row i's sum. -/
theorem rrowsum_apply (E : FVec Ideal ⟨4, ![B, H, M, N]⟩ .f32)
    (hrt : (⟨4, ![B, H, M, N]⟩ : Shape).ReducesTo [3] ⟨3, ![B, H, M]⟩) (hu : 0 < (⟨0, ![]⟩ : Shape).numel)
    (b : Fin B) (h : Fin H) (i : Fin M) :
    Host.reduceAdd E (constant (F := Ideal) ⟨0, ![]⟩ .f32 0x00000000#32) hrt hu (ix3 b h i) = ∑ j : Fin N, hd4 E b h i j := by
  exact rowsum_at E hrt hu b h i

/-- The host's maximum over all three axes of a [B, H, n] array from −∞ is the maximum over every entry: stated by its
    two bounds, which is how a fold of `max` is compared with another arrangement of the same entries. -/
theorem rmax_all_le_iff {n : Nat} (X : FVec Ideal ⟨3, ![B, H, n]⟩ .f32)
    (hrt : (⟨3, ![B, H, n]⟩ : Shape).ReducesTo [0, 1, 2] ⟨0, ![]⟩) (hu : 0 < (⟨0, ![]⟩ : Shape).numel) (c : EReal) :
    Host.reduce FloatOps.maximumf X (constant (F := Ideal) ⟨0, ![]⟩ .f32 0xFF800000#32) hrt hu ix0 ≤ c
      ↔ ninf ≤ c ∧ ∀ (b : Fin B) (h : Fin H) (j : Fin n), X (ix3 b h j) ≤ c := by
  rw [rmax_all_eq X hrt hu, Finset.fold_max_le]
  refine and_congr Iff.rfl ⟨fun hx b h j => hx _ (Finset.mem_univ _), fun hx x _ => ?_⟩
  exact le_of_eq_of_le (congrArg X (eq_ix3 x)) (hx _ _ _)

theorem le_rmax_all_iff {n : Nat} (X : FVec Ideal ⟨3, ![B, H, n]⟩ .f32)
    (hrt : (⟨3, ![B, H, n]⟩ : Shape).ReducesTo [0, 1, 2] ⟨0, ![]⟩) (hu : 0 < (⟨0, ![]⟩ : Shape).numel) (c : EReal) :
    c ≤ Host.reduce FloatOps.maximumf X (constant (F := Ideal) ⟨0, ![]⟩ .f32 0xFF800000#32) hrt hu ix0
      ↔ c ≤ ninf ∨ ∃ (b : Fin B) (h : Fin H) (j : Fin n), c ≤ X (ix3 b h j) := by
  rw [rmax_all_eq X hrt hu, Finset.le_fold_max]
  refine or_congr Iff.rfl ⟨fun ⟨x, _, hx⟩ => ⟨x 0, x 1, x 2, ?_⟩, fun ⟨b, h, j, hx⟩ => ⟨_, Finset.mem_univ _, hx⟩⟩
  exact le_of_le_of_eq hx (congrArg X (eq_ix3 x))

end Nys

end
-- ==== Proof.RefValue.lean ====
/-
  The reference program's result, head by head.  From the three argument arrays and the two landmark arrays its run
  computes, for head (b, h), F · (Z · (B · v)) with F = σ(q · klᵀ / 8), B = σ(ql · kᵀ / 8), and Z six Newton–Schulz
  steps for M = σ(ql · klᵀ / 8) started from Mᵀ / c, the scalar c — the largest column sum of |M| times the largest
  row sum of |M| — taken over all 4 × 12 heads at once.
-/
import proofs.«411123_j9947144258103_3_alg».proof.Proof.Gen.ReferenceIdeal.Run
import proofs.«411123_j9947144258103_3_alg».proof.Proof.Spec
import proofs.«411123_j9947144258103_3_alg».proof.Proof.LibBmm
import proofs.«411123_j9947144258103_3_alg».proof.Proof.LibSoftR
import proofs.«411123_j9947144258103_3_alg».proof.Proof.LibIdx

noncomputable section

namespace Nys

open Idealize.ShloMosaic Idealize.ShloMosaic.ValueIdx Idealize.ShloMosaic.StableHlo Cert.ReferenceIdeal Cert.ReferenceIdeal.Value

/-- The identity matrix the reference builds from two coordinate arrays is the identity of the specification. -/
theorem ref_eye (V0 : Valuation τ sig (Elt Ideal)) (i j : Fin 64) : res_main_v41 (F := Ideal) V0 (ix2 i j) = eye i j := by
  -- entry (i, j) is the word of "i + 0 = j" read as an unsigned integer, and adding the zero word changes nothing
  unfold res_main_v41 eye
  show FloatOps.uitofp (F := Ideal) .f32 (IntOp.cmpi .eq (IntOp.addi (BitVec.ofNat 32 i.val) 0#32) (BitVec.ofNat 32 j.val)) = _
  have h0 : IntOp.addi (BitVec.ofNat 32 i.val) 0#32 = BitVec.ofNat 32 i.val := by
    show BitVec.ofNat 32 i.val + 0#32 = _
    exact BitVec.add_zero _
  rw [h0]

section Pieces

open Cert.ReferenceIdeal.Facts₀

/-- The constant `c` times a 64 × 64 matrix, laid over every head of the family. -/
private def rcI (c : BitVec 32) (I : FVec Ideal S64x64 .f32) : FVec Ideal S4x12x64x64 .f32 :=
  broadcastInDim S4x12x64x64 ![0, 1, 2, 3] bcast_S1x1x64x64_S4x12x64x64_0_1_2_3 (broadcastInDim S1x1x64x64 ![2, 3] bcast_S64x64_S1x1x64x64_2_3 (mulf (broadcastInDim S64x64 ![] bcast_S_S64x64 (constant S_ .f32 c)) I))

private theorem rcI_hd4 (c : BitVec 32) (I : FVec Ideal S64x64 .f32) (hI : ∀ i j, I (ix2 i j) = eye i j) (b : Fin 4) (h : Fin 12) :
    hd4 (rcI c I) b h = fun i j => Ideal.ofBits .f32 c * eye i j := by
  funext i j
  unfold rcI hd4
  refine (broadcastInDim_apply _ _ _ (ix4 b h i j) (ix4 (0 : Fin 1) (0 : Fin 1) i j) ?_).trans ?_
  · intro a; fin_cases a <;> rfl
  refine (broadcastInDim_apply _ _ _ (ix4 (0 : Fin 1) (0 : Fin 1) i j) (ix2 i j) ?_).trans ?_
  · intro a; fin_cases a <;> rfl
  show Ideal.ofBits .f32 c * I (ix2 i j) = _
  rw [hI]

/-- One Newton–Schulz step as the reference writes it, as a function of M, the identity and the iterate. -/
private def rstep (M : FVec Ideal S4x12x64x64 .f32) (I : FVec Ideal S64x64 .f32) (Z : FVec Ideal S4x12x64x64 .f32) : FVec Ideal S4x12x64x64 .f32 :=
  mulf (broadcastInDim S4x12x64x64 ![] bcast_S_S4x12x64x64 (constant S_ .f32 0x3E800000#32)) (Host.dotGeneral dot_S4x12x64x64_S4x12x64x64_S4x12x64x64_3_2_2_3_01_01 none Z (subf (rcI 0x41500000#32 I) (Host.dotGeneral dot_S4x12x64x64_S4x12x64x64_S4x12x64x64_3_2_2_3_01_01 none M (Host.dotGeneral dot_S4x12x64x64_S4x12x64x64_S4x12x64x64_3_2_2_3_01_01 none Z (subf (rcI 0x41700000#32 I) (Host.dotGeneral dot_S4x12x64x64_S4x12x64x64_S4x12x64x64_3_2_2_3_01_01 none M (Host.dotGeneral dot_S4x12x64x64_S4x12x64x64_S4x12x64x64_3_2_2_3_01_01 none Z (subf (rcI 0x40E00000#32 I) (Host.dotGeneral dot_S4x12x64x64_S4x12x64x64_S4x12x64x64_3_2_2_3_01_01 none M Z)))))))))

private theorem rstep_v74 (V0 : Valuation τ sig (Elt Ideal)) : res_main_v74 V0 = rstep (res_main_v35 V0) (res_main_v41 V0) (res_main_v51 V0) := rfl

private theorem hd4_subf (X Y : FVec Ideal S4x12x64x64 .f32) (b : Fin 4) (h : Fin 12) :
    hd4 (subf X Y) b h = fun i j => hd4 X b h i j - hd4 Y b h i j := rfl

private theorem hd4_cmul (c : BitVec 32) (X : FVec Ideal S4x12x64x64 .f32) (b : Fin 4) (h : Fin 12) :
    hd4 (mulf (broadcastInDim S4x12x64x64 ![] bcast_S_S4x12x64x64 (constant S_ .f32 c)) X) b h
      = fun i j => Ideal.ofBits .f32 c * hd4 X b h i j := rfl

private theorem rstep_hd4 (M : FVec Ideal S4x12x64x64 .f32) (I : FVec Ideal S64x64 .f32) (Z : FVec Ideal S4x12x64x64 .f32)
    (hI : ∀ i j, I (ix2 i j) = eye i j) (b : Fin 4) (h : Fin 12) :
    hd4 (rstep M I Z) b h = nsStep (hd4 M b h) (hd4 Z b h) := by
  have d := fun (A Bv : FVec Ideal S4x12x64x64 .f32) =>
    dot4_nn dot_S4x12x64x64_S4x12x64x64_S4x12x64x64_3_2_2_3_01_01 rfl rfl rfl rfl rfl rfl none A Bv b h
  have e7 := rcI_hd4 0x40E00000#32 I hI b h
  have e15 := rcI_hd4 0x41700000#32 I hI b h
  have e13 := rcI_hd4 0x41500000#32 I hI b h
  unfold rstep
  rw [hd4_cmul, d, hd4_subf, e13, d, d, hd4_subf, e15, d, d, hd4_subf, e7, d]
  rfl

/-- The landmark matrix of a head is the softmax of its scaled landmark product. -/
private theorem ref_M (V0 : Valuation τ sig (Elt Ideal)) (b : Fin 4) (h : Fin 12) :
    hd4 (res_main_v35 V0) b h = attnW (hd4 (res_main_v3 V0) b h) (hd4 (res_main_v7 V0) b h) := by
  have hL : hd4 (res_main_v24 V0) b h = scale8 (mmulT (hd4 (res_main_v3 V0) b h) (hd4 (res_main_v7 V0) b h)) := by
    unfold res_main_v24
    funext i j
    exact congrArg (fun X : Mat 64 64 => X i j * c8)
      (dot4_nt dot_S4x12x64x64_S4x12x64x64_S4x12x64x64_3_3_2_2_01_01 rfl rfl rfl rfl rfl rfl none (res_main_v3 V0) (res_main_v7 V0) b h)
  unfold res_main_v35 res_main_v31
  refine (rsoftmax_hd4 (res_main_v24 V0) _ _ _ _ _ b h).trans ?_
  rw [hL]; rfl

/-- The first factor: the softmax of the scaled product of the queries with the landmark keys. -/
private def rF (V0 : Valuation τ sig (Elt Ideal)) : FVec Ideal S4x12x4096x64 .f32 :=
  Host.divf (res_main_v17 V0) (broadcastInDim S4x12x4096x64 ![0, 1, 2, 3] bcast_S4x12x4096x1_S4x12x4096x64_0_1_2_3 (broadcastInDim S4x12x4096x1 ![0, 1, 2] bcast_S4x12x4096_S4x12x4096x1_0_1_2 (Host.reduceAdd (res_main_v17 V0) (constant S_ .f32 0x00000000#32) reducesTo_S4x12x4096x64_S4x12x4096_d3 h_S_)))

private theorem ref_F (V0 : Valuation τ sig (Elt Ideal)) (b : Fin 4) (h : Fin 12) :
    hd4 (rF V0) b h = attnW (hd4 (V0 (Proc.devRef .tc main_arg0)) b h) (hd4 (res_main_v7 V0) b h) := by
  have hL : hd4 (res_main_v10 V0) b h = scale8 (mmulT (hd4 (V0 (Proc.devRef .tc main_arg0)) b h) (hd4 (res_main_v7 V0) b h)) := by
    unfold res_main_v10
    funext i j
    exact congrArg (fun X : Mat 4096 64 => X i j * c8)
      (dot4_nt dot_S4x12x4096x64_S4x12x64x64_S4x12x4096x64_3_3_2_2_01_01 rfl rfl rfl rfl rfl rfl none (V0 (Proc.devRef .tc main_arg0)) (res_main_v7 V0) b h)
  unfold rF res_main_v17
  refine (rsoftmax_hd4 (res_main_v10 V0) _ _ _ _ _ b h).trans ?_
  rw [hL]; rfl

/-- The third factor: the softmax of the scaled product of the landmark queries with the keys. -/
private def rB (V0 : Valuation τ sig (Elt Ideal)) : FVec Ideal S4x12x64x4096 .f32 :=
  Host.divf (res_main_v199 V0) (broadcastInDim S4x12x64x4096 ![0, 1, 2, 3] bcast_S4x12x64x1_S4x12x64x4096_0_1_2_3 (broadcastInDim S4x12x64x1 ![0, 1, 2] bcast_S4x12x64_S4x12x64x1_0_1_2 (Host.reduceAdd (res_main_v199 V0) (constant S_ .f32 0x00000000#32) reducesTo_S4x12x64x4096_S4x12x64_d3 h_S_)))

private theorem ref_B (V0 : Valuation τ sig (Elt Ideal)) (b : Fin 4) (h : Fin 12) :
    hd4 (rB V0) b h = attnW (hd4 (res_main_v3 V0) b h) (hd4 (V0 (Proc.devRef .tc main_arg1)) b h) := by
  have hL : hd4 (res_main_v192 V0) b h = scale8 (mmulT (hd4 (res_main_v3 V0) b h) (hd4 (V0 (Proc.devRef .tc main_arg1)) b h)) := by
    unfold res_main_v192
    funext i j
    exact congrArg (fun X : Mat 64 4096 => X i j * c8)
      (dot4_nt dot_S4x12x64x64_S4x12x4096x64_S4x12x64x4096_3_3_2_2_01_01 rfl rfl rfl rfl rfl rfl none (res_main_v3 V0) (V0 (Proc.devRef .tc main_arg1)) b h)
  unfold rB res_main_v199
  refine (rsoftmax_hd4 (res_main_v192 V0) _ _ _ _ _ b h).trans ?_
  rw [hL]; rfl

/-- The host's maximum, over every head and column, of the column sums of |X| is the specification's fold over the
    family of heads: each bounds the other, entry by entry. -/
private theorem rcolAbsMax_eq (X : FVec Ideal S4x12x64x64 .f32) (Mf : Fin 48 → Mat 64 64)
    (hMf : ∀ g, Mf g = hd4 X (gb g) (gh g)) :
    Host.reduce FloatOps.maximumf (Host.reduceAdd (Host.absf X) (constant S_ .f32 0x00000000#32) reducesTo_S4x12x64x64_S4x12x64_d2 h_S_)
        (constant S_ .f32 0xFF800000#32) reducesTo_S4x12x64_S_d0_1_2 h_S_ ix0 = colAbsMax Mf := by
  have hX : ∀ (b : Fin 4) (h : Fin 12) (j : Fin 64),
      Host.reduceAdd (Host.absf X) (constant S_ .f32 0x00000000#32) reducesTo_S4x12x64x64_S4x12x64_d2 h_S_ (ix3 b h j)
        = ∑ i : Fin 64, max (hd4 X b h i j) (-(hd4 X b h i j)) := fun b h j =>
    rcolsum_apply (Host.absf X) _ _ b h j
  unfold colAbsMax
  apply le_antisymm
  · rw [rmax_all_le_iff]
    refine ⟨(Finset.le_fold_max _).2 (Or.inl le_rfl), fun b h j => ?_⟩
    refine (Finset.le_fold_max _).2 (Or.inr ⟨(gflat b h, j), Finset.mem_univ _, ?_⟩)
    rw [hX, hMf, gb_gflat, gh_gflat]
  · rw [Finset.fold_max_le]
    refine ⟨(le_rmax_all_iff _ _ _ _).2 (Or.inl le_rfl), fun p _ => ?_⟩
    refine (le_rmax_all_iff _ _ _ _).2 (Or.inr ⟨gb p.1, gh p.1, p.2, ?_⟩)
    rw [hX, hMf]

/-- The same for the row sums. -/
private theorem rrowAbsMax_eq (X : FVec Ideal S4x12x64x64 .f32) (Mf : Fin 48 → Mat 64 64)
    (hMf : ∀ g, Mf g = hd4 X (gb g) (gh g)) :
    Host.reduce FloatOps.maximumf (Host.reduceAdd (Host.absf X) (constant S_ .f32 0x00000000#32) reducesTo_S4x12x64x64_S4x12x64_d3 h_S_)
        (constant S_ .f32 0xFF800000#32) reducesTo_S4x12x64_S_d0_1_2 h_S_ ix0 = rowAbsMax Mf := by
  have hX : ∀ (b : Fin 4) (h : Fin 12) (i : Fin 64),
      Host.reduceAdd (Host.absf X) (constant S_ .f32 0x00000000#32) reducesTo_S4x12x64x64_S4x12x64_d3 h_S_ (ix3 b h i)
        = ∑ j : Fin 64, max (hd4 X b h i j) (-(hd4 X b h i j)) := fun b h i =>
    rrowsum_apply (Host.absf X) _ _ b h i
  unfold rowAbsMax
  apply le_antisymm
  · rw [rmax_all_le_iff]
    refine ⟨(Finset.le_fold_max _).2 (Or.inl le_rfl), fun b h i => ?_⟩
    refine (Finset.le_fold_max _).2 (Or.inr ⟨(gflat b h, i), Finset.mem_univ _, ?_⟩)
    rw [hX, hMf, gb_gflat, gh_gflat]
  · rw [Finset.fold_max_le]
    refine ⟨(le_rmax_all_iff _ _ _ _).2 (Or.inl le_rfl), fun p _ => ?_⟩
    refine (le_rmax_all_iff _ _ _ _).2 (Or.inr ⟨gb p.1, gh p.1, p.2, ?_⟩)
    rw [hX, hMf]

private theorem hd4_divf (X Y : FVec Ideal S4x12x64x64 .f32) (b : Fin 4) (h : Fin 12) :
    hd4 (Host.divf X Y) b h = fun i j => Ideal.div (hd4 X b h i j) (hd4 Y b h i j) := rfl

/-- Exchanging the last two axes of the family transposes each head. -/
private theorem hd4_transpose (X : FVec Ideal S4x12x64x64 .f32) (b : Fin 4) (h : Fin 12) :
    hd4 (transpose S4x12x64x64 [0, 1, 3, 2] X transposes_S4x12x64x64_S4x12x64x64_0_1_3_2) b h = fun i j => hd4 X b h j i := by
  funext i j
  exact transpose_apply _ X _ (ix4 b h i j) (ix4 b h j i) (by intro a; fin_cases a <;> rfl)

/-- A scalar laid over the family is that scalar at every entry of every head. -/
private theorem hd4_bcast0 (s : FVec Ideal S_ .f32) (b : Fin 4) (h : Fin 12) :
    hd4 (broadcastInDim S4x12x64x64 ![] bcast_S_S4x12x64x64 s) b h = fun _ _ => s ix0 := by
  funext i j
  exact broadcastInDim_apply _ _ s (ix4 b h i j) ix0 (fun a => a.elim0)

/-- The first iterate of a head: the transposed landmark matrix over the one scalar shared by all heads. -/
private theorem ref_Z0 (V0 : Valuation τ sig (Elt Ideal)) (Mf : Fin 48 → Mat 64 64)
    (hMf : ∀ g, Mf g = hd4 (res_main_v35 V0) (gb g) (gh g)) (b : Fin 4) (h : Fin 12) :
    hd4 (res_main_v51 V0) b h = fun i j => Ideal.div (hd4 (res_main_v35 V0) b h j i) (coef Mf) := by
  unfold res_main_v51 coef
  rw [hd4_divf, hd4_transpose, hd4_bcast0, ← rcolAbsMax_eq (res_main_v35 V0) Mf hMf, ← rrowAbsMax_eq (res_main_v35 V0) Mf hMf]
  rfl

private theorem rstep_v97 (V0 : Valuation τ sig (Elt Ideal)) : res_main_v97 V0 = rstep (res_main_v35 V0) (res_main_v41 V0) (res_main_v74 V0) := rfl
private theorem rstep_v120 (V0 : Valuation τ sig (Elt Ideal)) : res_main_v120 V0 = rstep (res_main_v35 V0) (res_main_v41 V0) (res_main_v97 V0) := rfl
private theorem rstep_v143 (V0 : Valuation τ sig (Elt Ideal)) : res_main_v143 V0 = rstep (res_main_v35 V0) (res_main_v41 V0) (res_main_v120 V0) := rfl
private theorem rstep_v166 (V0 : Valuation τ sig (Elt Ideal)) : res_main_v166 V0 = rstep (res_main_v35 V0) (res_main_v41 V0) (res_main_v143 V0) := rfl

set_option maxRecDepth 8192 in
/-- The result array as three products: the first factor, the sixth Newton–Schulz iterate, the third factor and the values. -/
private theorem ref_out (V0 : Valuation τ sig (Elt Ideal)) :
    val5 (F := Ideal) V0 (Proc.devRef .tc main_v206)
      = Host.dotGeneral dot_S4x12x4096x64_S4x12x64x64_S4x12x4096x64_3_2_2_3_01_01 none (rF V0)
          (Host.dotGeneral dot_S4x12x64x64_S4x12x64x64_S4x12x64x64_3_2_2_3_01_01 none
            (rstep (res_main_v35 V0) (res_main_v41 V0) (res_main_v166 V0))
            (Host.dotGeneral (φ₂ := .f32) dot_S4x12x64x4096_S4x12x4096x64_S4x12x64x64_3_2_2_3_01_01 none (rB V0)
              (V0 (Proc.devRef .tc main_arg2)))) :=
  val5_main_v206 V0

end Pieces

/-- The reference's result array, head by head. -/
theorem ref_hd4 (V0 : Valuation τ sig (Elt Ideal)) (b : Fin 4) (h : Fin 12) :
    hd4 (val5 (F := Ideal) V0 (Proc.devRef .tc main_v206)) b h
      = headOut (hd4 (V0 (Proc.devRef .tc main_arg0)) b h) (hd4 (V0 (Proc.devRef .tc main_arg1)) b h)
          (hd4 (V0 (Proc.devRef .tc main_arg2)) b h) (hd4 (res_main_v3 V0) b h) (hd4 (res_main_v7 V0) b h)
          (pinv (coef fun g : Fin 48 => attnW (hd4 (res_main_v3 V0) (gb g) (gh g)) (hd4 (res_main_v7 V0) (gb g) (gh g)))
            (attnW (hd4 (res_main_v3 V0) b h) (hd4 (res_main_v7 V0) b h))) := by
  have hI : ∀ i j, res_main_v41 (F := Ideal) V0 (ix2 i j) = eye i j := ref_eye V0
  have hM := ref_M V0 b h
  -- the first iterate, over the scalar of the whole family of heads
  have hZ0 := ref_Z0 V0 (fun g : Fin 48 => attnW (hd4 (res_main_v3 V0) (gb g) (gh g)) (hd4 (res_main_v7 V0) (gb g) (gh g)))
    (fun g => (ref_M V0 (gb g) (gh g)).symm) b h
  -- the six Newton–Schulz steps
  have s1 : hd4 (res_main_v74 V0) b h = nsStep (hd4 (res_main_v35 V0) b h) (hd4 (res_main_v51 V0) b h) :=
    (congrArg (fun X => hd4 X b h) (rstep_v74 V0)).trans (rstep_hd4 _ _ _ hI b h)
  have s2 : hd4 (res_main_v97 V0) b h = nsStep (hd4 (res_main_v35 V0) b h) (hd4 (res_main_v74 V0) b h) :=
    (congrArg (fun X => hd4 X b h) (rstep_v97 V0)).trans (rstep_hd4 _ _ _ hI b h)
  have s3 : hd4 (res_main_v120 V0) b h = nsStep (hd4 (res_main_v35 V0) b h) (hd4 (res_main_v97 V0) b h) :=
    (congrArg (fun X => hd4 X b h) (rstep_v120 V0)).trans (rstep_hd4 _ _ _ hI b h)
  have s4 : hd4 (res_main_v143 V0) b h = nsStep (hd4 (res_main_v35 V0) b h) (hd4 (res_main_v120 V0) b h) :=
    (congrArg (fun X => hd4 X b h) (rstep_v143 V0)).trans (rstep_hd4 _ _ _ hI b h)
  have s5 : hd4 (res_main_v166 V0) b h = nsStep (hd4 (res_main_v35 V0) b h) (hd4 (res_main_v143 V0) b h) :=
    (congrArg (fun X => hd4 X b h) (rstep_v166 V0)).trans (rstep_hd4 _ _ _ hI b h)
  have s6 := rstep_hd4 (res_main_v35 V0) (res_main_v41 V0) (res_main_v166 V0) hI b h
  -- the three outer products
  rw [ref_out, dot4_nn _ rfl rfl rfl rfl rfl rfl, dot4_nn _ rfl rfl rfl rfl rfl rfl, dot4_nn _ rfl rfl rfl rfl rfl rfl,
    ref_F, ref_B, s6, s5, s4, s3, s2, s1, hZ0, hM]
  rfl

end Nys

end
-- ==== Proof.lean ====
/-
  Nyström attention with landmark means and a Newton–Schulz pseudo-inverse: a program of two kernels against its plain
  reference, over the extended reals.

  Both programs form the landmark means of the query and of the key with the same host operations.  The kernel's
  program then runs one kernel on the stack of all 48 heads — the softmax matrix M of each head's landmark scores, the
  one scalar c shared by all heads (largest column sum of |M| times largest row sum of |M|), and six Newton–Schulz steps
  from Mᵀ / c — and a second kernel, two heads at a grid point, that forms F = σ(q · klᵀ / 8) and B = σ(ql · kᵀ / 8) and
  writes F · (Z · (B · v)).  The reference computes the same quantities on whole [4, 12, ·, ·] arrays.  Read head by
  head, each side is the SAME composition of finite sums, row maxima, exponentials and quotients of the same entries:
  a batched product is the plain product of each head's matrices whatever the batch layout, a row reduction is the sum
  or the maximum over the row, and a maximum over several axes is the maximum over all the entries whether it is
  nested (a lane maximum, then a maximum over the stack) or taken at once.  No law that needs finite entries is used,
  so the precondition is not opened; the ideal pass rewrote nothing, so there is nothing to preserve.
-/
import proofs.«411123_j9947144258103_3_alg».proof.Defs
import proofs.«411123_j9947144258103_3_alg».proof.Proof.Gen.Kernel
import proofs.«411123_j9947144258103_3_alg».proof.Proof.Gen.Kernel.Frame
import proofs.«411123_j9947144258103_3_alg».proof.Proof.Gen.KernelIdeal
import proofs.«411123_j9947144258103_3_alg».proof.Proof.Gen.KernelIdeal.Frame
import proofs.«411123_j9947144258103_3_alg».proof.Proof.Gen.ReferenceIdeal
import proofs.«411123_j9947144258103_3_alg».proof.Proof.Gen.ReferenceIdeal.Run
import proofs.«411123_j9947144258103_3_alg».proof.Proof.Gen.Pre_finite_inputs
import proofs.«411123_j9947144258103_3_alg».proof.Proof.KernelRun
import proofs.«411123_j9947144258103_3_alg».proof.Proof.KernelValue
import proofs.«411123_j9947144258103_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.ShloMosaic.StableHlo Idealize.SL.Sem

/-- The three frames: the two kernel programs' are the generated ones, the reference's is its generated run with the
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The landmark means are one term on both sides: the same three host operations of the same argument. -/
theorem lm_eq (x : FVec Ideal Cert.KernelIdeal.S4x12x4096x64 .f32) (V0 : Valuation Cert.ReferenceIdeal.τ Cert.ReferenceIdeal.sig (Elt Ideal))
    (hx : V0 (Proc.devRef .tc Cert.ReferenceIdeal.main_arg0) = x) :
    Cert.ReferenceIdeal.Value.res_main_v3 V0 = Nys.lmK x := by
  unfold Cert.ReferenceIdeal.Value.res_main_v3 Nys.lmK
  rw [hx]
theorem lm_eq' (x : FVec Ideal Cert.KernelIdeal.S4x12x4096x64 .f32) (V0 : Valuation Cert.ReferenceIdeal.τ Cert.ReferenceIdeal.sig (Elt Ideal))
    (hx : V0 (Proc.devRef .tc Cert.ReferenceIdeal.main_arg1) = x) :
    Cert.ReferenceIdeal.Value.res_main_v7 V0 = Nys.lmK x := by
  unfold Cert.ReferenceIdeal.Value.res_main_v7 Nys.lmK
  rw [hx]

/-- From arguments that agree, both runs end with the result array holding, head by head, one function of the
    arguments: the kernel's by its two pipelines read back, the reference's by its run read back. -/
theorem algebraic : Cert.algebraic_KernelIdeal_ReferenceIdeal := by
  intro m ρ m' ρ' _ hagree
  refine ⟨fun c => Cert.KernelIdeal.Gen.W4 m ρ c (Proc.devRef .tc Cert.KernelIdeal.main_v12),
    Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val5_main_v206 (launchContents m' c)).symm.trans ?_
  have h0 : launchContents m' c (Proc.devRef .tc Cert.ReferenceIdeal.main_arg0)
      = m ((c.tc : Thread Cert.KernelIdeal.nD Cert.KernelIdeal.τ).loc Cert.KernelIdeal.main_arg0) := (hagree c).1
  have h1 : launchContents m' c (Proc.devRef .tc Cert.ReferenceIdeal.main_arg1)
      = m ((c.tc : Thread Cert.KernelIdeal.nD Cert.KernelIdeal.τ).loc Cert.KernelIdeal.main_arg1) := (hagree c).2.1
  have h2 : launchContents m' c (Proc.devRef .tc Cert.ReferenceIdeal.main_arg2)
      = m ((c.tc : Thread Cert.KernelIdeal.nD Cert.KernelIdeal.τ).loc Cert.KernelIdeal.main_arg2) := (hagree c).2.2
  funext idx
  obtain ⟨b, h, s, d, rfl⟩ : ∃ (b : Fin 4) (h : Fin 12) (s : Fin 4096) (d : Fin 64), idx = ix4 b h s d :=
    ⟨idx 0, idx 1, idx 2, idx 3, eq_ix4 idx⟩
  have hr := congrFun (congrFun (Nys.ref_hd4 (launchContents m' c) b h) s) d
  have hk := congrFun (congrFun (Nys.kernel_hd4 m ρ c b h) s) d
  refine hr.trans (Eq.trans ?_ hk.symm)
  rw [lm_eq _ _ h0, lm_eq' _ _ h1, h0, h1, h2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
